-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S59412x500 : Shape := ⟨2, ![59412, 500]⟩
abbrev S200x29696 : Shape := ⟨2, ![200, 29696]⟩
abbrev S200x29716 : Shape := ⟨2, ![200, 29716]⟩
abbrev S_ : Shape := ⟨0, ![]⟩
abbrev S59412 : Shape := ⟨1, ![59412]⟩
abbrev S59412x1 : Shape := ⟨2, ![59412, 1]⟩

class Facts : Prop where
  reducesTo_S59412x500_S59412_d1 : S59412x500.ReducesTo [1] S59412
  h_S_ : 0 < S_.numel
  bcast_S59412_S59412x1_0 : S59412.BroadcastsInDim S59412x1 (![0] : Fin 1 → Fin S59412x1.rank)
  bcast_S_S59412x1 : S_.BroadcastsInDim S59412x1 (![] : Fin 0 → Fin S59412x1.rank)
  bcast_S59412x1_S59412x500_0_1 : S59412x1.BroadcastsInDim S59412x500 (![0, 1] : Fin 2 → Fin S59412x500.rank)
  bcast_S_S59412x500 : S_.BroadcastsInDim S59412x500 (![] : Fin 0 → Fin S59412x500.rank)
  reducesTo_S59412x500_S_d0_1 : S59412x500.ReducesTo [0, 1] S_
  bcast_S_S200x29696 : S_.BroadcastsInDim S200x29696 (![] : Fin 0 → Fin S200x29696.rank)
  reducesTo_S200x29696_S_d0_1 : S200x29696.ReducesTo [0, 1] S_
  bcast_S_S200x29716 : S_.BroadcastsInDim S200x29716 (![] : Fin 0 → Fin S200x29716.rank)
  reducesTo_S200x29716_S_d0_1 : S200x29716.ReducesTo [0, 1] S_
  bcast_S_S59412 : S_.BroadcastsInDim S59412 (![] : Fin 0 → Fin S59412.rank)
  reducesTo_S59412_S_d0 : S59412.ReducesTo [0] S_

variable [Facts]

def fn_part1 {F : FTy → Type} [FloatOps F] (main_v5 : FVec F S59412x500 .f32) (main_v14 : IVec S_ 1) (main_v15 : FVec F S200x29716 .f32) (main_v16 : FVec F S200x29716 .f32) : IVec S_ 1 :=
  let main_v17 : IVec S200x29716 1 := cmpf .olt main_v15 main_v16
  let main_c_5 : IVec S_ 1 := constantI S_ 1 1#1
  let main_v18 : IVec S_ 1 := (fun x v => Host.reduce IntOp.andi x v reducesTo_S200x29716_S_d0_1 h_S_) main_v17 main_c_5
  let main_v19 : IVec S_ 1 := andi main_v14 main_v18
  let main_v20 : FVec F S59412x500 .f32 := mulf main_v5 main_v5
  let main_cst_6 : FVec F S_ .f32 := constant S_ .f32 0x00000000#32
  let main_v21 : FVec F S59412 .f32 := (fun x v => Host.reduceAdd x v reducesTo_S59412x500_S59412_d1 h_S_) main_v20 main_cst_6
  let main_cst_7 : FVec F S_ .f32 := constant S_ .f32 0x00000000#32
  let main_v22 : FVec F S59412 .f32 := broadcastInDim S59412 ![] bcast_S_S59412 main_cst_7
  let main_v23 : IVec S59412 1 := cmpf .ogt main_v21 main_v22
  let main_c_8 : IVec S_ 1 := constantI S_ 1 1#1
  let main_v24 : IVec S_ 1 := (fun x v => Host.reduce IntOp.andi x v reducesTo_S59412_S_d0 h_S_) main_v23 main_c_8
  let main_v25 : IVec S_ 1 := andi main_v19 main_v24
  main_v25

def fn {F : FTy → Type} [FloatOps F] (main_arg0 : FVec F S59412x500 .f32) (main_arg1 : FVec F S200x29696 .f32) (main_arg2 : FVec F S200x29716 .f32) : IVec S_ 1 :=
  let main_cst : FVec F S_ .f32 := constant S_ .f32 0x00000000#32
  let main_v0 : FVec F S59412 .f32 := (fun x v => Host.reduceAdd x v reducesTo_S59412x500_S59412_d1 h_S_) main_arg0 main_cst
  let main_v1 : FVec F S59412x1 .f32 := broadcastInDim S59412x1 ![0] bcast_S59412_S59412x1_0 main_v0
  let main_cst_0 : FVec F S_ .f32 := constant S_ .f32 0x43FA0000#32
  let main_v2 : FVec F S59412x1 .f32 := broadcastInDim S59412x1 ![] bcast_S_S59412x1 main_cst_0
  let main_v3 : FVec F S59412x1 .f32 := Host.divf main_v1 main_v2
  let main_v4 : FVec F S59412x500 .f32 := broadcastInDim S59412x500 ![0, 1] bcast_S59412x1_S59412x500_0_1 main_v3
  let main_v5 : FVec F S59412x500 .f32 := subf main_arg0 main_v4
  let main_v6 : FVec F S59412x500 .f32 := Host.absf main_arg0
  let main_cst_1 : FVec F S_ .f32 := constant S_ .f32 0x7F800000#32
  let main_v7 : FVec F S59412x500 .f32 := broadcastInDim S59412x500 ![] bcast_S_S59412x500 main_cst_1
  let main_v8 : IVec S59412x500 1 := cmpf .olt main_v6 main_v7
  let main_c : IVec S_ 1 := constantI S_ 1 1#1
  let main_v9 : IVec S_ 1 := (fun x v => Host.reduce IntOp.andi x v reducesTo_S59412x500_S_d0_1 h_S_) main_v8 main_c
  let main_v10 : FVec F S200x29696 .f32 := Host.absf main_arg1
  let main_cst_2 : FVec F S_ .f32 := constant S_ .f32 0x7F800000#32
  let main_v11 : FVec F S200x29696 .f32 := broadcastInDim S200x29696 ![] bcast_S_S200x29696 main_cst_2
  let main_v12 : IVec S200x29696 1 := cmpf .olt main_v10 main_v11
  let main_c_3 : IVec S_ 1 := constantI S_ 1 1#1
  let main_v13 : IVec S_ 1 := (fun x v => Host.reduce IntOp.andi x v reducesTo_S200x29696_S_d0_1 h_S_) main_v12 main_c_3
  let main_v14 : IVec S_ 1 := andi main_v9 main_v13
  let main_v15 : FVec F S200x29716 .f32 := Host.absf main_arg2
  let main_cst_4 : FVec F S_ .f32 := constant S_ .f32 0x7F800000#32
  let main_v16 : FVec F S200x29716 .f32 := broadcastInDim S200x29716 ![] bcast_S_S200x29716 main_cst_4
  fn_part1 (F := F) main_v5 main_v14 main_v15 main_v16
-- ==== Kernel.lean ====
abbrev S59412x500 : Shape := ⟨2, ![59412, 500]⟩
abbrev S200x29696 : Shape := ⟨2, ![200, 29696]⟩
abbrev S200x29716 : Shape := ⟨2, ![200, 29716]⟩
abbrev S29696x500 : Shape := ⟨2, ![29696, 500]⟩
abbrev S29716x500 : Shape := ⟨2, ![29716, 500]⟩
abbrev S_ : Shape := ⟨0, ![]⟩
abbrev S200x30720 : Shape := ⟨2, ![200, 30720]⟩
abbrev S30720x500 : Shape := ⟨2, ![30720, 500]⟩
abbrev S1x200x30720 : Shape := ⟨3, ![1, 200, 30720]⟩
abbrev S2x200x30720 : Shape := ⟨3, ![2, 200, 30720]⟩
abbrev S1x30720x500 : Shape := ⟨3, ![1, 30720, 500]⟩
abbrev S2x30720x500 : Shape := ⟨3, ![2, 30720, 500]⟩
abbrev S2x200x500 : Shape := ⟨3, ![2, 200, 500]⟩
abbrev S1x200x1024 : Shape := ⟨3, ![1, 200, 1024]⟩
abbrev S1x1024x500 : Shape := ⟨3, ![1, 1024, 500]⟩
abbrev S1x200x500 : Shape := ⟨3, ![1, 200, 500]⟩
abbrev S200x500 : Shape := ⟨2, ![200, 500]⟩
abbrev S200x1024 : Shape := ⟨2, ![200, 1024]⟩
abbrev S1024x500 : Shape := ⟨2, ![1024, 500]⟩
abbrev S400x500 : Shape := ⟨2, ![400, 500]⟩
abbrev S400 : Shape := ⟨1, ![400]⟩
abbrev S400x1 : Shape := ⟨2, ![400, 1]⟩
abbrev S400x59412 : Shape := ⟨2, ![400, 59412]⟩
abbrev S2048x500 : Shape := ⟨2, ![2048, 500]⟩
abbrev S400x2048 : Shape := ⟨2, ![400, 2048]⟩
abbrev S2048 : Shape := ⟨1, ![2048]⟩
abbrev S2048x1 : Shape := ⟨2, ![2048, 1]⟩

abbrev nBuf : Space → Nat
  | .hbm => 42
  | .vmem => 12
  | .smem => 0
  | _ => 0

abbrev bufTy : (tb : Table) → Fin (tcTables nBuf tb) → BufTy
  | .hbm, ⟨0, _⟩ => ⟨S59412x500, .f32⟩
  | .hbm, ⟨1, _⟩ => ⟨S200x29696, .f32⟩
  | .hbm, ⟨2, _⟩ => ⟨S200x29716, .f32⟩
  | .hbm, ⟨3, _⟩ => ⟨S29696x500, .f32⟩
  | .hbm, ⟨4, _⟩ => ⟨S29716x500, .f32⟩
  | .hbm, ⟨5, _⟩ => ⟨S_, .i32⟩
  | .hbm, ⟨6, _⟩ => ⟨S_, .f32⟩
  | .hbm, ⟨7, _⟩ => ⟨S200x30720, .f32⟩
  | .hbm, ⟨8, _⟩ => ⟨S_, .i32⟩
  | .hbm, ⟨9, _⟩ => ⟨S_, .f32⟩
  | .hbm, ⟨10, _⟩ => ⟨S200x30720, .f32⟩
  | .hbm, ⟨11, _⟩ => ⟨S_, .i32⟩
  | .hbm, ⟨12, _⟩ => ⟨S_, .f32⟩
  | .hbm, ⟨13, _⟩ => ⟨S30720x500, .f32⟩
  | .hbm, ⟨14, _⟩ => ⟨S_, .i32⟩
  | .hbm, ⟨15, _⟩ => ⟨S_, .f32⟩
  | .hbm, ⟨16, _⟩ => ⟨S30720x500, .f32⟩
  | .hbm, ⟨17, _⟩ => ⟨S1x200x30720, .f32⟩
  | .hbm, ⟨18, _⟩ => ⟨S1x200x30720, .f32⟩
  | .hbm, ⟨19, _⟩ => ⟨S2x200x30720, .f32⟩
  | .hbm, ⟨20, _⟩ => ⟨S1x30720x500, .f32⟩
  | .hbm, ⟨21, _⟩ => ⟨S1x30720x500, .f32⟩
  | .hbm, ⟨22, _⟩ => ⟨S2x30720x500, .f32⟩
  | .hbm, ⟨23, _⟩ => ⟨S2x200x500, .f32⟩
  | .hbm, ⟨24, _⟩ => ⟨S400x500, .f32⟩
  | .hbm, ⟨25, _⟩ => ⟨S_, .f32⟩
  | .hbm, ⟨26, _⟩ => ⟨S400, .f32⟩
  | .hbm, ⟨27, _⟩ => ⟨S400x1, .f32⟩
  | .hbm, ⟨28, _⟩ => ⟨S_, .f32⟩
  | .hbm, ⟨29, _⟩ => ⟨S400x1, .f32⟩
  | .hbm, ⟨30, _⟩ => ⟨S400x1, .f32⟩
  | .hbm, ⟨31, _⟩ => ⟨S400x500, .f32⟩
  | .hbm, ⟨32, _⟩ => ⟨S400x500, .f32⟩
  | .hbm, ⟨33, _⟩ => ⟨S400x500, .f32⟩
  | .hbm, ⟨34, _⟩ => ⟨S_, .f32⟩
  | .hbm, ⟨35, _⟩ => ⟨S400, .f32⟩
  | .hbm, ⟨36, _⟩ => ⟨S400x1, .f32⟩
  | .hbm, ⟨37, _⟩ => ⟨S400x1, .f32⟩
  | .hbm, ⟨38, _⟩ => ⟨S400x500, .f32⟩
  | .hbm, ⟨39, _⟩ => ⟨S400x500, .f32⟩
  | .hbm, ⟨40, _⟩ => ⟨S400x500, .bf16⟩
  | .hbm, ⟨41, _⟩ => ⟨S400x59412, .f32⟩
  | .local _ .vmem, ⟨0, _⟩ => ⟨S1x200x1024, .f32⟩
  | .local _ .vmem, ⟨1, _⟩ => ⟨S1x200x1024, .f32⟩
  | .local _ .vmem, ⟨2, _⟩ => ⟨S1x1024x500, .f32⟩
  | .local _ .vmem, ⟨3, _⟩ => ⟨S1x1024x500, .f32⟩
  | .local _ .vmem, ⟨4, _⟩ => ⟨S1x200x500, .f32⟩
  | .local _ .vmem, ⟨5, _⟩ => ⟨S1x200x500, .f32⟩
  | .local _ .vmem, ⟨6, _⟩ => ⟨S200x500, .f32⟩
  | .local _ .vmem, ⟨7, _⟩ => ⟨S400x500, .bf16⟩
  | .local _ .vmem, ⟨8, _⟩ => ⟨S2048x500, .f32⟩
  | .local _ .vmem, ⟨9, _⟩ => ⟨S2048x500, .f32⟩
  | .local _ .vmem, ⟨10, _⟩ => ⟨S400x2048, .f32⟩
  | .local _ .vmem, ⟨11, _⟩ => ⟨S400x2048, .f32⟩
  | _, _ => ⟨S59412x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_c_2 : Ref sig .tc := ⟨.hbm, 14, rfl⟩
abbrev main_call3_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![2, 30], ![false, false]⟩

def k0_cond2 (i : grid0.Coords) : BitVec 1 :=
  let arg1 : BitVec 32 := BitVec.ofNat 32 (i 1).val
  let c29_i32 : BitVec 32 := 29#32
  let v15 : BitVec 1 := Scalar.cmpi .eq arg1 c29_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x200x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x200x500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S400x500 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x500 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S59412x500_S29696x500_0_0 : S59412x500.Slices ![0, 0] S29696x500
  slices_S59412x500_S29716x500_29696_0 : S59412x500.Slices ![29696, 0] S29716x500
  pads_S200x29696_S200x30720_000_010240 : S200x29696.Pads (![0, 0] : Fin 2 → Nat) ![0, 1024] ![0, 0] S200x30720
  h_S_ : 0 < S_.numel
  pads_S200x29716_S200x30720_000_010040 : S200x29716.Pads (![0, 0] : Fin 2 → Nat) ![0, 1004] ![0, 0] S200x30720
  pads_S29696x500_S30720x500_010240_000 : S29696x500.Pads (![0, 0] : Fin 2 → Nat) ![1024, 0] ![0, 0] S30720x500
  pads_S29716x500_S30720x500_010040_000 : S29716x500.Pads (![0, 0] : Fin 2 → Nat) ![1004, 0] ![0, 0] S30720x500
  bcast_S200x30720_S1x200x30720_1_2 : S200x30720.BroadcastsInDim S1x200x30720 (![1, 2] : Fin 2 → Fin S1x200x30720.rank)
  concatenates_S1x200x30720_S1x200x30720_S2x200x30720_d0 : Shape.Concatenates [S1x200x30720, S1x200x30720] S2x200x30720 0
  bcast_S30720x500_S1x30720x500_1_2 : S30720x500.BroadcastsInDim S1x30720x500 (![1, 2] : Fin 2 → Fin S1x30720x500.rank)
  concatenates_S1x30720x500_S1x30720x500_S2x30720x500_d0 : Shape.Concatenates [S1x30720x500, S1x30720x500] S2x30720x500 0
  inb_S200x500_S200x500_0_0 : ∀ a, (![0, 0] : Fin 2 → Nat) a + S200x500.size a ≤ S200x500.size a
  h_S200x500 : 0 < S200x500.numel
  shapeCasts_S200x500_S200x500 : S200x500.ShapeCasts S200x500
  inb_S1x200x1024_S1x200x1024_0_0_0 : ∀ a, (![0, 0, 0] : Fin 3 → Nat) a + S1x200x1024.size a ≤ S1x200x1024.size a
  h_S1x200x1024 : 0 < S1x200x1024.numel
  shapeCasts_S1x200x1024_S200x1024 : S1x200x1024.ShapeCasts S200x1024
  bitsLt_bf16_f32 : FTy.bits .bf16 < FTy.bits .f32
  inb_S1x1024x500_S1x1024x500_0_0_0 : ∀ a, (![0, 0, 0] : Fin 3 → Nat) a + S1x1024x500.size a ≤ S1x1024x500.size a
  h_S1x1024x500 : 0 < S1x1024x500.numel
  shapeCasts_S1x1024x500_S1024x500 : S1x1024x500.ShapeCasts S1024x500
  inb_S1x200x500_S1x200x500_0_0_0 : ∀ a, (![0, 0, 0] : Fin 3 → Nat) a + S1x200x500.size a ≤ S1x200x500.size a
  h_S1x200x500 : 0 < S1x200x500.numel
  shapeCasts_S1x200x500_S200x500 : S1x200x500.ShapeCasts S200x500
  shapeCasts_S200x500_S1x200x500 : S200x500.ShapeCasts S1x200x500
  shapeCasts_S2x200x500_S400x500 : S2x200x500.ShapeCasts S400x500
  reducesTo_S400x500_S400_d1 : S400x500.ReducesTo [1] S400
  bcast_S400_S400x1_0 : S400.BroadcastsInDim S400x1 (![0] : Fin 1 → Fin S400x1.rank)
  bcast_S_S400x1 : S_.BroadcastsInDim S400x1 (![] : Fin 0 → Fin S400x1.rank)
  bcast_S400x1_S400x500_0_1 : S400x1.BroadcastsInDim S400x500 (![0, 1] : Fin 2 → Fin S400x500.rank)
  inb_S2048x500_S2048x500_0_0 : ∀ a, (![0, 0] : Fin 2 → Nat) a + S2048x500.size a ≤ S2048x500.size a
  h_S2048x500 : 0 < S2048x500.numel
  reduces_S2048x500_S2048 : S2048x500.Reduces [1] S2048
  shapeCasts_S2048_S2048x1 : S2048.ShapeCasts S2048x1
  broadcasts_S2048x1_S2048x500 : S2048x1.Broadcasts S2048x500
  inb_S400x500_S400x500_0_0 : ∀ a, (![0, 0] : Fin 2 → Nat) a + S400x500.size a ≤ S400x500.size a
  h_S400x500 : 0 < S400x500.numel
  shapeCasts_S400x500_S400x500 : S400x500.ShapeCasts S400x500
  inb_S400x2048_S400x2048_0_0 : ∀ a, (![0, 0] : Fin 2 → Nat) a + S400x2048.size a ≤ S400x2048.size a
  h_S400x2048 : 0 < S400x2048.numel
  dot_S200x1024_S1024x500_S200x500_1_0_0_1_n_n_wf : DotDims.WF S200x1024 S1024x500 S200x500 [1] [0] [0] [1] [] []
  dot_S400x500_S2048x500_S400x2048_1_1_0_0_n_n_wf : DotDims.WF S400x500 S2048x500 S400x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x1024.size a ≤ S2x200x30720.size a
  hwx0_0 : ∀ i : grid0.Coords, EltTy.bits .f32 = 32 ∨ (Rect.block (s := S2x200x30720) S1x200x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x500.size a ≤ S2x30720x500.size a
  hwx0_1 : ∀ i : grid0.Coords, EltTy.bits .f32 = 32 ∨ (Rect.block (s := S2x30720x500) S1x1024x500.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x200x500.size a ≤ S2x200x500.size a
  hwx0_2 : ∀ i : grid0.Coords, EltTy.bits .f32 = 32 ∨ (Rect.block (s := S2x200x500) S1x200x500.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S400x500.size a ≤ S400x500.size a
  hwx1_0 : ∀ i : grid1.Coords, EltTy.bits .bf16 = 32 ∨ (Rect.block (s := S400x500) S400x500.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x500.size a < S59412x500.size a
  hwx1_1 : ∀ i : grid1.Coords, EltTy.bits .f32 = 32 ∨ (Rect.unit (s := S59412x500) (fun a => cc1_transform_1 i a * S2048x500.size a) (fun a => (Pipeline.Clip.of (cc1_transform_1 i a) (S2048x500.size a) (S59412x500.size a)).extent (S2048x500.size a)) fun a => Pipeline.Clip.inb (Pipeline.Clip.ok_of (hstart1_1 i a))).WholeWords (EltTy.packing .f32)
  hwxs1_1 : ∀ i : grid1.Coords, EltTy.bits .f32 = 32 ∨ (Rect.unit (s := S2048x500) (fun _ => 0) (fun a => (Pipeline.Clip.of (cc1_transform_1 i a) (S2048x500.size a) (S59412x500.size a)).extent (S2048x500.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S400x2048.size a < S400x59412.size a
  hwx1_2 : ∀ i : grid1.Coords, EltTy.bits .f32 = 32 ∨ (Rect.unit (s := S400x59412) (fun a => cc1_transform_2 i a * S400x2048.size a) (fun a => (Pipeline.Clip.of (cc1_transform_2 i a) (S400x2048.size a) (S400x59412.size a)).extent (S400x2048.size a)) fun a => Pipeline.Clip.inb (Pipeline.Clip.ok_of (hstart1_2 i a))).WholeWords (EltTy.packing .f32)
  hwxs1_2 : ∀ i : grid1.Coords, EltTy.bits .f32 = 32 ∨ (Rect.unit (s := S400x2048) (fun _ => 0) (fun a => (Pipeline.Clip.of (cc1_transform_2 i a) (S400x2048.size a) (S400x59412.size a)).extent (S400x2048.size a)) fun a => (Nat.zero_add _).trans_le (Pipeline.Clip.extent_le (Pipeline.Clip.ok_of (hstart1_2 i a)))).WholeWords (EltTy.packing .f32)

variable [Facts₀]

def dot_S200x1024_S1024x500_S200x500_1_0_0_1_n_n : DotDims S200x1024 S1024x500 S200x500 where
  lhsContracting := [1]
  rhsContracting := [0]
  lhsNonContracting := [0]
  rhsNonContracting := [1]
  lhsBatch := []
  rhsBatch := []
  wf := dot_S200x1024_S1024x500_S200x500_1_0_0_1_n_n_wf
def dot_S400x500_S2048x500_S400x2048_1_1_0_0_n_n : DotDims S400x500 S2048x500 S400x2048 where
  lhsContracting := [1]
  rhsContracting := [1]
  lhsNonContracting := [0]
  rhsNonContracting := [0]
  lhsBatch := []
  rhsBatch := []
  wf := dot_S400x500_S2048x500_S400x2048_1_1_0_0_n_n_wf

abbrev win0_0 : Pipeline.Window sig grid0 :=
  Pipeline.Window.ofSpec (Memref.whole main_v8) S1x200x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x1024x500.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x200x500.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v26) S400x500.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg0) S2048x500.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v27) S400x2048.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S59412x500 : Shape := ⟨2, ![59412, 500]⟩
abbrev S200x29696 : Shape := ⟨2, ![200, 29696]⟩
abbrev S200x29716 : Shape := ⟨2, ![200, 29716]⟩
abbrev S_ : Shape := ⟨0, ![]⟩
abbrev S29696x500 : Shape := ⟨2, ![29696, 500]⟩
abbrev S200x500 : Shape := ⟨2, ![200, 500]⟩
abbrev S29716x500 : Shape := ⟨2, ![29716, 500]⟩
abbrev S400x500 : Shape := ⟨2, ![400, 500]⟩
abbrev S400 : Shape := ⟨1, ![400]⟩
abbrev S400x1 : Shape := ⟨2, ![400, 1]⟩
abbrev S59412 : Shape := ⟨1, ![59412]⟩
abbrev S59412x1 : Shape := ⟨2, ![59412, 1]⟩
abbrev S500x59412 : Shape := ⟨2, ![500, 59412]⟩
abbrev S400x59412 : Shape := ⟨2, ![400, 59412]⟩
abbrev S1x59412 : Shape := ⟨2, ![1, 59412]⟩

abbrev nBuf : Space → Nat
  | .hbm => 44
  | .vmem => 0
  | .smem => 0
  | _ => 0

abbrev bufTy : (tb : Table) → Fin (tcTables nBuf tb) → BufTy
  | .hbm, ⟨0, _⟩ => ⟨S59412x500, .f32⟩
  | .hbm, ⟨1, _⟩ => ⟨S200x29696, .f32⟩
  | .hbm, ⟨2, _⟩ => ⟨S200x29716, .f32⟩
  | .hbm, ⟨3, _⟩ => ⟨S_, .i32⟩
  | .hbm, ⟨4, _⟩ => ⟨S_, .i32⟩
  | .hbm, ⟨5, _⟩ => ⟨S29696x500, .f32⟩
  | .hbm, ⟨6, _⟩ => ⟨S200x500, .f32⟩
  | .hbm, ⟨7, _⟩ => ⟨S_, .i32⟩
  | .hbm, ⟨8, _⟩ => ⟨S_, .i32⟩
  | .hbm, ⟨9, _⟩ => ⟨S29716x500, .f32⟩
  | .hbm, ⟨10, _⟩ => ⟨S200x500, .f32⟩
  | .hbm, ⟨11, _⟩ => ⟨S400x500, .f32⟩
  | .hbm, ⟨12, _⟩ => ⟨S_, .f32⟩
  | .hbm, ⟨13, _⟩ => ⟨S400, .f32⟩
  | .hbm, ⟨14, _⟩ => ⟨S400x1, .f32⟩
  | .hbm, ⟨15, _⟩ => ⟨S_, .f32⟩
  | .hbm, ⟨16, _⟩ => ⟨S400x1, .f32⟩
  | .hbm, ⟨17, _⟩ => ⟨S400x1, .f32⟩
  | .hbm, ⟨18, _⟩ => ⟨S400x500, .f32⟩
  | .hbm, ⟨19, _⟩ => ⟨S400x500, .f32⟩
  | .hbm, ⟨20, _⟩ => ⟨S_, .f32⟩
  | .hbm, ⟨21, _⟩ => ⟨S59412, .f32⟩
  | .hbm, ⟨22, _⟩ => ⟨S59412x1, .f32⟩
  | .hbm, ⟨23, _⟩ => ⟨S_, .f32⟩
  | .hbm, ⟨24, _⟩ => ⟨S59412x1, .f32⟩
  | .hbm, ⟨25, _⟩ => ⟨S59412x1, .f32⟩
  | .hbm, ⟨26, _⟩ => ⟨S59412x500, .f32⟩
  | .hbm, ⟨27, _⟩ => ⟨S59412x500, .f32⟩
  | .hbm, ⟨28, _⟩ => ⟨S500x59412, .f32⟩
  | .hbm, ⟨29, _⟩ => ⟨S400x59412, .f32⟩
  | .hbm, ⟨30, _⟩ => ⟨S400x500, .f32⟩
  | .hbm, ⟨31, _⟩ => ⟨S_, .f32⟩
  | .hbm, ⟨32, _⟩ => ⟨S400, .f32⟩
  | .hbm, ⟨33, _⟩ => ⟨S400, .f32⟩
  | .hbm, ⟨34, _⟩ => ⟨S400x1, .f32⟩
  | .hbm, ⟨35, _⟩ => ⟨S59412x500, .f32⟩
  | .hbm, ⟨36, _⟩ => ⟨S_, .f32⟩
  | .hbm, ⟨37, _⟩ => ⟨S59412, .f32⟩
  | .hbm, ⟨38, _⟩ => ⟨S59412, .f32⟩
  | .hbm, ⟨39, _⟩ => ⟨S1x59412, .f32⟩
  | .hbm, ⟨40, _⟩ => ⟨S400x59412, .f32⟩
  | .hbm, ⟨41, _⟩ => ⟨S400x59412, .f32⟩
  | .hbm, ⟨42, _⟩ => ⟨S400x59412, .f32⟩
  | .hbm, ⟨43, _⟩ => ⟨S400x59412, .f32⟩
  | _, _ => ⟨S59412x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_c_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]

class Facts₀ : Prop where
  sliceFits_S59412x500_S29696x500 : S59412x500.Slices (fun _ => 0) S29696x500
  h_S_ : 0 < S_.numel
  sliceFits_S59412x500_S29716x500 : S59412x500.Slices (fun _ => 0) S29716x500
  concatenates_S200x500_S200x500_S400x500_d0 : Shape.Concatenates [S200x500, S200x500] S400x500 0
  reducesTo_S400x500_S400_d1 : S400x500.ReducesTo [1] S400
  bcast_S400_S400x1_0 : S400.BroadcastsInDim S400x1 (![0] : Fin 1 → Fin S400x1.rank)
  bcast_S_S400x1 : S_.BroadcastsInDim S400x1 (![] : Fin 0 → Fin S400x1.rank)
  bcast_S400x1_S400x500_0_1 : S400x1.BroadcastsInDim S400x500 (![0, 1] : Fin 2 → Fin S400x500.rank)
  reducesTo_S59412x500_S59412_d1 : S59412x500.ReducesTo [1] S59412
  bcast_S59412_S59412x1_0 : S59412.BroadcastsInDim S59412x1 (![0] : Fin 1 → Fin S59412x1.rank)
  bcast_S_S59412x1 : S_.BroadcastsInDim S59412x1 (![] : Fin 0 → Fin S59412x1.rank)
  bcast_S59412x1_S59412x500_0_1 : S59412x1.BroadcastsInDim S59412x500 (![0, 1] : Fin 2 → Fin S59412x500.rank)
  transposes_S59412x500_S500x59412_1_0 : S59412x500.Transposes [1, 0] S500x59412
  bcast_S59412_S1x59412_1 : S59412.BroadcastsInDim S1x59412 (![1] : Fin 1 → Fin S1x59412.rank)
  bcast_S400x1_S400x59412_0_1 : S400x1.BroadcastsInDim S400x59412 (![0, 1] : Fin 2 → Fin S400x59412.rank)
  bcast_S1x59412_S400x59412_0_1 : S1x59412.BroadcastsInDim S400x59412 (![0, 1] : Fin 2 → Fin S400x59412.rank)
  dot_S200x29696_S29696x500_S200x500_1_0_0_1_n_n_wf : DotDims.WF S200x29696 S29696x500 S200x500 [1] [0] [0] [1] [] []
  dot_S200x29716_S29716x500_S200x500_1_0_0_1_n_n_wf : DotDims.WF S200x29716 S29716x500 S200x500 [1] [0] [0] [1] [] []
  dot_S400x500_S500x59412_S400x59412_1_0_0_1_n_n_wf : DotDims.WF S400x500 S500x59412 S400x59412 [1] [0] [0] [1] [] []

variable [Facts₀]

def dot_S200x29696_S29696x500_S200x500_1_0_0_1_n_n : DotDims S200x29696 S29696x500 S200x500 where
  lhsContracting := [1]
  rhsContracting := [0]
  lhsNonContracting := [0]
  rhsNonContracting := [1]
  lhsBatch := []
  rhsBatch := []
  wf := dot_S200x29696_S29696x500_S200x500_1_0_0_1_n_n_wf
def dot_S200x29716_S29716x500_S200x500_1_0_0_1_n_n : DotDims S200x29716 S29716x500 S200x500 where
  lhsContracting := [1]
  rhsContracting := [0]
  lhsNonContracting := [0]
  rhsNonContracting := [1]
  lhsBatch := []
  rhsBatch := []
  wf := dot_S200x29716_S29716x500_S200x500_1_0_0_1_n_n_wf
def dot_S400x500_S500x59412_S400x59412_1_0_0_1_n_n : DotDims S400x500 S500x59412 S400x59412 where
  lhsContracting := [1]
  rhsContracting := [0]
  lhsNonContracting := [0]
  rhsNonContracting := [1]
  lhsBatch := []
  rhsBatch := []
  wf := dot_S400x500_S500x59412_S400x59412_1_0_0_1_n_n_wf

class Facts : Prop extends Facts₀ where

variable [Facts]
-- ==== Proof.R0.lean ====
/-
  The first kernel region (the two compartments' linear references, the contraction axis cut in thirty blocks of
  1024): its proof data and its body at every grid point. The grid is (compartment, block) in row-major order, so
  point n is compartment n / 30 and block n % 30. The scratch accumulator is carried between points: reset to zero
  at block 0 of each compartment, the block's product added at every point; the result window is stored only at
  block 29 (from the accumulator) and is idle at the other points.
-/
import proofs.«159284_j4690104287245_2_alg».proof.Proof.Gen.KernelIdeal.Launch
import proofs.«159284_j4690104287245_2_alg».proof.Proof.Gen.KernelIdeal.Skeleton
import proofs.«159284_j4690104287245_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight block and the locus block of point `t`, at their literal types. -/
abbrev wblk (c : Dev nD) (t : Fin cfg0.N) : Vec F S1x200x1024 .f32 := iblk0 V c 0 t
abbrev xblk (c : Dev nD) (t : Fin cfg0.N) : Vec F S1x1024x500 .f32 := iblk0 V c 1 t

/-- The scratch operand: a whole scoped buffer of the kernel's own. -/
abbrev scM0 : Memref sig .tc .vmem S200x500 .f32 := Memref.whole cc0_scratch0

/-- The body's first branch condition (the block index is zero), from the grid coordinates. -/
abbrev cond0_0 (i : grid0.Coords) : Prop := (Scalar.cmpi .ne (Scalar.extui (Scalar.cmpi .eq (BitVec.ofNat 32 (i 1).val) 0#32)) 0#32) = 1#1
/-- Its second (the block index is the last, 29). -/
abbrev cond0_1 (i : grid0.Coords) : Prop := k0_cond2 i = 1#1

/-- What one run of the body leaves in the accumulator, from the two input blocks and what it found there. -/
def accStep (i : grid0.Coords) (x0 : Vec F S1x200x1024 .f32) (x1 : Vec F S1x1024x500 .f32) (s : Vec F S200x500 .f32) : Vec F S200x500 .f32 :=
  k0_pay2 x0 x1 (if cond0_0 i then k0_pay1 else s)

/-- THE ACCUMULATION: what the scratch holds after the body at point `n`. -/
def acc0 (c : Dev nD) : ℕ → Vec F S200x500 .f32
  | 0 => if h : 0 < cfg0.N then accStep (grid0.coords ⟨0, h⟩) (wblk V c ⟨0, h⟩) (xblk V c ⟨0, h⟩) k0_pay1 else k0_pay1
  | n + 1 => if h : n + 1 < cfg0.N then accStep (grid0.coords ⟨n + 1, h⟩) (wblk V c ⟨n + 1, h⟩) (xblk V c ⟨n + 1, h⟩) (acc0 c n) else k0_pay1

/-- The other scoped buffers of the core (the second region's staging buffers), each whole at some contents. -/
def Oth0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region invariant before position `n`: the scratch at some contents, which after a point that is not the
    last of a compartment's thirty are what that point left; the other scoped buffers; the generator register. -/
def Phi0 (c : Dev nD) (n : ℕ) : sProp 𝕄 :=
  iprop((∃ s, ⌜n % 30 ≠ 0 → s = acc0 V c (n - 1)⌝ ∗ owns (c : Thread nD τ) scM0 fullShare s) ∗ Oth0 (F := F) c ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val)
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val) := by dsimp only [dat0]

/-- After a list of stores whose LAST is a store of the whole buffer (the unit rectangle at zero offsets), the buffer
    reads as that store's payload, whatever came before. -/
theorem read_writes_whole_last {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- The body on whole memrefs: the two input blocks unchanged, the accumulator at `accStep`, the result buffer at
    the accumulator re-laid when the block is the last and untouched otherwise. -/
theorem sound_kernel0 (c : Dev nD) (E : Set ℕ) (i : grid0.Coords)
    (arg2 : Memref sig .tc .vmem S1x200x1024 .f32) (harg2 : arg2.IsWhole) (arg3 : Memref sig .tc .vmem S1x1024x500 .f32) (harg3 : arg3.IsWhole)
    (arg4 : Memref sig .tc .vmem S1x200x500 .f32) (harg4 : arg4.IsWhole) (arg5 : Memref sig .tc .vmem S200x500 .f32) (harg5 : arg5.IsWhole)
    (x0 : Vec F S1x200x1024 .f32) (x1 : Vec F S1x1024x500 .f32) (o : Vec F S1x200x500 .f32) (s : Vec F S200x500 .f32) (K : PUnit → sProp 𝕄) :
    iprop(owns (c : Thread nD τ) arg2 fullShare x0 ∗ owns (c : Thread nD τ) arg3 fullShare x1
        ∗ owns (c : Thread nD τ) arg4 fullShare o ∗ owns (c : Thread nD τ) arg5 fullShare s
        ∗ (iprop(owns (c : Thread nD τ) arg2 fullShare x0 ∗ owns (c : Thread nD τ) arg3 fullShare x1
            ∗ owns (c : Thread nD τ) arg4 fullShare (if cond0_1 i then k0_pay3 (accStep i x0 x1 s) else o)
            ∗ owns (c : Thread nD τ) arg5 fullShare (accStep i x0 x1 s)) -∗ K ⟨⟩))
      ⊢ wp frame (wpE (defs₀ (F := F)) Variants.none c none) E (cc0__linear_reduce_fused_kernel i arg2 harg2 arg3 harg3 arg4 harg4 arg5 harg5) K := by
  have hz2 : (![0, 0] : Fin 2 → Nat) = fun _ => 0 := funext fun a => by fin_cases a <;> rfl
  have hz3 : (![0, 0, 0] : Fin 3 → Nat) = fun _ => 0 := funext fun a => by fin_cases a <;> rfl
  simp only [cc0__linear_reduce_fused_kernel_eq_skeleton]; unfold cc0__linear_reduce_fused_kernel_skel
  unfold owns
  iintro ⟨⟨%f2, %hf2, H2⟩, ⟨%f3, %hf3, H3⟩, ⟨%f4, %hf4, H4⟩, ⟨%f5, %hf5, H5⟩, Hk⟩
  subst hf2; subst hf3; subst hf4; subst hf5
  by_cases hc0 : cond0_0 i
  · by_cases hc1 : cond0_1 i
    · sl_exec (disch := first | exact hc0 | exact hc1)
      sl_step
      iapply Hk
      isplitl [H2]
      · iexists f2; isplitr; · ipureintro; rfl
        iexact H2
      isplitl [H3]
      · iexists f3; isplitr; · ipureintro; rfl
        iexact H3
      isplitl [H4]
      · iexists _; isplitr
        swap; · iexact H4
        ipureintro
        rw [if_pos hc1]
        sl_unfold_words
        rw [read_writes_whole_last _ _ hz3, View.readCov_cons_toLoadRect]
        unfold accStep; rw [if_pos hc0]
        simp only [View.readAt_eq_ld, View.ld_unit_zero (S := S1x200x1024) hz3, View.ld_unit_zero (S := S1x1024x500) hz3,
          View.ld_unit_zero (S := S200x500) hz2, View.readCov_unit_zero (S := S200x500) _ hz2]
      · iexists _; isplitr
        swap; · iexact H5
        ipureintro
        sl_unfold_words
        rw [read_writes_whole_last _ _ hz2]
        unfold accStep; rw [if_pos hc0]
        simp only [View.readAt_eq_ld, View.ld_unit_zero (S := S1x200x1024) hz3, View.ld_unit_zero (S := S1x1024x500) hz3,
          View.ld_unit_zero (S := S200x500) hz2, View.readCov_unit_zero (S := S200x500) _ hz2]
    · sl_exec (disch := first | exact hc0 | exact hc1)
      sl_step
      iapply Hk
      isplitl [H2]
      · iexists f2; isplitr; · ipureintro; rfl
        iexact H2
      isplitl [H3]
      · iexists f3; isplitr; · ipureintro; rfl
        iexact H3
      isplitl [H4]
      · iexists _; isplitr
        swap; · iexact H4
        ipureintro
        rw [if_neg hc1]
      · iexists _; isplitr
        swap; · iexact H5
        ipureintro
        sl_unfold_words
        rw [read_writes_whole_last _ _ hz2]
        unfold accStep; rw [if_pos hc0]
        simp only [View.readAt_eq_ld, View.ld_unit_zero (S := S1x200x1024) hz3, View.ld_unit_zero (S := S1x1024x500) hz3,
          View.ld_unit_zero (S := S200x500) hz2, View.readCov_unit_zero (S := S200x500) _ hz2]
  · by_cases hc1 : cond0_1 i
    · sl_exec (disch := first | exact hc0 | exact hc1)
      sl_step
      iapply Hk
      isplitl [H2]
      · iexists f2; isplitr; · ipureintro; rfl
        iexact H2
      isplitl [H3]
      · iexists f3; isplitr; · ipureintro; rfl
        iexact H3
      isplitl [H4]
      · iexists _; isplitr
        swap; · iexact H4
        ipureintro
        rw [if_pos hc1]
        sl_unfold_words
        rw [read_writes_whole_last _ _ hz3, View.readCov_cons_toLoadRect]
        unfold accStep; rw [if_neg hc0]
        simp only [View.readAt_eq_ld, View.ld_unit_zero (S := S1x200x1024) hz3, View.ld_unit_zero (S := S1x1024x500) hz3,
          View.ld_unit_zero (S := S200x500) hz2, View.readCov_unit_zero (S := S200x500) _ hz2]
      · iexists _; isplitr
        swap; · iexact H5
        ipureintro
        sl_unfold_words
        rw [read_writes_whole_last _ _ hz2]
        unfold accStep; rw [if_neg hc0]
        simp only [View.readAt_eq_ld, View.ld_unit_zero (S := S1x200x1024) hz3, View.ld_unit_zero (S := S1x1024x500) hz3,
          View.ld_unit_zero (S := S200x500) hz2, View.readCov_unit_zero (S := S200x500) _ hz2]
    · sl_exec (disch := first | exact hc0 | exact hc1)
      sl_step
      iapply Hk
      isplitl [H2]
      · iexists f2; isplitr; · ipureintro; rfl
        iexact H2
      isplitl [H3]
      · iexists f3; isplitr; · ipureintro; rfl
        iexact H3
      isplitl [H4]
      · iexists _; isplitr
        swap; · iexact H4
        ipureintro
        rw [if_neg hc1]
      · iexists _; isplitr
        swap; · iexact H5
        ipureintro
        sl_unfold_words
        rw [read_writes_whole_last _ _ hz2]
        unfold accStep; rw [if_neg hc0]
        simp only [View.readAt_eq_ld, View.ld_unit_zero (S := S1x200x1024) hz3, View.ld_unit_zero (S := S1x1024x500) hz3,
          View.ld_unit_zero (S := S200x500) hz2, View.readCov_unit_zero (S := S200x500) _ hz2]

/-- When the block index is zero the accumulator is reset first, so what it held does not matter. -/
theorem accStep_reset (i : grid0.Coords) (h : cond0_0 i) (x0 : Vec F S1x200x1024 .f32) (x1 : Vec F S1x1024x500 .f32)
    (s s' : Vec F S200x500 .f32) : accStep i x0 x1 s = accStep i x0 x1 s' := by
  unfold accStep; rw [if_pos h, if_pos h]

/-- The body at a last block: the result buffer ends at the accumulator re-laid. -/
theorem sound_kernel0_last (c : Dev nD) (E : Set ℕ) (i : grid0.Coords) (hc1 : cond0_1 i)
    (arg2 : Memref sig .tc .vmem S1x200x1024 .f32) (harg2 : arg2.IsWhole) (arg3 : Memref sig .tc .vmem S1x1024x500 .f32) (harg3 : arg3.IsWhole)
    (arg4 : Memref sig .tc .vmem S1x200x500 .f32) (harg4 : arg4.IsWhole) (arg5 : Memref sig .tc .vmem S200x500 .f32) (harg5 : arg5.IsWhole)
    (x0 : Vec F S1x200x1024 .f32) (x1 : Vec F S1x1024x500 .f32) (o : Vec F S1x200x500 .f32) (s a : Vec F S200x500 .f32)
    (ha : accStep i x0 x1 s = a) (K : PUnit → sProp 𝕄) :
    iprop(owns (c : Thread nD τ) arg2 fullShare x0 ∗ owns (c : Thread nD τ) arg3 fullShare x1
        ∗ owns (c : Thread nD τ) arg4 fullShare o ∗ owns (c : Thread nD τ) arg5 fullShare s
        ∗ (iprop(owns (c : Thread nD τ) arg2 fullShare x0 ∗ owns (c : Thread nD τ) arg3 fullShare x1
            ∗ owns (c : Thread nD τ) arg4 fullShare (k0_pay3 a)
            ∗ owns (c : Thread nD τ) arg5 fullShare a) -∗ K ⟨⟩))
      ⊢ wp frame (wpE (defs₀ (F := F)) Variants.none c none) E (cc0__linear_reduce_fused_kernel i arg2 harg2 arg3 harg3 arg4 harg4 arg5 harg5) K := by
  subst ha
  have h := sound_kernel0 (F := F) c E i arg2 harg2 arg3 harg3 arg4 harg4 arg5 harg5 x0 x1 o s K
  rwa [if_pos hc1] at h

/-- The body at any other block: the result buffer is left as found. -/
theorem sound_kernel0_mid (c : Dev nD) (E : Set ℕ) (i : grid0.Coords) (hc1 : ¬cond0_1 i)
    (arg2 : Memref sig .tc .vmem S1x200x1024 .f32) (harg2 : arg2.IsWhole) (arg3 : Memref sig .tc .vmem S1x1024x500 .f32) (harg3 : arg3.IsWhole)
    (arg4 : Memref sig .tc .vmem S1x200x500 .f32) (harg4 : arg4.IsWhole) (arg5 : Memref sig .tc .vmem S200x500 .f32) (harg5 : arg5.IsWhole)
    (x0 : Vec F S1x200x1024 .f32) (x1 : Vec F S1x1024x500 .f32) (o : Vec F S1x200x500 .f32) (s a : Vec F S200x500 .f32)
    (ha : accStep i x0 x1 s = a) (K : PUnit → sProp 𝕄) :
    iprop(owns (c : Thread nD τ) arg2 fullShare x0 ∗ owns (c : Thread nD τ) arg3 fullShare x1
        ∗ owns (c : Thread nD τ) arg4 fullShare o ∗ owns (c : Thread nD τ) arg5 fullShare s
        ∗ (iprop(owns (c : Thread nD τ) arg2 fullShare x0 ∗ owns (c : Thread nD τ) arg3 fullShare x1
            ∗ owns (c : Thread nD τ) arg4 fullShare o
            ∗ owns (c : Thread nD τ) arg5 fullShare a) -∗ K ⟨⟩))
      ⊢ wp frame (wpE (defs₀ (F := F)) Variants.none c none) E (cc0__linear_reduce_fused_kernel i arg2 harg2 arg3 harg3 arg4 harg4 arg5 harg5) K := by
  subst ha
  have h := sound_kernel0 (F := F) c E i arg2 harg2 arg3 harg3 arg4 harg4 arg5 harg5 x0 x1 o s K
  rwa [if_neg hc1] at h

/-! ## The conditions and the schedule in closed form -/

/-- The first condition holds at the points ≡ 0 (mod 30): the first block of each compartment. -/
theorem hcond0_0 : ∀ t : Fin cfg0.N, cond0_0 (grid0.coords t) ↔ t.val % 30 = 0 :=
  (by decide +kernel : ∀ t : Fin grid0.N, cond0_0 (grid0.coords t) ↔ t.val % 30 = 0)
/-- The second at the points ≡ 29 (mod 30): the last block of each compartment. -/
theorem hcond0_1 : ∀ t : Fin cfg0.N, cond0_1 (grid0.coords t) ↔ t.val % 30 = 29 :=
  (by decide +kernel : ∀ t : Fin grid0.N, cond0_1 (grid0.coords t) ↔ t.val % 30 = 29)

/-- The input windows are never idle; the result window is live exactly at the last blocks, and elsewhere idle and not written back. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, t.val % 30 = 29 → cfg0.idle 2 (grid0.coords t) = false := by decide +kernel
theorem idleAt0_2 : ∀ t : Fin cfg0.N, ¬t.val % 30 = 29 → cfg0.idle 2 (grid0.coords t) = true := by decide +kernel
theorem noFlush0_2 : ∀ t : Fin cfg0.N, ¬t.val % 30 = 29 → (cfg0.win 2).flush t = false := by decide +kernel

/-! ## The accumulation, one step -/

/-- One run of the body over what the invariant says the accumulator holds leaves the accumulation at this point. -/
theorem acc0_step (c : Dev nD) (t : Fin cfg0.N) (s : Vec F S200x500 .f32) (hs : t.val % 30 ≠ 0 → s = acc0 V c (t.val - 1)) :
    accStep (grid0.coords t) (wblk V c t) (xblk V c t) s = acc0 V c t.val := by
  obtain ⟨n, hn⟩ := t
  cases n with
  | zero =>
    rw [acc0, dif_pos hn]
    exact accStep_reset _ ((hcond0_0 ⟨0, hn⟩).mpr (Nat.zero_mod _)) _ _ _ _
  | succ n =>
    rw [acc0, dif_pos hn]
    by_cases h : (n + 1) % 30 = 0
    · exact accStep_reset _ ((hcond0_0 ⟨n + 1, hn⟩).mpr h) _ _ _ _
    · have e := hs h
      dsimp only at e
      rw [Nat.add_sub_cancel] at e
      rw [e]

/-! ## What the body finds in the input windows' buffers -/

/-- Each input's current staging buffer holds its block at every point (it is fetched at every point, and the body
    leaves it in place). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The invariant at a point's start and end, at the point's number. -/
theorem Phi_castSucc0 (c : Dev nD) (t : Fin cfg0.N) : (dat0 V c).Φ t.castSucc = Phi0 V c t.val := by
  dsimp only [dat0]; simp only [Fin.coe_castSucc]
theorem Phi_succ0 (c : Dev nD) (t : Fin cfg0.N) : (dat0 V c).Φ t.succ = Phi0 V c (t.val + 1) := by
  dsimp only [dat0]; simp only [Fin.val_succ]

/-! ## The body obligation, at a generic point -/

/-- What the body is called with at point `t` (the library's obligation, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point. The inputs' buffers hold their blocks; the invariant hands over the accumulator, holding the
    accumulation up to the point before unless this is a compartment's first block (where the body resets it), and
    takes it back holding the accumulation up to this point (`acc0_step`). At a compartment's last block the result
    buffer is stored from the accumulator; elsewhere it is idle and handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi_castSucc0, Phi_succ0]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  unfold Phi0
  by_cases h1 : t.val % 30 = 29
  · rw [show (dat0 V c).leavesExact 2 t = owns (c : Thread nD τ) (st0_2 t) fullShare ((dat0 V c).after 2 t) from by
      unfold Dat.leavesExact; rw [liveAt0_2 t h1], after0_2]
    iintro ⟨⟨⟨%s, %hs, HS⟩, HO, Hg⟩, Ho, ⟨%d0, H0⟩, ⟨%d1, H1⟩, ⟨%d2, H2⟩⟩
    iapply (sound_kernel0_last c Set.univ (grid0.coords t) ((hcond0_1 t).mpr h1) _ _ _ _ _ _ _ _ (wblk V c t) (xblk V c t) _ s
      (acc0 V c t.val) (acc0_step V c t s hs) _)
    isplitl [H0]; · iexact H0
    isplitl [H1]; · iexact H1
    isplitl [H2]; · iexact H2
    isplitl [HS]; · iexact HS
    iintro ⟨H0, H1, H2, HS⟩
    isplitl [HS HO Hg]
    · isplitl [HS]
      · iexists (acc0 V c t.val); isplitr
        · ipureintro; intro _; rw [Nat.add_sub_cancel]
        iexact HS
      isplitl [HO]; · iexact HO
      iexact Hg
    isplitl [Ho]; · iexact Ho
    isplitl [H0]; · iexact H0
    isplitl [H1]; · iexact H1
    iexact H2
  · rw [Dat.leavesExact_idle (dat0 V c) 2 t (idleAt0_2 t h1) (noFlush0_2 t h1)]
    iintro ⟨⟨⟨%s, %hs, HS⟩, HO, Hg⟩, Ho, ⟨%d0, H0⟩, ⟨%d1, H1⟩, ⟨%d2, H2⟩⟩
    iapply (sound_kernel0_mid c Set.univ (grid0.coords t) (fun h => h1 ((hcond0_1 t).mp h)) _ _ _ _ _ _ _ _ (wblk V c t) (xblk V c t) _ s
      (acc0 V c t.val) (acc0_step V c t s hs) _)
    isplitl [H0]; · iexact H0
    isplitl [H1]; · iexact H1
    isplitl [H2]; · iexact H2
    isplitl [HS]; · iexact HS
    iintro ⟨H0, H1, H2, HS⟩
    isplitl [HS HO Hg]
    · isplitl [HS]
      · iexists (acc0 V c t.val); isplitr
        · ipureintro; intro _; rw [Nat.add_sub_cancel]
        iexact HS
      isplitl [HO]; · iexact HO
      iexact Hg
    isplitl [Ho]; · iexact Ho
    isplitl [H0]; · iexact H0
    isplitl [H1]; · iexact H1
    iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = Phi0 V c 0 from rfl]
  unfold Phi0 Oth0
  rw [scopedRest0_eq]
  simp only [scM0, owns_whole]
  iintro ⟨Hg, ⟨%f, HS⟩, HO⟩
  isplitl [HS]
  · iexists f; isplitr
    · ipureintro; intro h; exact absurd (Nat.zero_mod 30) h
    iexact HS
  isplitl [HO]; · iexact HO
  iexact Hg

/-- After the last point the invariant gives the scoped rest and the generator register back. -/
theorem hout0 (c : Dev nD) : (dat0 V c).Φ (Fin.last cfg0.N) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = Phi0 V c cfg0.N from rfl]
  unfold Phi0 Oth0
  rw [scopedRest0_eq]
  simp only [scM0, owns_whole]
  iintro ⟨⟨%s, -, HS⟩, HO, Hg⟩
  isplitl [Hg]; · iexact Hg
  isplitl [HS]; · iexists s; iexact HS
  iexact HO

end Region0

end Cert.KernelIdeal.Hand

end
-- ==== Proof.Fold.lean ====
/-
  The buffer contents at each boundary between two items of the entry function: a fold from the launch memory —
  a stretch of host operations applies them; the first kernel region leaves its arrays at what its write-backs
  leave (its result, the stacked references) and every other buffer as entered. The second region is entered from
  the last of these; what it leaves is the launch theorem's to say.
-/
import proofs.«159284_j4690104287245_2_alg».proof.Proof.R0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
abbrev W7 : Dev nD → Valuation τ sig (Elt F) := fun c => StableHlo.after hostOps0_6 (W6 m c)
abbrev W8 : Dev nD → Valuation τ sig (Elt F) := fun c => StableHlo.after hostOps0_7 (W7 m c)
/-- After the nine stretches before the first region: its entry contents. -/
abbrev W9 : Dev nD → Valuation τ sig (Elt F) := fun c => StableHlo.after hostOps0_8 (W8 m c)
/-- The same read at the TensorCore's references (what the first region's proof data take). -/
abbrev V9 : (c : Dev nD) → (b : Ref sig .tc) → Buf (Elt F) ((c : Thread nD τ).loc b) := fun c b => W9 m c b

/-- At the first region's exit: its arrays at what the pipeline leaves, every other buffer as entered. -/
def W10 (c : Dev nD) : Valuation τ sig (Elt F) :=
  Pipeline.withArrays spec0 c (W9 m c) fun w => (dat0 (V9 m) c).arrAt w cfg0.N
theorem W10_arr (c : Dev nD) (w : Fin cfg0.W) :
    W10 m c (Proc.devRef .tc (Pipeline.arrRef spec0 w)) = (dat0 (V9 m) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m c (Proc.devRef .tc b) = W9 m c (Proc.devRef .tc b) := by
  unfold W10; exact Pipeline.withArrays_of_ne spec0 c _ _ b hb
abbrev V10 : (c : Dev nD) → (b : Ref sig .tc) → Buf (Elt F) ((c : Thread nD τ).loc b) := fun c b => W10 m c b

/-- After the stretch between the regions: the second region's entry contents. -/
abbrev W11 : Dev nD → Valuation τ sig (Elt F) := fun c => StableHlo.after hostOps1 (W10 m c)
abbrev V11 : (c : Dev nD) → (b : Ref sig .tc) → Buf (Elt F) ((c : Thread nD τ).loc b) := fun c b => W11 m c b

end Cert.KernelIdeal.Hand

end
-- ==== Proof.R1.lean ====
/-
  The second kernel region (the correlation): thirty blocks of 2048 locus rows, the last block overhanging the
  59412 rows by 2028 — its fetch lands the 20 rows inside the array in the staging buffer's leading rows over
  contents nothing names, and its write-back writes the 20 leading columns of the result block. The body centres
  and scales each locus row of the block and contracts it against the resident reference rows: column j of the
  result block is a function of row j of the locus block alone, which is why the columns inside the array do not
  depend on the unnamed rows.
-/
import proofs.«159284_j4690104287245_2_alg».proof.Proof.Gen.KernelIdeal.Launch
import proofs.«159284_j4690104287245_2_alg».proof.Proof.Gen.KernelIdeal.Skeleton
import proofs.«159284_j4690104287245_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The resident reference rows (one whole block, never cut), at their literal type. -/
abbrev acblk (c : Dev nD) (t : Fin cfg1.N) : Vec F S400x500 .bf16 := iblk1 V c 0 t

/-- The locus block of point `t` filled out past the array's end with the zero word (nothing reads the filler). -/
def xfill (c : Dev nD) (t : Fin cfg1.N) : Vec F S2048x500 .f32 :=
  win1_1.fill (grid1.coords t) (fun _ => Scalar.ofBits .f32 0#32) (iblk1 V c 1 t)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => xfill V c t
    | ⟨2, _⟩ => k1_pay1 (xfill V c t) (acblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = xfill V c t := by dsimp only [dat1]
theorem after1_2 (c : Dev nD) (t : Fin cfg1.N) : (dat1 V c).after 2 t = k1_pay1 (xfill V c t) (acblk V c t) := by dsimp only [dat1]

/-- The body on whole memrefs: the two inputs unchanged, the result buffer at the payload of what they hold. -/
theorem sound_kernel1 (c : Dev nD) (E : Set ℕ) (i : grid1.Coords)
    (arg1 : Memref sig .tc .vmem S400x500 .bf16) (harg1 : arg1.IsWhole) (arg2 : Memref sig .tc .vmem S2048x500 .f32) (harg2 : arg2.IsWhole)
    (arg3 : Memref sig .tc .vmem S400x2048 .f32) (harg3 : arg3.IsWhole)
    (x0 : Vec F S400x500 .bf16) (x1 : Vec F S2048x500 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x1 x0)) -∗ K ⟨⟩))
      ⊢ wp frame (wpE (defs₀ (F := F)) Variants.none c none) E (cc1__corr_kernel i arg1 harg1 arg2 harg2 arg3 harg3) K := by
  simp only [cc1__corr_kernel_eq_skeleton]; unfold cc1__corr_kernel_skel
  unfold owns
  iintro ⟨⟨%f0, %hf0, H0⟩, ⟨%f1, %hf1, H1⟩, ⟨%d, %f2, -, H2⟩, Hk⟩
  subst hf0; subst hf1
  sl_exec
  sl_step
  iapply Hk
  have hz : (![0, 0] : Fin 2 → Nat) = fun _ => 0 := funext fun a => by fin_cases a <;> rfl
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz inb_S400x2048_S400x2048_0_0 y⟩),
    View.canon_unit_zero hz, View.readAt_eq_ld, View.readAt_eq_ld, View.ld_unit_zero hz, View.ld_unit_zero hz]

/-- What the body finds in the reference rows' buffer: the block itself, fetched at this point or not (its block
    index never moves, the window is uncut and never idle). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- In the locus rows' buffer: the block just fetched — its rows inside the array, `d` past them. -/
theorem before1_1 (c : Dev nD) (t : Fin cfg1.N) (d) :
    (dat1 V c).before 1 t d = win1_1.fill (grid1.coords t) d (iblk1 V c 1 t) := by
  unfold Dat.before; rw [if_pos (fetch1_1 t)]; unfold Dat.fetched Dat.blockOf iblk1; rw [A_eq1]

/-- The zero-filled block cut back to its rows inside the array is the block: filled out again with any `d`, it is the
    block filled out with `d`. -/
theorem left1_1 (c : Dev nD) (t : Fin cfg1.N) (d : S2048x500.Idx → Elt F .f32) :
    (win1 1).fill (grid1.coords t) d ((win1 1).cut (grid1.coords t) ((dat1 V c).after 1 t))
      = win1_1.fill (grid1.coords t) d (iblk1 V c 1 t) := by
  rw [after1_1]; unfold xfill
  exact congrArg (win1_1.fill (grid1.coords t) d) (win1_1.cut_fill (grid1.coords t) _ (iblk1 V c 1 t))

/-- The windows whose contents after the body a frame does not read: the result window. -/
abbrev fgtOut : Fin cfg1.W → Bool := fun | 0 => false | 1 => false | 2 => true | ⟨_ + 3, h⟩ => absurd h (Nat.not_lt.2 (Nat.le_add_left _ _))

/-- The body obligation with the result window's contents forgotten: at any instance of the float operations. -/
theorem body_obligation1_fgt (c : Dev nD) : BodyObligationLoose (dat1 (F := F) V c) (defs₀ (F := F)) Variants.none () Set.univ fgtOut := fun t => by
  rw [bigSep_W1, bigSep_W1]
  -- no point is idle, the looseness is the stated table and the forgotten windows are the stated ones: the matches reduce
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%X2, H2⟩⟩
  rw [before1_0 V c t d0, before1_1 V c t d1]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2)) (iblk1 V c 0 t)
    (win1_1.fill (grid1.coords t) d1 (iblk1 V c 1 t)) _)
  isplitl [H0]; · iexact H0
  isplitl [H1]; · iexact H1
  isplitl [H2]; · iexists X2; iexact H2
  iintro ⟨H0, H1, H2⟩
  isplitl [HΦ]; · iexact HΦ
  isplitl [Ho]; · iexact Ho
  isplitl [H0]
  · rw [after1_0]; iexact H0
  isplitl [H1]
  · -- the rows inside the array of the zero-filled block are the block's: the same filler `d1` fills it back
    iexists d1
    rw [left1_1 V c t d1]
    iexact H1
  · iexists _; iexact H2

/-- ROW LOCALITY, the hypothesis under which the result window's contents are named: the payload's columns inside
    the array do not depend on how the locus block is filled out past the array's end. -/
def RowLocal : Prop :=
  ∀ (t : Fin cfg1.N) (d d' : S2048x500.Idx → Elt F .f32) (g : (win1_1.xblock (grid1.coords t)).Idx → Elt F .f32) (a : Vec F S400x500 .bf16),
    win1_2.cut (grid1.coords t) (k1_pay1 (win1_1.fill (grid1.coords t) d g) a)
      = win1_2.cut (grid1.coords t) (k1_pay1 (win1_1.fill (grid1.coords t) d' g) a)

/-- Under row locality the payload of the block filled out with any `d` is its own filling-out of the named contents'
    columns inside the array: the two payloads agree on those columns. -/
theorem left1_2 (hloc : RowLocal (F := F)) (c : Dev nD) (t : Fin cfg1.N) (d : S2048x500.Idx → Elt F .f32) :
    (win1 2).fill (grid1.coords t) (k1_pay1 (win1_1.fill (grid1.coords t) d (iblk1 V c 1 t)) (acblk V c t))
        ((win1 2).cut (grid1.coords t) ((dat1 V c).after 2 t))
      = k1_pay1 (win1_1.fill (grid1.coords t) d (iblk1 V c 1 t)) (acblk V c t) := by
  rw [after1_2]
  refine Window.fill_congr_cut _ _ ?_
  unfold xfill
  exact hloc t d _ (iblk1 V c 1 t) (acblk V c t)

/-- The exact body obligation, under row locality. -/
theorem body_obligation1 (hloc : RowLocal (F := F)) (c : Dev nD) : BodyObligationLoose (dat1 (F := F) V c) (defs₀ (F := F)) Variants.none () Set.univ := fun t => by
  rw [bigSep_W1, bigSep_W1]
  -- no point is idle, the looseness is the stated table, nothing is forgotten: the matches reduce
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2)) (iblk1 V c 0 t)
    (win1_1.fill (grid1.coords t) d1 (iblk1 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after1_0]; iexact H0
  isplitl [H1]
  · -- the rows inside the array of the zero-filled block are the block's: the same filler `d1` fills it back
    iexists d1
    rw [left1_1 V c t d1]
    iexact H1
  · -- the result buffer holds the payload of the block filled out with `d1`: its own filling-out of the named contents
    iexists k1_pay1 (win1_1.fill (grid1.coords t) d1 (iblk1 V c 1 t)) (acblk V c t)
    rw [left1_2 V hloc c t d1]
    iexact H2

end Region1

end Cert.KernelIdeal.Hand

end
-- ==== Proof.Run.lean ====
/-
  THE RUN: the entry function as twelve items in order — nine stretches of host operations (the two slices of X,
  the four zero-paddings, the stacking), the first kernel region, the stretch between (the reshape, the row
  centring and scaling of the references), the second kernel region — launched from any memory with zero
  counters: every weakly fair execution terminates, the three argument arrays end as launched, and (unless the
  second region's result window is forgotten) the result array ends at what the second pipeline's write-backs
  leave.
-/
import proofs.«159284_j4690104287245_2_alg».proof.Proof.Fold
import proofs.«159284_j4690104287245_2_alg».proof.Proof.R1
import proofs.«159284_j4690104287245_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both pipelines, and what rides beside the buffers -/

section Data

variable (fgt : Fin cfg1.W → Bool)

/-- Both pipelines' exact proof data, each at its region's entry contents: the first region's at the contents after
    the nine stretches, the second's at the contents after the stretch between the regions. -/
def pdats : (p : Fin 2) → (c : Dev nD) → Dat τ (Elt F) Unit ℕ (UR sig nD τ) ℕ (Pipeline.pin (pcfgs (F := F)) adm p) c
  | ⟨0, _⟩ => fun c => dat0 (V9 m) c
  | ⟨1, _⟩ => fun c => dat1 (V11 m) c

/-- The same read relationally: the first region's with nothing forgotten, the second's with the windows `fgt` marks
    forgotten (what its body leaves there is then not named). -/
def rdats : (p : Fin 2) → (c : Dev nD) → Pipeline.RDat τ (Elt F) Unit ℕ (UR sig nD τ) ℕ (Pipeline.pin (pcfgs (F := F)) adm p) c
  | ⟨0, _⟩ => fun c => (dat0 (V9 m) c).toRForget (fun _ => false)
  | ⟨1, _⟩ => fun c => (dat1 (V11 m) c).toRForget fgt

end Data

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what the core
    owes, which is nothing. -/
abbrev R (c : Dev nD) : sProp 𝕄 := iprop((∃ r, prngReg c r) ∗ ∃ W, owes (c : Thread nD τ) (0 : CellTallies nD τ sig Unit) W)

/-- A stretch of host operations as a segment over every unscoped buffer from the contents `W`, `R` riding along: it
    leaves those buffers at the operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region as a segment -/

/-- At the first region's exit each of its arrays holds what the pipeline leaves, and every other buffer what it
    held at entry. -/
theorem hF0 (c : Dev nD) (w : Fin cfg0.W) : (dat0 (V9 m) c).arrAt w cfg0.N = V10 m c (Pipeline.arrRef spec0 w) :=
  (W10_arr m c w).symm
theorem hrest0 (c : Dev nD) : ∀ b, b ∉ Finset.univ.image (Pipeline.arrRef spec0) → V10 m c b = V9 m c b :=
  fun b hb => W10_of_ne m c b fun w e => hb (Finset.mem_image.mpr ⟨w, Finset.mem_univ _, e⟩)

set_option backward.isDefEq.respectTransparency.types false in
/-- THE FIRST REGION over the thread state: entered from every unscoped buffer at the contents after the nine
    stretches, left with its three arrays at what the write-backs leave and every other buffer as entered. Its arrays
    are split out of the unscoped buffers at entry and put back at exit; the generator register and the scoped
    buffers no window stages go into the region's invariant (the scratch accumulator among them) and come back;
    nothing is owed; the kernel has no semaphore of its own. -/
def reg0 (fgt : Fin cfg1.W → Bool) : Pipeline.RDat.RegionSeg (pcfgs (F := F)) adm (rdats m fgt) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m) c).loose.toRForget
  hwaits := Pipeline.RDat.hwaits_of_owed_zero _ _ _ _ L lv 0 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec0 c (V9 m c)
  hentry c := by
    rw [Pipeline.ownSems0_none]
    have hsplit := Pipeline.RDat.arrays_of_unscopedBufs (p := 0) (pcfgs (F := F)) adm (rdats m fgt) launch0.win launch0.arr_whole c
      ((rdats m fgt 0 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 0 c).Φ 0 = (dat0 (V9 m) c).Φ 0 from rfl]
    refine BIBase.Entails.trans ?_ (hin0 (V9 m) c)
    iintro ⟨Hp, -, Hr⟩
    isplitl [Hp]; · iexact Hp
    iexact Hr
  hout c := by
    rw [Pipeline.ownSems0_none, show (rdats m fgt 0 c).Φ (Fin.last _) = (dat0 (V9 m) c).Φ (Fin.last cfg0.N) from rfl]
    refine (hout0 (V9 m) c).trans ?_
    iintro ⟨Hr, Hs⟩
    isplitl [Hr]; · iexact Hr
    isplitr; · iempintro
    iexact Hs
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V9 m c) (V10 m c) ((pdats m 0 c).arrAt · cfg0.N) (hF0 m c) (hrest0 m c)
    rw [Pipeline.unscopedBufs_held] at hjoin
    rw [show (rdats m fgt 0 c).arraysAt (Pipeline.pin (pcfgs (F := F)) adm 0).N = (pdats m 0 c).toR.arraysAt cfg0.N from rfl,
      (pdats m 0 c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## A buffer no item writes reaches the second region's entry as launched -/

/-- A reference none of the nine stretches writes holds, after them, what the launch memory holds. -/
theorem W9_of (c : Dev nD) (r : Ref sig .tc)
    (h : r ∉ hostOps0_W ++ hostOps0_1_W ++ hostOps0_2_W ++ hostOps0_3_W ++ hostOps0_4_W ++ hostOps0_5_W ++ hostOps0_6_W
      ++ hostOps0_7_W ++ hostOps0_8_W) :
    W9 m c (Proc.devRef .tc r) = m ((c : Thread nD τ).loc r) := by
  simp only [List.mem_append, not_or] at h
  obtain ⟨⟨⟨⟨⟨⟨⟨⟨h0, h1⟩, h2⟩, h3⟩, h4⟩, h5⟩, h6⟩, h7⟩, h8⟩ := h
  exact (V9_of m c r h8).trans <| (V8_of m c r h7).trans <| (V7_of m c r h6).trans <| (V6_of m c r h5).trans <|
    (V5_of m c r h4).trans <| (V4_of m c r h3).trans <| (V3_of m c r h2).trans <| (V2_of m c r h1).trans <|
    (V1_of m c r h0).trans rfl

/-- So does, at the second region's entry, one that in addition is no array of the first region and is not written
    by the stretch between the regions. -/
theorem W11_of (c : Dev nD) (r : Ref sig .tc)
    (h : r ∉ hostOps0_W ++ hostOps0_1_W ++ hostOps0_2_W ++ hostOps0_3_W ++ hostOps0_4_W ++ hostOps0_5_W ++ hostOps0_6_W
      ++ hostOps0_7_W ++ hostOps0_8_W)
    (harr : ∀ w, Pipeline.arrRef spec0 w ≠ r) (h1 : r ∉ hostOps1_W) :
    W11 m c (Proc.devRef .tc r) = m ((c : Thread nD τ).loc r) :=
  (StableHlo.after_of_writes_sub hostOps1 (W10 m c) hostOps1_writes h1).trans <|
    (W10_of_ne m c r harr).trans (W9_of m c r h)

theorem W11_main_arg0 (c : Dev nD) : W11 m c (Proc.devRef .tc main_arg0) = m ((c : Thread nD τ).loc main_arg0) :=
  W11_of m c main_arg0 (by decide) (by decide) (by decide)
theorem W11_main_arg1 (c : Dev nD) : W11 m c (Proc.devRef .tc main_arg1) = m ((c : Thread nD τ).loc main_arg1) :=
  W11_of m c main_arg1 (by decide) (by decide) (by decide)
theorem W11_main_arg2 (c : Dev nD) : W11 m c (Proc.devRef .tc main_arg2) = m ((c : Thread nD τ).loc main_arg2) :=
  W11_of m c main_arg2 (by decide) (by decide) (by decide)

/-! ## The second region as a segment -/

/-- THE LAST THREAD STATE: every unscoped buffer at SOME contents `V'` — which at the result array are what the
    second pipeline's write-backs leave unless the result window is forgotten, and at the three arguments are the
    second region's entry contents — and the generator register at some state. -/
def Tn (fgt : Fin cfg1.W → Bool) (c : Dev nD) : sProp 𝕄 :=
  iprop(∃ V' : Valuation τ sig (Elt F),
    ⌜(fgt 2 = false → V' (Proc.devRef .tc (Pipeline.arrRef spec1 2)) = (dat1 (V11 m) c).arrAt 2 cfg1.N)
      ∧ V' (Proc.devRef .tc main_arg0) = W11 m c (Proc.devRef .tc main_arg0)
      ∧ V' (Proc.devRef .tc main_arg1) = W11 m c (Proc.devRef .tc main_arg1)
      ∧ V' (Proc.devRef .tc main_arg2) = W11 m c (Proc.devRef .tc main_arg2)⌝
    ∗ StableHlo.held (c : Thread nD τ) (Pipeline.ucRefs τ sig) V' ∗ ∃ r, prngReg c r)

set_option backward.isDefEq.respectTransparency.types false in
/-- THE SECOND REGION over the thread state: entered from every unscoped buffer at the contents after the stretch
    between the regions, left at the last thread state. At the exit each array is at some contents it may hold after
    every write-back: for a window not forgotten those are the contents the exact data names, which for the two
    inputs are the entry contents; the arrays go back among the unscoped buffers at those contents. -/
def reg1 (fgt : Fin cfg1.W → Bool) (h0 : fgt 0 = false) (h1 : fgt 1 = false)
    (hb1 : ∀ c, BodyObligationLoose (dat1 (F := F) (V11 m) c) (defs₀ (F := F)) Variants.none () Set.univ fgt) :
    Pipeline.RDat.RegionSeg (pcfgs (F := F)) adm (rdats m fgt) () defs₀ 𝒱₀ L lv 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L lv 1 fun _ _ => rfl
  pre c := iprop(StableHlo.held (c : Thread nD τ) (Pipeline.ucRefs τ sig) (W11 m c) ∗ R c)
  post c := iprop(Tn m fgt c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V11 m c)
  hentry c := by
    rw [Pipeline.ownSems0_none]
    have hsplit := Pipeline.RDat.arrays_of_unscopedBufs (p := 1) (pcfgs (F := F)) adm (rdats m fgt) launch1.win launch1.arr_whole c
      ((rdats m fgt 1 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt 1 c).Φ (Fin.last _) = Pipeline.ΦA spec1 c from rfl]; unfold Pipeline.ΦA
    iintro ⟨Hr, Hp⟩
    isplitl [Hp]; · iexact Hp
    isplitr; · iempintro
    iexact Hr
  hexit c := by
    classical
    rw [show (rdats m fgt 1 c).arraysAt (Pipeline.pin (pcfgs (F := F)) adm 1).N = ((dat1 (V11 m) c).toRForget fgt).arraysAt cfg1.N from rfl]
    unfold Pipeline.RDat.arraysAt
    iintro ⟨Ha, HO, HY, Hrest⟩
    -- one family of contents for the three arrays, each something its array may hold after every write-back
    ihave Ha' := (BI.bigSep_exists_pi Finset.univ (fun (w : Fin cfg1.W) G => iprop(⌜((dat1 (V11 m) c).toRForget fgt).ArrAt w cfg1.N G⌝
        ∗ (cfg1.win w).arr.view.loc (c.tc : Thread nD τ) ↦[(cfg1.win w).arr.view.set]{((dat1 (V11 m) c).toRForget fgt).share w} G))) $$ Ha
    icases Ha' with ⟨%Fs, Ha⟩
    ihave Ha2 := (BI.bigSep_pure_sep Finset.univ (fun w => ((dat1 (V11 m) c).toRForget fgt).ArrAt w cfg1.N (Fs w))
        (fun w => (cfg1.win w).arr.view.loc (c.tc : Thread nD τ) ↦[(cfg1.win w).arr.view.set]{((dat1 (V11 m) c).toRForget fgt).share w} Fs w)) $$ Ha
    icases Ha2 with ⟨%hFs, Ha⟩
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V11 m c) (fun b => Pipeline.withArrays spec1 c (W11 m c) Fs b) Fs
      (fun w => (Pipeline.withArrays_arr spec1 launch1.win.arr_inj c _ _ w).symm)
      (fun b hb => Pipeline.withArrays_of_ne spec1 c _ _ b fun w e => hb (Finset.mem_image.mpr ⟨w, Finset.mem_univ _, e⟩))
    rw [Pipeline.unscopedBufs_held] at hjoin
    have hjoin' : iprop((bigSep Finset.univ fun w : Fin cfg1.W =>
            (cfg1.win w).arr.view.loc (c.tc : Thread nD τ) ↦[(cfg1.win w).arr.view.set]{((dat1 (V11 m) c).toRForget fgt).share w} Fs w)
          ∗ Pipeline.unscopedRest (Ix := Unit) (Name := ℕ) (U := UR sig nD τ) (Lvl := ℕ) spec1 c (V11 m c))
        ⊢ (StableHlo.held (c : Thread nD τ) (Pipeline.ucRefs τ sig) (Pipeline.withArrays spec1 c (W11 m c) Fs) : sProp 𝕄) := hjoin
    -- what those contents are at the windows not forgotten
    have e0 : Fs 0 = (dat1 (V11 m) c).arrAt 0 cfg1.N := ((dat1 (V11 m) c).toRForget_arrAt_iff h0 cfg1.N (Fs 0)).mp (hFs 0 (Finset.mem_univ _))
    have e1 : Fs 1 = (dat1 (V11 m) c).arrAt 1 cfg1.N := ((dat1 (V11 m) c).toRForget_arrAt_iff h1 cfg1.N (Fs 1)).mp (hFs 1 (Finset.mem_univ _))
    imodintro
    isplitl [Ha Hrest HY]
    · unfold Tn
      iexists (Pipeline.withArrays spec1 c (W11 m c) Fs)
      isplitr
      · ipureintro
        refine ⟨fun h2 => ?_, ?_, ?_, ?_⟩
        · rw [Pipeline.withArrays_arr spec1 launch1.win.arr_inj c _ _ 2]
          exact ((dat1 (V11 m) c).toRForget_arrAt_iff h2 cfg1.N (Fs 2)).mp (hFs 2 (Finset.mem_univ _))
        · exact (Pipeline.withArrays_arr spec1 launch1.win.arr_inj c (W11 m c) Fs 1).trans
            (e1.trans (((dat1 (V11 m) c).arrAt_in 1 rfl _).trans (A_eq1 (V11 m) c 1)))
        · exact Pipeline.withArrays_of_ne spec1 c _ _ main_arg1 (by decide)
        · exact Pipeline.withArrays_of_ne spec1 c _ _ main_arg2 (by decide)
      isplitl [Ha Hrest]
      · iapply hjoin'
        isplitl [Ha]
        · iexact Ha
        · iexact Hrest
      iexact HY
    unfold Pipeline.RDat.owesAt Pipeline.owesWithin
    icases HO with ⟨%W, -, HO⟩; iexists W; iexact HO

/-! ## The entry function as segments, and the launch -/

/-- The entry function's twelve items in order: a host segment per stretch from its boundary's contents, a region per
    kernel call. -/
abbrev segs (fgt : Fin cfg1.W → Bool) (h0 : fgt 0 = false) (h1 : fgt 1 = false)
    (hb1 : ∀ c, BodyObligationLoose (dat1 (F := F) (V11 m) c) (defs₀ (F := F)) Variants.none () Set.univ fgt) :
    List (Pipeline.RDat.Seg (pcfgs (F := F)) adm (rdats m fgt) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .region (reg0 m fgt),
    .host (hseg hostOps1 hostOps1_sub hostOps1_fresh (W10 m)),
    .region (reg1 m fgt h0 h1 hb1) ]

set_option backward.isDefEq.respectTransparency.types false in
/-- THE RUN, for a mask `fgt` of the second region's windows whose contents after the body are not named (the two
    inputs never are forgotten), given the second region's body obligation under that mask. -/
theorem run_cond (fgt : Fin cfg1.W → Bool) (h0 : fgt 0 = false) (h1 : fgt 1 = false)
    (hb1 : ∀ c, BodyObligationLoose (dat1 (F := F) (V11 m) c) (defs₀ (F := F)) Variants.none () Set.univ fgt) :
    θ_run defs (onTc (τ := τ) (main (F := F))) ⟨m, fun _ => 0, ρ⟩ (fun r => ∀ c : Dev nD,
      (fgt 2 = false → r.2.mem ((cfg1.win 2).arr.view.loc (c.tc : Thread nD τ)) = (dat1 (V11 m) c).arrAt 2 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.RDat.θ_run_regions_kit (pcfgs (F := F)) adm (rdats m fgt) () cellOf_inj emb₁ defs₀ 𝒱₀ L lv m ρ main (segs m fgt h0 h1 hb1)
    (fun c Q => by
      rewrite [main_chain c, Pipeline.RDat.Seg.run_eq_chain,
        show (segs m fgt h0 h1 hb1).map Pipeline.RDat.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m fgt)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s =>
      (fgt 2 = false → s.mem ((cfg1.win 2).arr.view.loc (c.tc : Thread nD τ)) = (dat1 (V11 m) c).arrAt 2 cfg1.N)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold Tn StableHlo.held
      iintro ⟨⟨%V', %hV, Hh, -⟩, HSI⟩
      ihave Hr := (pointsTo_read_all (Pipeline.ucRefs τ sig) (fun b => (((c : Thread nD τ)).1, b)) V' s') $$ [Hh HSI]
      · isplitl [Hh] <;> iassumption
      icases Hr with ⟨%h, HSI⟩
      imodintro
      isplitr
      · ipureintro
        obtain ⟨hV2, hV0, hV1, hVa2⟩ := hV
        exact ⟨fun h2 => (h _ (mem_uc (Pipeline.arrRef spec1 2) (by decide))).trans (hV2 h2),
          (h _ (mem_uc main_arg0 (by decide))).trans (hV0.trans (W11_main_arg0 m c)),
          (h _ (mem_uc main_arg1 (by decide))).trans (hV1.trans (W11_main_arg1 m c)),
          (h _ (mem_uc main_arg2 (by decide))).trans (hVa2.trans (W11_main_arg2 m c))⟩
      · iexact HSI)
    (hQ := fun _ h => h)

end Cert.KernelIdeal.Hand

end
-- ==== Proof.KR0.lean ====
/-
  The first kernel region (the two compartments' linear references, the contraction axis cut in thirty blocks of
  1024): its proof data and its body at every grid point. The grid is (compartment, block) in row-major order, so
  point n is compartment n / 30 and block n % 30. The scratch accumulator is carried between points: reset to zero
  at block 0 of each compartment, the block's product added at every point; the result window is stored only at
  block 29 (from the accumulator) and is idle at the other points.
-/
import proofs.«159284_j4690104287245_2_alg».proof.Proof.Gen.Kernel.Launch
import proofs.«159284_j4690104287245_2_alg».proof.Proof.Gen.Kernel.Skeleton
import proofs.«159284_j4690104287245_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight block and the locus block of point `t`, at their literal types. -/
abbrev wblk (c : Dev nD) (t : Fin cfg0.N) : Vec F S1x200x1024 .f32 := iblk0 V c 0 t
abbrev xblk (c : Dev nD) (t : Fin cfg0.N) : Vec F S1x1024x500 .f32 := iblk0 V c 1 t

/-- The scratch operand: a whole scoped buffer of the kernel's own. -/
abbrev scM0 : Memref sig .tc .vmem S200x500 .f32 := Memref.whole cc0_scratch0

/-- The body's first branch condition (the block index is zero), from the grid coordinates. -/
abbrev cond0_0 (i : grid0.Coords) : Prop := (Scalar.cmpi .ne (Scalar.extui (Scalar.cmpi .eq (BitVec.ofNat 32 (i 1).val) 0#32)) 0#32) = 1#1
/-- Its second (the block index is the last, 29). -/
abbrev cond0_1 (i : grid0.Coords) : Prop := k0_cond2 i = 1#1

/-- What one run of the body leaves in the accumulator, from the two input blocks and what it found there. -/
def accStep (i : grid0.Coords) (x0 : Vec F S1x200x1024 .f32) (x1 : Vec F S1x1024x500 .f32) (s : Vec F S200x500 .f32) : Vec F S200x500 .f32 :=
  k0_pay2 x0 x1 (if cond0_0 i then k0_pay1 else s)

/-- THE ACCUMULATION: what the scratch holds after the body at point `n`. -/
def acc0 (c : Dev nD) : ℕ → Vec F S200x500 .f32
  | 0 => if h : 0 < cfg0.N then accStep (grid0.coords ⟨0, h⟩) (wblk V c ⟨0, h⟩) (xblk V c ⟨0, h⟩) k0_pay1 else k0_pay1
  | n + 1 => if h : n + 1 < cfg0.N then accStep (grid0.coords ⟨n + 1, h⟩) (wblk V c ⟨n + 1, h⟩) (xblk V c ⟨n + 1, h⟩) (acc0 c n) else k0_pay1

/-- The other scoped buffers of the core (the second region's staging buffers), each whole at some contents. -/
def Oth0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region invariant before position `n`: the scratch at some contents, which after a point that is not the
    last of a compartment's thirty are what that point left; the other scoped buffers; the generator register. -/
def Phi0 (c : Dev nD) (n : ℕ) : sProp 𝕄 :=
  iprop((∃ s, ⌜n % 30 ≠ 0 → s = acc0 V c (n - 1)⌝ ∗ owns (c : Thread nD τ) scM0 fullShare s) ∗ Oth0 (F := F) c ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val)
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val) := by dsimp only [dat0]

/-- After a list of stores whose LAST is a store of the whole buffer (the unit rectangle at zero offsets), the buffer
    reads as that store's payload, whatever came before. -/
theorem read_writes_whole_last {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- The body on whole memrefs: the two input blocks unchanged, the accumulator at `accStep`, the result buffer at
    the accumulator re-laid when the block is the last and untouched otherwise. -/
theorem sound_kernel0 (c : Dev nD) (E : Set ℕ) (i : grid0.Coords)
    (arg2 : Memref sig .tc .vmem S1x200x1024 .f32) (harg2 : arg2.IsWhole) (arg3 : Memref sig .tc .vmem S1x1024x500 .f32) (harg3 : arg3.IsWhole)
    (arg4 : Memref sig .tc .vmem S1x200x500 .f32) (harg4 : arg4.IsWhole) (arg5 : Memref sig .tc .vmem S200x500 .f32) (harg5 : arg5.IsWhole)
    (x0 : Vec F S1x200x1024 .f32) (x1 : Vec F S1x1024x500 .f32) (o : Vec F S1x200x500 .f32) (s : Vec F S200x500 .f32) (K : PUnit → sProp 𝕄) :
    iprop(owns (c : Thread nD τ) arg2 fullShare x0 ∗ owns (c : Thread nD τ) arg3 fullShare x1
        ∗ owns (c : Thread nD τ) arg4 fullShare o ∗ owns (c : Thread nD τ) arg5 fullShare s
        ∗ (iprop(owns (c : Thread nD τ) arg2 fullShare x0 ∗ owns (c : Thread nD τ) arg3 fullShare x1
            ∗ owns (c : Thread nD τ) arg4 fullShare (if cond0_1 i then k0_pay3 (accStep i x0 x1 s) else o)
            ∗ owns (c : Thread nD τ) arg5 fullShare (accStep i x0 x1 s)) -∗ K ⟨⟩))
      ⊢ wp frame (wpE (defs₀ (F := F)) Variants.none c none) E (cc0__linear_reduce_fused_kernel i arg2 harg2 arg3 harg3 arg4 harg4 arg5 harg5) K := by
  have hz2 : (![0, 0] : Fin 2 → Nat) = fun _ => 0 := funext fun a => by fin_cases a <;> rfl
  have hz3 : (![0, 0, 0] : Fin 3 → Nat) = fun _ => 0 := funext fun a => by fin_cases a <;> rfl
  simp only [cc0__linear_reduce_fused_kernel_eq_skeleton]; unfold cc0__linear_reduce_fused_kernel_skel
  unfold owns
  iintro ⟨⟨%f2, %hf2, H2⟩, ⟨%f3, %hf3, H3⟩, ⟨%f4, %hf4, H4⟩, ⟨%f5, %hf5, H5⟩, Hk⟩
  subst hf2; subst hf3; subst hf4; subst hf5
  by_cases hc0 : cond0_0 i
  · by_cases hc1 : cond0_1 i
    · sl_exec (disch := first | exact hc0 | exact hc1)
      sl_step
      iapply Hk
      isplitl [H2]
      · iexists f2; isplitr; · ipureintro; rfl
        iexact H2
      isplitl [H3]
      · iexists f3; isplitr; · ipureintro; rfl
        iexact H3
      isplitl [H4]
      · iexists _; isplitr
        swap; · iexact H4
        ipureintro
        rw [if_pos hc1]
        sl_unfold_words
        rw [read_writes_whole_last _ _ hz3, View.readCov_cons_toLoadRect]
        unfold accStep; rw [if_pos hc0]
        simp only [View.readAt_eq_ld, View.ld_unit_zero (S := S1x200x1024) hz3, View.ld_unit_zero (S := S1x1024x500) hz3,
          View.ld_unit_zero (S := S200x500) hz2, View.readCov_unit_zero (S := S200x500) _ hz2]
      · iexists _; isplitr
        swap; · iexact H5
        ipureintro
        sl_unfold_words
        rw [read_writes_whole_last _ _ hz2]
        unfold accStep; rw [if_pos hc0]
        simp only [View.readAt_eq_ld, View.ld_unit_zero (S := S1x200x1024) hz3, View.ld_unit_zero (S := S1x1024x500) hz3,
          View.ld_unit_zero (S := S200x500) hz2, View.readCov_unit_zero (S := S200x500) _ hz2]
    · sl_exec (disch := first | exact hc0 | exact hc1)
      sl_step
      iapply Hk
      isplitl [H2]
      · iexists f2; isplitr; · ipureintro; rfl
        iexact H2
      isplitl [H3]
      · iexists f3; isplitr; · ipureintro; rfl
        iexact H3
      isplitl [H4]
      · iexists _; isplitr
        swap; · iexact H4
        ipureintro
        rw [if_neg hc1]
      · iexists _; isplitr
        swap; · iexact H5
        ipureintro
        sl_unfold_words
        rw [read_writes_whole_last _ _ hz2]
        unfold accStep; rw [if_pos hc0]
        simp only [View.readAt_eq_ld, View.ld_unit_zero (S := S1x200x1024) hz3, View.ld_unit_zero (S := S1x1024x500) hz3,
          View.ld_unit_zero (S := S200x500) hz2, View.readCov_unit_zero (S := S200x500) _ hz2]
  · by_cases hc1 : cond0_1 i
    · sl_exec (disch := first | exact hc0 | exact hc1)
      sl_step
      iapply Hk
      isplitl [H2]
      · iexists f2; isplitr; · ipureintro; rfl
        iexact H2
      isplitl [H3]
      · iexists f3; isplitr; · ipureintro; rfl
        iexact H3
      isplitl [H4]
      · iexists _; isplitr
        swap; · iexact H4
        ipureintro
        rw [if_pos hc1]
        sl_unfold_words
        rw [read_writes_whole_last _ _ hz3, View.readCov_cons_toLoadRect]
        unfold accStep; rw [if_neg hc0]
        simp only [View.readAt_eq_ld, View.ld_unit_zero (S := S1x200x1024) hz3, View.ld_unit_zero (S := S1x1024x500) hz3,
          View.ld_unit_zero (S := S200x500) hz2, View.readCov_unit_zero (S := S200x500) _ hz2]
      · iexists _; isplitr
        swap; · iexact H5
        ipureintro
        sl_unfold_words
        rw [read_writes_whole_last _ _ hz2]
        unfold accStep; rw [if_neg hc0]
        simp only [View.readAt_eq_ld, View.ld_unit_zero (S := S1x200x1024) hz3, View.ld_unit_zero (S := S1x1024x500) hz3,
          View.ld_unit_zero (S := S200x500) hz2, View.readCov_unit_zero (S := S200x500) _ hz2]
    · sl_exec (disch := first | exact hc0 | exact hc1)
      sl_step
      iapply Hk
      isplitl [H2]
      · iexists f2; isplitr; · ipureintro; rfl
        iexact H2
      isplitl [H3]
      · iexists f3; isplitr; · ipureintro; rfl
        iexact H3
      isplitl [H4]
      · iexists _; isplitr
        swap; · iexact H4
        ipureintro
        rw [if_neg hc1]
      · iexists _; isplitr
        swap; · iexact H5
        ipureintro
        sl_unfold_words
        rw [read_writes_whole_last _ _ hz2]
        unfold accStep; rw [if_neg hc0]
        simp only [View.readAt_eq_ld, View.ld_unit_zero (S := S1x200x1024) hz3, View.ld_unit_zero (S := S1x1024x500) hz3,
          View.ld_unit_zero (S := S200x500) hz2, View.readCov_unit_zero (S := S200x500) _ hz2]

/-- When the block index is zero the accumulator is reset first, so what it held does not matter. -/
theorem accStep_reset (i : grid0.Coords) (h : cond0_0 i) (x0 : Vec F S1x200x1024 .f32) (x1 : Vec F S1x1024x500 .f32)
    (s s' : Vec F S200x500 .f32) : accStep i x0 x1 s = accStep i x0 x1 s' := by
  unfold accStep; rw [if_pos h, if_pos h]

/-- The body at a last block: the result buffer ends at the accumulator re-laid. -/
theorem sound_kernel0_last (c : Dev nD) (E : Set ℕ) (i : grid0.Coords) (hc1 : cond0_1 i)
    (arg2 : Memref sig .tc .vmem S1x200x1024 .f32) (harg2 : arg2.IsWhole) (arg3 : Memref sig .tc .vmem S1x1024x500 .f32) (harg3 : arg3.IsWhole)
    (arg4 : Memref sig .tc .vmem S1x200x500 .f32) (harg4 : arg4.IsWhole) (arg5 : Memref sig .tc .vmem S200x500 .f32) (harg5 : arg5.IsWhole)
    (x0 : Vec F S1x200x1024 .f32) (x1 : Vec F S1x1024x500 .f32) (o : Vec F S1x200x500 .f32) (s a : Vec F S200x500 .f32)
    (ha : accStep i x0 x1 s = a) (K : PUnit → sProp 𝕄) :
    iprop(owns (c : Thread nD τ) arg2 fullShare x0 ∗ owns (c : Thread nD τ) arg3 fullShare x1
        ∗ owns (c : Thread nD τ) arg4 fullShare o ∗ owns (c : Thread nD τ) arg5 fullShare s
        ∗ (iprop(owns (c : Thread nD τ) arg2 fullShare x0 ∗ owns (c : Thread nD τ) arg3 fullShare x1
            ∗ owns (c : Thread nD τ) arg4 fullShare (k0_pay3 a)
            ∗ owns (c : Thread nD τ) arg5 fullShare a) -∗ K ⟨⟩))
      ⊢ wp frame (wpE (defs₀ (F := F)) Variants.none c none) E (cc0__linear_reduce_fused_kernel i arg2 harg2 arg3 harg3 arg4 harg4 arg5 harg5) K := by
  subst ha
  have h := sound_kernel0 (F := F) c E i arg2 harg2 arg3 harg3 arg4 harg4 arg5 harg5 x0 x1 o s K
  rwa [if_pos hc1] at h

/-- The body at any other block: the result buffer is left as found. -/
theorem sound_kernel0_mid (c : Dev nD) (E : Set ℕ) (i : grid0.Coords) (hc1 : ¬cond0_1 i)
    (arg2 : Memref sig .tc .vmem S1x200x1024 .f32) (harg2 : arg2.IsWhole) (arg3 : Memref sig .tc .vmem S1x1024x500 .f32) (harg3 : arg3.IsWhole)
    (arg4 : Memref sig .tc .vmem S1x200x500 .f32) (harg4 : arg4.IsWhole) (arg5 : Memref sig .tc .vmem S200x500 .f32) (harg5 : arg5.IsWhole)
    (x0 : Vec F S1x200x1024 .f32) (x1 : Vec F S1x1024x500 .f32) (o : Vec F S1x200x500 .f32) (s a : Vec F S200x500 .f32)
    (ha : accStep i x0 x1 s = a) (K : PUnit → sProp 𝕄) :
    iprop(owns (c : Thread nD τ) arg2 fullShare x0 ∗ owns (c : Thread nD τ) arg3 fullShare x1
        ∗ owns (c : Thread nD τ) arg4 fullShare o ∗ owns (c : Thread nD τ) arg5 fullShare s
        ∗ (iprop(owns (c : Thread nD τ) arg2 fullShare x0 ∗ owns (c : Thread nD τ) arg3 fullShare x1
            ∗ owns (c : Thread nD τ) arg4 fullShare o
            ∗ owns (c : Thread nD τ) arg5 fullShare a) -∗ K ⟨⟩))
      ⊢ wp frame (wpE (defs₀ (F := F)) Variants.none c none) E (cc0__linear_reduce_fused_kernel i arg2 harg2 arg3 harg3 arg4 harg4 arg5 harg5) K := by
  subst ha
  have h := sound_kernel0 (F := F) c E i arg2 harg2 arg3 harg3 arg4 harg4 arg5 harg5 x0 x1 o s K
  rwa [if_neg hc1] at h

/-! ## The conditions and the schedule in closed form -/

/-- The first condition holds at the points ≡ 0 (mod 30): the first block of each compartment. -/
theorem hcond0_0 : ∀ t : Fin cfg0.N, cond0_0 (grid0.coords t) ↔ t.val % 30 = 0 :=
  (by decide +kernel : ∀ t : Fin grid0.N, cond0_0 (grid0.coords t) ↔ t.val % 30 = 0)
/-- The second at the points ≡ 29 (mod 30): the last block of each compartment. -/
theorem hcond0_1 : ∀ t : Fin cfg0.N, cond0_1 (grid0.coords t) ↔ t.val % 30 = 29 :=
  (by decide +kernel : ∀ t : Fin grid0.N, cond0_1 (grid0.coords t) ↔ t.val % 30 = 29)

/-- The input windows are never idle; the result window is live exactly at the last blocks, and elsewhere idle and not written back. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, t.val % 30 = 29 → cfg0.idle 2 (grid0.coords t) = false := by decide +kernel
theorem idleAt0_2 : ∀ t : Fin cfg0.N, ¬t.val % 30 = 29 → cfg0.idle 2 (grid0.coords t) = true := by decide +kernel
theorem noFlush0_2 : ∀ t : Fin cfg0.N, ¬t.val % 30 = 29 → (cfg0.win 2).flush t = false := by decide +kernel

/-! ## The accumulation, one step -/

/-- One run of the body over what the invariant says the accumulator holds leaves the accumulation at this point. -/
theorem acc0_step (c : Dev nD) (t : Fin cfg0.N) (s : Vec F S200x500 .f32) (hs : t.val % 30 ≠ 0 → s = acc0 V c (t.val - 1)) :
    accStep (grid0.coords t) (wblk V c t) (xblk V c t) s = acc0 V c t.val := by
  obtain ⟨n, hn⟩ := t
  cases n with
  | zero =>
    rw [acc0, dif_pos hn]
    exact accStep_reset _ ((hcond0_0 ⟨0, hn⟩).mpr (Nat.zero_mod _)) _ _ _ _
  | succ n =>
    rw [acc0, dif_pos hn]
    by_cases h : (n + 1) % 30 = 0
    · exact accStep_reset _ ((hcond0_0 ⟨n + 1, hn⟩).mpr h) _ _ _ _
    · have e := hs h
      dsimp only at e
      rw [Nat.add_sub_cancel] at e
      rw [e]

/-! ## What the body finds in the input windows' buffers -/

/-- Each input's current staging buffer holds its block at every point (it is fetched at every point, and the body
    leaves it in place). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The invariant at a point's start and end, at the point's number. -/
theorem Phi_castSucc0 (c : Dev nD) (t : Fin cfg0.N) : (dat0 V c).Φ t.castSucc = Phi0 V c t.val := by
  dsimp only [dat0]; simp only [Fin.coe_castSucc]
theorem Phi_succ0 (c : Dev nD) (t : Fin cfg0.N) : (dat0 V c).Φ t.succ = Phi0 V c (t.val + 1) := by
  dsimp only [dat0]; simp only [Fin.val_succ]

/-! ## The body obligation, at a generic point -/

/-- What the body is called with at point `t` (the library's obligation, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point. The inputs' buffers hold their blocks; the invariant hands over the accumulator, holding the
    accumulation up to the point before unless this is a compartment's first block (where the body resets it), and
    takes it back holding the accumulation up to this point (`acc0_step`). At a compartment's last block the result
    buffer is stored from the accumulator; elsewhere it is idle and handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi_castSucc0, Phi_succ0]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  unfold Phi0
  by_cases h1 : t.val % 30 = 29
  · rw [show (dat0 V c).leavesExact 2 t = owns (c : Thread nD τ) (st0_2 t) fullShare ((dat0 V c).after 2 t) from by
      unfold Dat.leavesExact; rw [liveAt0_2 t h1], after0_2]
    iintro ⟨⟨⟨%s, %hs, HS⟩, HO, Hg⟩, Ho, ⟨%d0, H0⟩, ⟨%d1, H1⟩, ⟨%d2, H2⟩⟩
    iapply (sound_kernel0_last c Set.univ (grid0.coords t) ((hcond0_1 t).mpr h1) _ _ _ _ _ _ _ _ (wblk V c t) (xblk V c t) _ s
      (acc0 V c t.val) (acc0_step V c t s hs) _)
    isplitl [H0]; · iexact H0
    isplitl [H1]; · iexact H1
    isplitl [H2]; · iexact H2
    isplitl [HS]; · iexact HS
    iintro ⟨H0, H1, H2, HS⟩
    isplitl [HS HO Hg]
    · isplitl [HS]
      · iexists (acc0 V c t.val); isplitr
        · ipureintro; intro _; rw [Nat.add_sub_cancel]
        iexact HS
      isplitl [HO]; · iexact HO
      iexact Hg
    isplitl [Ho]; · iexact Ho
    isplitl [H0]; · iexact H0
    isplitl [H1]; · iexact H1
    iexact H2
  · rw [Dat.leavesExact_idle (dat0 V c) 2 t (idleAt0_2 t h1) (noFlush0_2 t h1)]
    iintro ⟨⟨⟨%s, %hs, HS⟩, HO, Hg⟩, Ho, ⟨%d0, H0⟩, ⟨%d1, H1⟩, ⟨%d2, H2⟩⟩
    iapply (sound_kernel0_mid c Set.univ (grid0.coords t) (fun h => h1 ((hcond0_1 t).mp h)) _ _ _ _ _ _ _ _ (wblk V c t) (xblk V c t) _ s
      (acc0 V c t.val) (acc0_step V c t s hs) _)
    isplitl [H0]; · iexact H0
    isplitl [H1]; · iexact H1
    isplitl [H2]; · iexact H2
    isplitl [HS]; · iexact HS
    iintro ⟨H0, H1, H2, HS⟩
    isplitl [HS HO Hg]
    · isplitl [HS]
      · iexists (acc0 V c t.val); isplitr
        · ipureintro; intro _; rw [Nat.add_sub_cancel]
        iexact HS
      isplitl [HO]; · iexact HO
      iexact Hg
    isplitl [Ho]; · iexact Ho
    isplitl [H0]; · iexact H0
    isplitl [H1]; · iexact H1
    iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = Phi0 V c 0 from rfl]
  unfold Phi0 Oth0
  rw [scopedRest0_eq]
  simp only [scM0, owns_whole]
  iintro ⟨Hg, ⟨%f, HS⟩, HO⟩
  isplitl [HS]
  · iexists f; isplitr
    · ipureintro; intro h; exact absurd (Nat.zero_mod 30) h
    iexact HS
  isplitl [HO]; · iexact HO
  iexact Hg

/-- After the last point the invariant gives the scoped rest and the generator register back. -/
theorem hout0 (c : Dev nD) : (dat0 V c).Φ (Fin.last cfg0.N) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = Phi0 V c cfg0.N from rfl]
  unfold Phi0 Oth0
  rw [scopedRest0_eq]
  simp only [scM0, owns_whole]
  iintro ⟨⟨%s, -, HS⟩, HO, Hg⟩
  isplitl [Hg]; · iexact Hg
  isplitl [HS]; · iexists s; iexact HS
  iexact HO

end Region0

end Cert.Kernel.Hand

end
-- ==== Proof.KFold.lean ====
/-
  The buffer contents at each boundary between two items of the entry function: a fold from the launch memory —
  a stretch of host operations applies them; the first kernel region leaves its arrays at what its write-backs
  leave (its result, the stacked references) and every other buffer as entered. The second region is entered from
  the last of these; what it leaves is the launch theorem's to say.
-/
import proofs.«159284_j4690104287245_2_alg».proof.Proof.KR0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
abbrev W7 : Dev nD → Valuation τ sig (Elt F) := fun c => StableHlo.after hostOps0_6 (W6 m c)
abbrev W8 : Dev nD → Valuation τ sig (Elt F) := fun c => StableHlo.after hostOps0_7 (W7 m c)
/-- After the nine stretches before the first region: its entry contents. -/
abbrev W9 : Dev nD → Valuation τ sig (Elt F) := fun c => StableHlo.after hostOps0_8 (W8 m c)
/-- The same read at the TensorCore's references (what the first region's proof data take). -/
abbrev V9 : (c : Dev nD) → (b : Ref sig .tc) → Buf (Elt F) ((c : Thread nD τ).loc b) := fun c b => W9 m c b

/-- At the first region's exit: its arrays at what the pipeline leaves, every other buffer as entered. -/
def W10 (c : Dev nD) : Valuation τ sig (Elt F) :=
  Pipeline.withArrays spec0 c (W9 m c) fun w => (dat0 (V9 m) c).arrAt w cfg0.N
theorem W10_arr (c : Dev nD) (w : Fin cfg0.W) :
    W10 m c (Proc.devRef .tc (Pipeline.arrRef spec0 w)) = (dat0 (V9 m) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m c (Proc.devRef .tc b) = W9 m c (Proc.devRef .tc b) := by
  unfold W10; exact Pipeline.withArrays_of_ne spec0 c _ _ b hb
abbrev V10 : (c : Dev nD) → (b : Ref sig .tc) → Buf (Elt F) ((c : Thread nD τ).loc b) := fun c b => W10 m c b

/-- After the stretch between the regions: the second region's entry contents. -/
abbrev W11 : Dev nD → Valuation τ sig (Elt F) := fun c => StableHlo.after hostOps1 (W10 m c)
abbrev V11 : (c : Dev nD) → (b : Ref sig .tc) → Buf (Elt F) ((c : Thread nD τ).loc b) := fun c b => W11 m c b

end Cert.Kernel.Hand

end
-- ==== Proof.KR1.lean ====
/-
  The second kernel region (the correlation): thirty blocks of 2048 locus rows, the last block overhanging the
  59412 rows by 2028 — its fetch lands the 20 rows inside the array in the staging buffer's leading rows over
  contents nothing names, and its write-back writes the 20 leading columns of the result block. The body centres
  and scales each locus row of the block and contracts it against the resident reference rows: column j of the
  result block is a function of row j of the locus block alone, which is why the columns inside the array do not
  depend on the unnamed rows.
-/
import proofs.«159284_j4690104287245_2_alg».proof.Proof.Gen.Kernel.Launch
import proofs.«159284_j4690104287245_2_alg».proof.Proof.Gen.Kernel.Skeleton
import proofs.«159284_j4690104287245_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The resident reference rows (one whole block, never cut), at their literal type. -/
abbrev acblk (c : Dev nD) (t : Fin cfg1.N) : Vec F S400x500 .bf16 := iblk1 V c 0 t

/-- The locus block of point `t` filled out past the array's end with the zero word (nothing reads the filler). -/
def xfill (c : Dev nD) (t : Fin cfg1.N) : Vec F S2048x500 .f32 :=
  win1_1.fill (grid1.coords t) (fun _ => Scalar.ofBits .f32 0#32) (iblk1 V c 1 t)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => xfill V c t
    | ⟨2, _⟩ => k1_pay1 (xfill V c t) (acblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = xfill V c t := by dsimp only [dat1]
theorem after1_2 (c : Dev nD) (t : Fin cfg1.N) : (dat1 V c).after 2 t = k1_pay1 (xfill V c t) (acblk V c t) := by dsimp only [dat1]

/-- The body on whole memrefs: the two inputs unchanged, the result buffer at the payload of what they hold. -/
theorem sound_kernel1 (c : Dev nD) (E : Set ℕ) (i : grid1.Coords)
    (arg1 : Memref sig .tc .vmem S400x500 .bf16) (harg1 : arg1.IsWhole) (arg2 : Memref sig .tc .vmem S2048x500 .f32) (harg2 : arg2.IsWhole)
    (arg3 : Memref sig .tc .vmem S400x2048 .f32) (harg3 : arg3.IsWhole)
    (x0 : Vec F S400x500 .bf16) (x1 : Vec F S2048x500 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x1 x0)) -∗ K ⟨⟩))
      ⊢ wp frame (wpE (defs₀ (F := F)) Variants.none c none) E (cc1__corr_kernel i arg1 harg1 arg2 harg2 arg3 harg3) K := by
  simp only [cc1__corr_kernel_eq_skeleton]; unfold cc1__corr_kernel_skel
  unfold owns
  iintro ⟨⟨%f0, %hf0, H0⟩, ⟨%f1, %hf1, H1⟩, ⟨%d, %f2, -, H2⟩, Hk⟩
  subst hf0; subst hf1
  sl_exec
  sl_step
  iapply Hk
  have hz : (![0, 0] : Fin 2 → Nat) = fun _ => 0 := funext fun a => by fin_cases a <;> rfl
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz inb_S400x2048_S400x2048_0_0 y⟩),
    View.canon_unit_zero hz, View.readAt_eq_ld, View.readAt_eq_ld, View.ld_unit_zero hz, View.ld_unit_zero hz]

/-- What the body finds in the reference rows' buffer: the block itself, fetched at this point or not (its block
    index never moves, the window is uncut and never idle). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- In the locus rows' buffer: the block just fetched — its rows inside the array, `d` past them. -/
theorem before1_1 (c : Dev nD) (t : Fin cfg1.N) (d) :
    (dat1 V c).before 1 t d = win1_1.fill (grid1.coords t) d (iblk1 V c 1 t) := by
  unfold Dat.before; rw [if_pos (fetch1_1 t)]; unfold Dat.fetched Dat.blockOf iblk1; rw [A_eq1]

/-- The zero-filled block cut back to its rows inside the array is the block: filled out again with any `d`, it is the
    block filled out with `d`. -/
theorem left1_1 (c : Dev nD) (t : Fin cfg1.N) (d : S2048x500.Idx → Elt F .f32) :
    (win1 1).fill (grid1.coords t) d ((win1 1).cut (grid1.coords t) ((dat1 V c).after 1 t))
      = win1_1.fill (grid1.coords t) d (iblk1 V c 1 t) := by
  rw [after1_1]; unfold xfill
  exact congrArg (win1_1.fill (grid1.coords t) d) (win1_1.cut_fill (grid1.coords t) _ (iblk1 V c 1 t))

/-- The windows whose contents after the body a frame does not read: the result window. -/
abbrev fgtOut : Fin cfg1.W → Bool := fun | 0 => false | 1 => false | 2 => true | ⟨_ + 3, h⟩ => absurd h (Nat.not_lt.2 (Nat.le_add_left _ _))

/-- The body obligation with the result window's contents forgotten: at any instance of the float operations. -/
theorem body_obligation1_fgt (c : Dev nD) : BodyObligationLoose (dat1 (F := F) V c) (defs₀ (F := F)) Variants.none () Set.univ fgtOut := fun t => by
  rw [bigSep_W1, bigSep_W1]
  -- no point is idle, the looseness is the stated table and the forgotten windows are the stated ones: the matches reduce
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%X2, H2⟩⟩
  rw [before1_0 V c t d0, before1_1 V c t d1]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2)) (iblk1 V c 0 t)
    (win1_1.fill (grid1.coords t) d1 (iblk1 V c 1 t)) _)
  isplitl [H0]; · iexact H0
  isplitl [H1]; · iexact H1
  isplitl [H2]; · iexists X2; iexact H2
  iintro ⟨H0, H1, H2⟩
  isplitl [HΦ]; · iexact HΦ
  isplitl [Ho]; · iexact Ho
  isplitl [H0]
  · rw [after1_0]; iexact H0
  isplitl [H1]
  · -- the rows inside the array of the zero-filled block are the block's: the same filler `d1` fills it back
    iexists d1
    rw [left1_1 V c t d1]
    iexact H1
  · iexists _; iexact H2

/-- ROW LOCALITY, the hypothesis under which the result window's contents are named: the payload's columns inside
    the array do not depend on how the locus block is filled out past the array's end. -/
def RowLocal : Prop :=
  ∀ (t : Fin cfg1.N) (d d' : S2048x500.Idx → Elt F .f32) (g : (win1_1.xblock (grid1.coords t)).Idx → Elt F .f32) (a : Vec F S400x500 .bf16),
    win1_2.cut (grid1.coords t) (k1_pay1 (win1_1.fill (grid1.coords t) d g) a)
      = win1_2.cut (grid1.coords t) (k1_pay1 (win1_1.fill (grid1.coords t) d' g) a)

/-- Under row locality the payload of the block filled out with any `d` is its own filling-out of the named contents'
    columns inside the array: the two payloads agree on those columns. -/
theorem left1_2 (hloc : RowLocal (F := F)) (c : Dev nD) (t : Fin cfg1.N) (d : S2048x500.Idx → Elt F .f32) :
    (win1 2).fill (grid1.coords t) (k1_pay1 (win1_1.fill (grid1.coords t) d (iblk1 V c 1 t)) (acblk V c t))
        ((win1 2).cut (grid1.coords t) ((dat1 V c).after 2 t))
      = k1_pay1 (win1_1.fill (grid1.coords t) d (iblk1 V c 1 t)) (acblk V c t) := by
  rw [after1_2]
  refine Window.fill_congr_cut _ _ ?_
  unfold xfill
  exact hloc t d _ (iblk1 V c 1 t) (acblk V c t)

/-- The exact body obligation, under row locality. -/
theorem body_obligation1 (hloc : RowLocal (F := F)) (c : Dev nD) : BodyObligationLoose (dat1 (F := F) V c) (defs₀ (F := F)) Variants.none () Set.univ := fun t => by
  rw [bigSep_W1, bigSep_W1]
  -- no point is idle, the looseness is the stated table, nothing is forgotten: the matches reduce
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2)) (iblk1 V c 0 t)
    (win1_1.fill (grid1.coords t) d1 (iblk1 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after1_0]; iexact H0
  isplitl [H1]
  · -- the rows inside the array of the zero-filled block are the block's: the same filler `d1` fills it back
    iexists d1
    rw [left1_1 V c t d1]
    iexact H1
  · -- the result buffer holds the payload of the block filled out with `d1`: its own filling-out of the named contents
    iexists k1_pay1 (win1_1.fill (grid1.coords t) d1 (iblk1 V c 1 t)) (acblk V c t)
    rw [left1_2 V hloc c t d1]
    iexact H2

end Region1

end Cert.Kernel.Hand

end
-- ==== Proof.KRun.lean ====
/-
  THE RUN: the entry function as twelve items in order — nine stretches of host operations (the two slices of X,
  the four zero-paddings, the stacking), the first kernel region, the stretch between (the reshape, the row
  centring and scaling of the references), the second kernel region — launched from any memory with zero
  counters: every weakly fair execution terminates, the three argument arrays end as launched, and (unless the
  second region's result window is forgotten) the result array ends at what the second pipeline's write-backs
  leave.
-/
import proofs.«159284_j4690104287245_2_alg».proof.Proof.KFold
import proofs.«159284_j4690104287245_2_alg».proof.Proof.KR1
import proofs.«159284_j4690104287245_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both pipelines, and what rides beside the buffers -/

section Data

variable (fgt : Fin cfg1.W → Bool)

/-- Both pipelines' exact proof data, each at its region's entry contents: the first region's at the contents after
    the nine stretches, the second's at the contents after the stretch between the regions. -/
def pdats : (p : Fin 2) → (c : Dev nD) → Dat τ (Elt F) Unit ℕ (UR sig nD τ) ℕ (Pipeline.pin (pcfgs (F := F)) adm p) c
  | ⟨0, _⟩ => fun c => dat0 (V9 m) c
  | ⟨1, _⟩ => fun c => dat1 (V11 m) c

/-- The same read relationally: the first region's with nothing forgotten, the second's with the windows `fgt` marks
    forgotten (what its body leaves there is then not named). -/
def rdats : (p : Fin 2) → (c : Dev nD) → Pipeline.RDat τ (Elt F) Unit ℕ (UR sig nD τ) ℕ (Pipeline.pin (pcfgs (F := F)) adm p) c
  | ⟨0, _⟩ => fun c => (dat0 (V9 m) c).toRForget (fun _ => false)
  | ⟨1, _⟩ => fun c => (dat1 (V11 m) c).toRForget fgt

end Data

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what the core
    owes, which is nothing. -/
abbrev R (c : Dev nD) : sProp 𝕄 := iprop((∃ r, prngReg c r) ∗ ∃ W, owes (c : Thread nD τ) (0 : CellTallies nD τ sig Unit) W)

/-- A stretch of host operations as a segment over every unscoped buffer from the contents `W`, `R` riding along: it
    leaves those buffers at the operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region as a segment -/

/-- At the first region's exit each of its arrays holds what the pipeline leaves, and every other buffer what it
    held at entry. -/
theorem hF0 (c : Dev nD) (w : Fin cfg0.W) : (dat0 (V9 m) c).arrAt w cfg0.N = V10 m c (Pipeline.arrRef spec0 w) :=
  (W10_arr m c w).symm
theorem hrest0 (c : Dev nD) : ∀ b, b ∉ Finset.univ.image (Pipeline.arrRef spec0) → V10 m c b = V9 m c b :=
  fun b hb => W10_of_ne m c b fun w e => hb (Finset.mem_image.mpr ⟨w, Finset.mem_univ _, e⟩)

set_option backward.isDefEq.respectTransparency.types false in
/-- THE FIRST REGION over the thread state: entered from every unscoped buffer at the contents after the nine
    stretches, left with its three arrays at what the write-backs leave and every other buffer as entered. Its arrays
    are split out of the unscoped buffers at entry and put back at exit; the generator register and the scoped
    buffers no window stages go into the region's invariant (the scratch accumulator among them) and come back;
    nothing is owed; the kernel has no semaphore of its own. -/
def reg0 (fgt : Fin cfg1.W → Bool) : Pipeline.RDat.RegionSeg (pcfgs (F := F)) adm (rdats m fgt) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m) c).loose.toRForget
  hwaits := Pipeline.RDat.hwaits_of_owed_zero _ _ _ _ L lv 0 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec0 c (V9 m c)
  hentry c := by
    rw [Pipeline.ownSems0_none]
    have hsplit := Pipeline.RDat.arrays_of_unscopedBufs (p := 0) (pcfgs (F := F)) adm (rdats m fgt) launch0.win launch0.arr_whole c
      ((rdats m fgt 0 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 0 c).Φ 0 = (dat0 (V9 m) c).Φ 0 from rfl]
    refine BIBase.Entails.trans ?_ (hin0 (V9 m) c)
    iintro ⟨Hp, -, Hr⟩
    isplitl [Hp]; · iexact Hp
    iexact Hr
  hout c := by
    rw [Pipeline.ownSems0_none, show (rdats m fgt 0 c).Φ (Fin.last _) = (dat0 (V9 m) c).Φ (Fin.last cfg0.N) from rfl]
    refine (hout0 (V9 m) c).trans ?_
    iintro ⟨Hr, Hs⟩
    isplitl [Hr]; · iexact Hr
    isplitr; · iempintro
    iexact Hs
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V9 m c) (V10 m c) ((pdats m 0 c).arrAt · cfg0.N) (hF0 m c) (hrest0 m c)
    rw [Pipeline.unscopedBufs_held] at hjoin
    rw [show (rdats m fgt 0 c).arraysAt (Pipeline.pin (pcfgs (F := F)) adm 0).N = (pdats m 0 c).toR.arraysAt cfg0.N from rfl,
      (pdats m 0 c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## A buffer no item writes reaches the second region's entry as launched -/

/-- A reference none of the nine stretches writes holds, after them, what the launch memory holds. -/
theorem W9_of (c : Dev nD) (r : Ref sig .tc)
    (h : r ∉ hostOps0_W ++ hostOps0_1_W ++ hostOps0_2_W ++ hostOps0_3_W ++ hostOps0_4_W ++ hostOps0_5_W ++ hostOps0_6_W
      ++ hostOps0_7_W ++ hostOps0_8_W) :
    W9 m c (Proc.devRef .tc r) = m ((c : Thread nD τ).loc r) := by
  simp only [List.mem_append, not_or] at h
  obtain ⟨⟨⟨⟨⟨⟨⟨⟨h0, h1⟩, h2⟩, h3⟩, h4⟩, h5⟩, h6⟩, h7⟩, h8⟩ := h
  exact (V9_of m c r h8).trans <| (V8_of m c r h7).trans <| (V7_of m c r h6).trans <| (V6_of m c r h5).trans <|
    (V5_of m c r h4).trans <| (V4_of m c r h3).trans <| (V3_of m c r h2).trans <| (V2_of m c r h1).trans <|
    (V1_of m c r h0).trans rfl

/-- So does, at the second region's entry, one that in addition is no array of the first region and is not written
    by the stretch between the regions. -/
theorem W11_of (c : Dev nD) (r : Ref sig .tc)
    (h : r ∉ hostOps0_W ++ hostOps0_1_W ++ hostOps0_2_W ++ hostOps0_3_W ++ hostOps0_4_W ++ hostOps0_5_W ++ hostOps0_6_W
      ++ hostOps0_7_W ++ hostOps0_8_W)
    (harr : ∀ w, Pipeline.arrRef spec0 w ≠ r) (h1 : r ∉ hostOps1_W) :
    W11 m c (Proc.devRef .tc r) = m ((c : Thread nD τ).loc r) :=
  (StableHlo.after_of_writes_sub hostOps1 (W10 m c) hostOps1_writes h1).trans <|
    (W10_of_ne m c r harr).trans (W9_of m c r h)

theorem W11_main_arg0 (c : Dev nD) : W11 m c (Proc.devRef .tc main_arg0) = m ((c : Thread nD τ).loc main_arg0) :=
  W11_of m c main_arg0 (by decide) (by decide) (by decide)
theorem W11_main_arg1 (c : Dev nD) : W11 m c (Proc.devRef .tc main_arg1) = m ((c : Thread nD τ).loc main_arg1) :=
  W11_of m c main_arg1 (by decide) (by decide) (by decide)
theorem W11_main_arg2 (c : Dev nD) : W11 m c (Proc.devRef .tc main_arg2) = m ((c : Thread nD τ).loc main_arg2) :=
  W11_of m c main_arg2 (by decide) (by decide) (by decide)

/-! ## The second region as a segment -/

/-- THE LAST THREAD STATE: every unscoped buffer at SOME contents `V'` — which at the result array are what the
    second pipeline's write-backs leave unless the result window is forgotten, and at the three arguments are the
    second region's entry contents — and the generator register at some state. -/
def Tn (fgt : Fin cfg1.W → Bool) (c : Dev nD) : sProp 𝕄 :=
  iprop(∃ V' : Valuation τ sig (Elt F),
    ⌜(fgt 2 = false → V' (Proc.devRef .tc (Pipeline.arrRef spec1 2)) = (dat1 (V11 m) c).arrAt 2 cfg1.N)
      ∧ V' (Proc.devRef .tc main_arg0) = W11 m c (Proc.devRef .tc main_arg0)
      ∧ V' (Proc.devRef .tc main_arg1) = W11 m c (Proc.devRef .tc main_arg1)
      ∧ V' (Proc.devRef .tc main_arg2) = W11 m c (Proc.devRef .tc main_arg2)⌝
    ∗ StableHlo.held (c : Thread nD τ) (Pipeline.ucRefs τ sig) V' ∗ ∃ r, prngReg c r)

set_option backward.isDefEq.respectTransparency.types false in
/-- THE SECOND REGION over the thread state: entered from every unscoped buffer at the contents after the stretch
    between the regions, left at the last thread state. At the exit each array is at some contents it may hold after
    every write-back: for a window not forgotten those are the contents the exact data names, which for the two
    inputs are the entry contents; the arrays go back among the unscoped buffers at those contents. -/
def reg1 (fgt : Fin cfg1.W → Bool) (h0 : fgt 0 = false) (h1 : fgt 1 = false)
    (hb1 : ∀ c, BodyObligationLoose (dat1 (F := F) (V11 m) c) (defs₀ (F := F)) Variants.none () Set.univ fgt) :
    Pipeline.RDat.RegionSeg (pcfgs (F := F)) adm (rdats m fgt) () defs₀ 𝒱₀ L lv 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L lv 1 fun _ _ => rfl
  pre c := iprop(StableHlo.held (c : Thread nD τ) (Pipeline.ucRefs τ sig) (W11 m c) ∗ R c)
  post c := iprop(Tn m fgt c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V11 m c)
  hentry c := by
    rw [Pipeline.ownSems0_none]
    have hsplit := Pipeline.RDat.arrays_of_unscopedBufs (p := 1) (pcfgs (F := F)) adm (rdats m fgt) launch1.win launch1.arr_whole c
      ((rdats m fgt 1 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt 1 c).Φ (Fin.last _) = Pipeline.ΦA spec1 c from rfl]; unfold Pipeline.ΦA
    iintro ⟨Hr, Hp⟩
    isplitl [Hp]; · iexact Hp
    isplitr; · iempintro
    iexact Hr
  hexit c := by
    classical
    rw [show (rdats m fgt 1 c).arraysAt (Pipeline.pin (pcfgs (F := F)) adm 1).N = ((dat1 (V11 m) c).toRForget fgt).arraysAt cfg1.N from rfl]
    unfold Pipeline.RDat.arraysAt
    iintro ⟨Ha, HO, HY, Hrest⟩
    -- one family of contents for the three arrays, each something its array may hold after every write-back
    ihave Ha' := (BI.bigSep_exists_pi Finset.univ (fun (w : Fin cfg1.W) G => iprop(⌜((dat1 (V11 m) c).toRForget fgt).ArrAt w cfg1.N G⌝
        ∗ (cfg1.win w).arr.view.loc (c.tc : Thread nD τ) ↦[(cfg1.win w).arr.view.set]{((dat1 (V11 m) c).toRForget fgt).share w} G))) $$ Ha
    icases Ha' with ⟨%Fs, Ha⟩
    ihave Ha2 := (BI.bigSep_pure_sep Finset.univ (fun w => ((dat1 (V11 m) c).toRForget fgt).ArrAt w cfg1.N (Fs w))
        (fun w => (cfg1.win w).arr.view.loc (c.tc : Thread nD τ) ↦[(cfg1.win w).arr.view.set]{((dat1 (V11 m) c).toRForget fgt).share w} Fs w)) $$ Ha
    icases Ha2 with ⟨%hFs, Ha⟩
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V11 m c) (fun b => Pipeline.withArrays spec1 c (W11 m c) Fs b) Fs
      (fun w => (Pipeline.withArrays_arr spec1 launch1.win.arr_inj c _ _ w).symm)
      (fun b hb => Pipeline.withArrays_of_ne spec1 c _ _ b fun w e => hb (Finset.mem_image.mpr ⟨w, Finset.mem_univ _, e⟩))
    rw [Pipeline.unscopedBufs_held] at hjoin
    have hjoin' : iprop((bigSep Finset.univ fun w : Fin cfg1.W =>
            (cfg1.win w).arr.view.loc (c.tc : Thread nD τ) ↦[(cfg1.win w).arr.view.set]{((dat1 (V11 m) c).toRForget fgt).share w} Fs w)
          ∗ Pipeline.unscopedRest (Ix := Unit) (Name := ℕ) (U := UR sig nD τ) (Lvl := ℕ) spec1 c (V11 m c))
        ⊢ (StableHlo.held (c : Thread nD τ) (Pipeline.ucRefs τ sig) (Pipeline.withArrays spec1 c (W11 m c) Fs) : sProp 𝕄) := hjoin
    -- what those contents are at the windows not forgotten
    have e0 : Fs 0 = (dat1 (V11 m) c).arrAt 0 cfg1.N := ((dat1 (V11 m) c).toRForget_arrAt_iff h0 cfg1.N (Fs 0)).mp (hFs 0 (Finset.mem_univ _))
    have e1 : Fs 1 = (dat1 (V11 m) c).arrAt 1 cfg1.N := ((dat1 (V11 m) c).toRForget_arrAt_iff h1 cfg1.N (Fs 1)).mp (hFs 1 (Finset.mem_univ _))
    imodintro
    isplitl [Ha Hrest HY]
    · unfold Tn
      iexists (Pipeline.withArrays spec1 c (W11 m c) Fs)
      isplitr
      · ipureintro
        refine ⟨fun h2 => ?_, ?_, ?_, ?_⟩
        · rw [Pipeline.withArrays_arr spec1 launch1.win.arr_inj c _ _ 2]
          exact ((dat1 (V11 m) c).toRForget_arrAt_iff h2 cfg1.N (Fs 2)).mp (hFs 2 (Finset.mem_univ _))
        · exact (Pipeline.withArrays_arr spec1 launch1.win.arr_inj c (W11 m c) Fs 1).trans
            (e1.trans (((dat1 (V11 m) c).arrAt_in 1 rfl _).trans (A_eq1 (V11 m) c 1)))
        · exact Pipeline.withArrays_of_ne spec1 c _ _ main_arg1 (by decide)
        · exact Pipeline.withArrays_of_ne spec1 c _ _ main_arg2 (by decide)
      isplitl [Ha Hrest]
      · iapply hjoin'
        isplitl [Ha]
        · iexact Ha
        · iexact Hrest
      iexact HY
    unfold Pipeline.RDat.owesAt Pipeline.owesWithin
    icases HO with ⟨%W, -, HO⟩; iexists W; iexact HO

/-! ## The entry function as segments, and the launch -/

/-- The entry function's twelve items in order: a host segment per stretch from its boundary's contents, a region per
    kernel call. -/
abbrev segs (fgt : Fin cfg1.W → Bool) (h0 : fgt 0 = false) (h1 : fgt 1 = false)
    (hb1 : ∀ c, BodyObligationLoose (dat1 (F := F) (V11 m) c) (defs₀ (F := F)) Variants.none () Set.univ fgt) :
    List (Pipeline.RDat.Seg (pcfgs (F := F)) adm (rdats m fgt) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .region (reg0 m fgt),
    .host (hseg hostOps1 hostOps1_sub hostOps1_fresh (W10 m)),
    .region (reg1 m fgt h0 h1 hb1) ]

set_option backward.isDefEq.respectTransparency.types false in
/-- THE RUN, for a mask `fgt` of the second region's windows whose contents after the body are not named (the two
    inputs never are forgotten), given the second region's body obligation under that mask. -/
theorem run_cond (fgt : Fin cfg1.W → Bool) (h0 : fgt 0 = false) (h1 : fgt 1 = false)
    (hb1 : ∀ c, BodyObligationLoose (dat1 (F := F) (V11 m) c) (defs₀ (F := F)) Variants.none () Set.univ fgt) :
    θ_run defs (onTc (τ := τ) (main (F := F))) ⟨m, fun _ => 0, ρ⟩ (fun r => ∀ c : Dev nD,
      (fgt 2 = false → r.2.mem ((cfg1.win 2).arr.view.loc (c.tc : Thread nD τ)) = (dat1 (V11 m) c).arrAt 2 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.RDat.θ_run_regions_kit (pcfgs (F := F)) adm (rdats m fgt) () cellOf_inj emb₁ defs₀ 𝒱₀ L lv m ρ main (segs m fgt h0 h1 hb1)
    (fun c Q => by
      rewrite [main_chain c, Pipeline.RDat.Seg.run_eq_chain,
        show (segs m fgt h0 h1 hb1).map Pipeline.RDat.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m fgt)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s =>
      (fgt 2 = false → s.mem ((cfg1.win 2).arr.view.loc (c.tc : Thread nD τ)) = (dat1 (V11 m) c).arrAt 2 cfg1.N)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold Tn StableHlo.held
      iintro ⟨⟨%V', %hV, Hh, -⟩, HSI⟩
      ihave Hr := (pointsTo_read_all (Pipeline.ucRefs τ sig) (fun b => (((c : Thread nD τ)).1, b)) V' s') $$ [Hh HSI]
      · isplitl [Hh] <;> iassumption
      icases Hr with ⟨%h, HSI⟩
      imodintro
      isplitr
      · ipureintro
        obtain ⟨hV2, hV0, hV1, hVa2⟩ := hV
        exact ⟨fun h2 => (h _ (mem_uc (Pipeline.arrRef spec1 2) (by decide))).trans (hV2 h2),
          (h _ (mem_uc main_arg0 (by decide))).trans (hV0.trans (W11_main_arg0 m c)),
          (h _ (mem_uc main_arg1 (by decide))).trans (hV1.trans (W11_main_arg1 m c)),
          (h _ (mem_uc main_arg2 (by decide))).trans (hVa2.trans (W11_main_arg2 m c))⟩
      · iexact HSI)
    (hQ := fun _ h => h)

end Cert.Kernel.Hand

end
-- ==== Proof.Spec.lean ====
/-
  The result both programs compute, index by index, over the extended reals, as functions of the three argument
  arrays read as curried tables: the two compartments' references (a weight row contracted against its slice of the
  locus rows of X), a row centred on its mean, the centred row's sum of squares, and the Pearson correlation of a
  reference row with a locus row in the two arrangements the programs use: the kernel scales each centred row by
  the reciprocal of its norm BEFORE the contraction (the locus row's reciprocal norm guarded: zero where the sum of
  squares is not positive); the reference contracts the centred rows and divides by the product of the two norms.
  The two agree whenever the locus row is not constant (its centred sum of squares positive) and every entry is a
  real number: for a reference row of positive norm by the algebra of the reals; for a constant reference row both
  are the junk value of 0/0, the kernel's because a centred non-constant row has a positive entry.
-/
import Idealize.ShloMosaic.PureOps.Ideal
import Mathlib.Algebra.BigOperators.Group.Finset.Basic

noncomputable section

namespace Cert.Spec

open Idealize.ShloMosaic

/-- The two compartments' linear references: row `i < 200` is weight row `i` of the left compartment against locus
    rows 0 ‥ 29695 of X, row `200 + i'` weight row `i'` of the right compartment against locus rows 29696 ‥ 59411. -/
def refsRow (X : Fin 59412 → Fin 500 → EReal) (WL : Fin 200 → Fin 29696 → EReal) (WR : Fin 200 → Fin 29716 → EReal)
    (i : Fin 400) (t : Fin 500) : EReal :=
  if h : i.val < 200 then 0 + ∑ k : Fin 29696, WL ⟨i.val, h⟩ k * X ⟨k.val, by omega⟩ t
  else 0 + ∑ k : Fin 29716, WR ⟨i.val - 200, by omega⟩ k * X ⟨29696 + k.val, by omega⟩ t

/-- A row centred on its mean, the mean taken by the divisor `c` (both programs print the word of 500.0). -/
def ctr (c : EReal) (x : Fin 500 → EReal) (t : Fin 500) : EReal := x t - Ideal.div (0 + ∑ s, x s) c

/-- A row's sum of squares. -/
def ssq (y : Fin 500 → EReal) : EReal := 0 + ∑ s, y s * y s

/-- The kernel's arrangement: each centred row scaled first (the locus row's reciprocal norm guarded), then contracted. -/
def kernelOut (c : EReal) (r x : Fin 500 → EReal) : EReal :=
  0 + ∑ t, Ideal.div (ctr c r t) (Ideal.sqrt (ssq (ctr c r)))
    * (ctr c x t * (if 0 < ssq (ctr c x) then Ideal.rsqrt (ssq (ctr c x)) else 0))

/-- The reference's arrangement: the centred rows contracted, the quotient by the product of the norms last. -/
def refOut (c : EReal) (r x : Fin 500 → EReal) : EReal :=
  Ideal.div (0 + ∑ t, ctr c r t * ctr c x t) (Ideal.sqrt (ssq (ctr c r)) * Ideal.sqrt (ssq (ctr c x)))

end Cert.Spec

end
-- ==== Proof.Pay.lean ====
/-
  The kernels' payloads read at an index, at the ideal instance (floats extended reals, operations exact, format
  changes the identity). The first kernel: the reset value is zero; one point adds to the accumulator the product
  of the weight block and the locus block over the block's 1024 contraction indices; the result block is the
  accumulator re-laid. The second kernel: entry (i, j) of the result block is the contraction over the 500 time
  steps of reference row i with locus row j centred on its mean and scaled by its guarded reciprocal norm — a
  function of row j of the locus block alone, whence row locality.
-/
import proofs.«159284_j4690104287245_2_alg».proof.Proof.R1
import proofs.«159284_j4690104287245_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

/-- The word of 500.0 both programs divide a row's sum by. -/
abbrev w500 : EReal := Ideal.ofBits .f32 0x43FA0000#32

/-- A locus row centred on its mean (divisor `c`) and scaled by its reciprocal norm, the reciprocal guarded: zero
    where the centred sum of squares is not positive. -/
def bscale (c : EReal) (x : Fin 500 → EReal) (t : Fin 500) : EReal :=
  Cert.Spec.ctr c x t * (if 0 < Cert.Spec.ssq (Cert.Spec.ctr c x) then Ideal.rsqrt (Cert.Spec.ssq (Cert.Spec.ctr c x)) else 0)

theorem kernelOut_eq (c : EReal) (r x : Fin 500 → EReal) :
    Cert.Spec.kernelOut c r x
      = 0 + ∑ t, Ideal.div (Cert.Spec.ctr c r t) (Ideal.sqrt (Cert.Spec.ssq (Cert.Spec.ctr c r))) * bscale c x t := rfl

/-! ## Layout operations of a column kept as a unit trailing axis -/

section Column
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The first kernel's payloads -/

theorem lhs_k0_0 (i : S200x500.Idx) (q : dot_S200x1024_S1024x500_S200x500_1_0_0_1_n_n.contr.Idx) :
    (dot_S200x1024_S1024x500_S200x500_1_0_0_1_n_n.lhsIdx i q 0).val = (i 0).val := by
  unfold DotDims.lhsIdx
  rw [dif_neg (show ¬(0 : Fin S200x1024.rank) ∈ dot_S200x1024_S1024x500_S200x500_1_0_0_1_n_n.lhsBatch by decide), dif_pos (show (0 : Fin S200x1024.rank) ∈ dot_S200x1024_S1024x500_S200x500_1_0_0_1_n_n.lhsNonContracting by decide)]
  rfl
theorem lhs_k0_1 (i : S200x500.Idx) (q : dot_S200x1024_S1024x500_S200x500_1_0_0_1_n_n.contr.Idx) :
    (dot_S200x1024_S1024x500_S200x500_1_0_0_1_n_n.lhsIdx i q 1).val = (q ⟨0, by decide⟩).val :=
  dot_S200x1024_S1024x500_S200x500_1_0_0_1_n_n.lhsIdx_val_of_single rfl i q
theorem rhs_k0_0 (i : S200x500.Idx) (q : dot_S200x1024_S1024x500_S200x500_1_0_0_1_n_n.contr.Idx) :
    (dot_S200x1024_S1024x500_S200x500_1_0_0_1_n_n.rhsIdx i q 0).val = (q ⟨0, by decide⟩).val :=
  dot_S200x1024_S1024x500_S200x500_1_0_0_1_n_n.rhsIdx_val_of_single rfl i q
theorem rhs_k0_1 (i : S200x500.Idx) (q : dot_S200x1024_S1024x500_S200x500_1_0_0_1_n_n.contr.Idx) :
    (dot_S200x1024_S1024x500_S200x500_1_0_0_1_n_n.rhsIdx i q 1).val = (i 1).val := by
  unfold DotDims.rhsIdx
  rw [dif_neg (show ¬(1 : Fin S1024x500.rank) ∈ dot_S200x1024_S1024x500_S200x500_1_0_0_1_n_n.rhsBatch by decide), dif_pos (show (1 : Fin S1024x500.rank) ∈ dot_S200x1024_S1024x500_S200x500_1_0_0_1_n_n.rhsNonContracting by decide)]
  rfl

/-- Into a zero accumulator, entry (i, t) of the block product is the sum over the 1024 shared coordinates of row i of
    the left operand against column t of the right. -/
theorem mm0_apply (l : FVec Ideal S200x1024 .bf16) (r : FVec Ideal S1024x500 .bf16) (i : Fin 200) (t : Fin 500) :
    matmul dot_S200x1024_S1024x500_S200x500_1_0_0_1_n_n none l r (constant (F := Ideal) S200x500 .f32 0x00000000#32) (ix2 i t)
      = ∑ k : Fin 1024, l (ix2 i k) * r (ix2 k t) := by
  simp only [matmul]
  rw [Ideal.matmul_constant_zero_apply, ← Equiv.sum_comp (contrEquiv1 dot_S200x1024_S1024x500_S200x500_1_0_0_1_n_n 1024 rfl rfl).symm]
  refine Finset.sum_congr rfl fun k _ => ?_
  have hk := contrEquiv1_symm_val dot_S200x1024_S1024x500_S200x500_1_0_0_1_n_n 1024 rfl rfl k
  have el : dot_S200x1024_S1024x500_S200x500_1_0_0_1_n_n.lhsIdx (ix2 i t) ((contrEquiv1 dot_S200x1024_S1024x500_S200x500_1_0_0_1_n_n 1024 rfl rfl).symm k) = ix2 i k := funext fun a => Fin.ext (by
    match a with
    | ⟨0, _⟩ => exact lhs_k0_0 _ _
    | ⟨1, _⟩ => exact (lhs_k0_1 _ _).trans hk)
  have er : dot_S200x1024_S1024x500_S200x500_1_0_0_1_n_n.rhsIdx (ix2 i t) ((contrEquiv1 dot_S200x1024_S1024x500_S200x500_1_0_0_1_n_n 1024 rfl rfl).symm k) = ix2 k t := funext fun a => Fin.ext (by
    match a with
    | ⟨0, _⟩ => exact (rhs_k0_0 _ _).trans hk
    | ⟨1, _⟩ => exact rhs_k0_1 _ _)
  rw [el, er]

/-- The step's payload as the accumulator plus the block product of the two blocks with their unit axes dropped. -/
theorem k0_pay2_eq (x0 : Vec Ideal S1x200x1024 .f32) (x1 : Vec Ideal S1x1024x500 .f32) (s : Vec Ideal S200x500 .f32) :
    k0_pay2 (F := Ideal) x0 x1 s
      = shapeCast S200x500
          (addf s (matmul dot_S200x1024_S1024x500_S200x500_1_0_0_1_n_n none
            (truncf .bf16 (shapeCast S200x1024 x0 shapeCasts_S1x200x1024_S200x1024 : FVec Ideal S200x1024 .f32) bitsLt_bf16_f32)
            (truncf .bf16 (shapeCast S1024x500 x1 shapeCasts_S1x1024x500_S1024x500 : FVec Ideal S1024x500 .f32) bitsLt_bf16_f32)
            (constant (F := Ideal) S200x500 .f32 0x00000000#32)) : FVec Ideal S200x500 .f32)
          shapeCasts_S200x500_S200x500 := rfl

/-- The accumulator's reset value is zero everywhere. -/
theorem k0_pay1_apply (i : Fin 200) (t : Fin 500) : k0_pay1 (F := Ideal) (ix2 i t) = (0 : EReal) := by
  show shapeCast S200x500 (broadcast S200x500 (Scalar.ofBits (F := Ideal) .f32 0x00000000#32)) shapeCasts_S200x500_S200x500 (ix2 i t) = 0
  rw [shapeCast_self, broadcast_apply]
  exact Ideal.ofBits_zero_f32

/-- One point adds the block product to what the accumulator held. -/
theorem k0_pay2_apply (x0 : Vec Ideal S1x200x1024 .f32) (x1 : Vec Ideal S1x1024x500 .f32) (s : Vec Ideal S200x500 .f32)
    (i : Fin 200) (t : Fin 500) :
    k0_pay2 (F := Ideal) x0 x1 s (ix2 i t)
      = s (ix2 i t) + (0 + ∑ k : Fin 1024, x0 (ix3 (0 : Fin 1) i k) * x1 (ix3 (0 : Fin 1) k t)) := by
  rw [k0_pay2_eq, shapeCast_self, addf_apply, mm0_apply, zero_add]
  refine congrArg (s (ix2 i t) + ·) (Finset.sum_congr rfl fun k _ => ?_)
  rw [truncf_apply, truncf_apply, shapeCast_1ab_ab_apply, shapeCast_1ab_ab_apply]

/-- The result block is the accumulator re-laid with a unit leading axis. -/
theorem k0_pay3_apply (v : Vec Ideal S200x500 .f32) (i : Fin 200) (t : Fin 500) :
    k0_pay3 (F := Ideal) v (ix3 (0 : Fin 1) i t) = v (ix2 i t) := by
  show shapeCast S1x200x500 v shapeCasts_S200x500_S1x200x500 (ix3 (0 : Fin 1) i t) = _
  exact shapeCast_ab_1ab_apply v _ 0 i t

/-! ## The second kernel's payload -/

/-- The sum along a row of a `[2048, 500]` block. -/
theorem rowsum_apply (v : FVec Ideal S2048x500 .f32) (hacc : (0x00000000#32 : BitVec 32) = 0x00000000#32) (j : Fin 2048) :
    multiReduction (F := Ideal) .add [1] S2048 v 0x00000000#32 reduces_S2048x500_S2048 (.inl rfl) hacc (ix1 j)
      = ∑ s : Fin 500, v (ix2 j s) := by
  refine (Ideal.multiReduction_add_single v 0x00000000#32 reduces_S2048x500_S2048 (.inl rfl) hacc (ix1 j)).trans ?_
  refine Finset.sum_congr rfl fun s _ => congrArg v ?_
  funext a
  apply Fin.ext
  match a with
  | ⟨0, _⟩ => rfl
  | ⟨1, _⟩ => rfl

/-! ### The contraction of the second kernel: both operands contracted along their second axis -/

theorem lhs_k1_0 (i : S400x2048.Idx) (q : dot_S400x500_S2048x500_S400x2048_1_1_0_0_n_n.contr.Idx) :
    (dot_S400x500_S2048x500_S400x2048_1_1_0_0_n_n.lhsIdx i q 0).val = (i 0).val := by
  unfold DotDims.lhsIdx
  rw [dif_neg (show ¬(0 : Fin S400x500.rank) ∈ dot_S400x500_S2048x500_S400x2048_1_1_0_0_n_n.lhsBatch by decide), dif_pos (show (0 : Fin S400x500.rank) ∈ dot_S400x500_S2048x500_S400x2048_1_1_0_0_n_n.lhsNonContracting by decide)]
  rfl
theorem lhs_k1_1 (i : S400x2048.Idx) (q : dot_S400x500_S2048x500_S400x2048_1_1_0_0_n_n.contr.Idx) :
    (dot_S400x500_S2048x500_S400x2048_1_1_0_0_n_n.lhsIdx i q 1).val = (q ⟨0, by decide⟩).val :=
  dot_S400x500_S2048x500_S400x2048_1_1_0_0_n_n.lhsIdx_val_of_single rfl i q
theorem rhs_k1_0 (i : S400x2048.Idx) (q : dot_S400x500_S2048x500_S400x2048_1_1_0_0_n_n.contr.Idx) :
    (dot_S400x500_S2048x500_S400x2048_1_1_0_0_n_n.rhsIdx i q 0).val = (i 1).val := by
  unfold DotDims.rhsIdx
  rw [dif_neg (show ¬(0 : Fin S2048x500.rank) ∈ dot_S400x500_S2048x500_S400x2048_1_1_0_0_n_n.rhsBatch by decide), dif_pos (show (0 : Fin S2048x500.rank) ∈ dot_S400x500_S2048x500_S400x2048_1_1_0_0_n_n.rhsNonContracting by decide)]
  rfl
theorem rhs_k1_1 (i : S400x2048.Idx) (q : dot_S400x500_S2048x500_S400x2048_1_1_0_0_n_n.contr.Idx) :
    (dot_S400x500_S2048x500_S400x2048_1_1_0_0_n_n.rhsIdx i q 1).val = (q ⟨0, by decide⟩).val :=
  dot_S400x500_S2048x500_S400x2048_1_1_0_0_n_n.rhsIdx_val_of_single rfl i q

/-- Into a zero accumulator, entry (i, j) is the sum over the 500 shared coordinates of row i of the left operand
    against row j of the right. -/
theorem mm1_apply (l : FVec Ideal S400x500 .bf16) (r : FVec Ideal S2048x500 .bf16) (i : Fin 400) (j : Fin 2048) :
    matmul dot_S400x500_S2048x500_S400x2048_1_1_0_0_n_n none l r (constant (F := Ideal) S400x2048 .f32 0x00000000#32) (ix2 i j)
      = ∑ t : Fin 500, l (ix2 i t) * r (ix2 j t) := by
  simp only [matmul]
  rw [Ideal.matmul_constant_zero_apply, ← Equiv.sum_comp (contrEquiv1 dot_S400x500_S2048x500_S400x2048_1_1_0_0_n_n 500 rfl rfl).symm]
  refine Finset.sum_congr rfl fun k _ => ?_
  have hk := contrEquiv1_symm_val dot_S400x500_S2048x500_S400x2048_1_1_0_0_n_n 500 rfl rfl k
  have el : dot_S400x500_S2048x500_S400x2048_1_1_0_0_n_n.lhsIdx (ix2 i j) ((contrEquiv1 dot_S400x500_S2048x500_S400x2048_1_1_0_0_n_n 500 rfl rfl).symm k) = ix2 i k := funext fun a => Fin.ext (by
    match a with
    | ⟨0, _⟩ => exact lhs_k1_0 _ _
    | ⟨1, _⟩ => exact (lhs_k1_1 _ _).trans hk)
  have er : dot_S400x500_S2048x500_S400x2048_1_1_0_0_n_n.rhsIdx (ix2 i j) ((contrEquiv1 dot_S400x500_S2048x500_S400x2048_1_1_0_0_n_n 500 rfl rfl).symm k) = ix2 j k := funext fun a => Fin.ext (by
    match a with
    | ⟨0, _⟩ => exact rhs_k1_0 _ _
    | ⟨1, _⟩ => exact (rhs_k1_1 _ _).trans hk)
  rw [el, er]

/-- The block's rows centred on their means. -/
def cblk (x : Vec Ideal S2048x500 .f32) : FVec Ideal S2048x500 .f32 :=
  subf x (broadcastTo S2048x500
    (divf (shapeCast S2048x1 (multiReduction (F := Ideal) .add [1] S2048 x 0x00000000#32 reduces_S2048x500_S2048 (.inl rfl) rfl) shapeCasts_S2048_S2048x1)
      (broadcast S2048x1 (Scalar.ofBits (F := Ideal) .f32 0x43FA0000#32)))
    broadcasts_S2048x1_S2048x500)

theorem cblk_apply (x : Vec Ideal S2048x500 .f32) (j : Fin 2048) (t : Fin 500) :
    cblk x (ix2 j t) = Cert.Spec.ctr w500 (fun s => x (ix2 j s)) t := by
  unfold cblk Cert.Spec.ctr
  rw [subf_apply, broadcastTo_a1_ab_apply, divf_apply, shapeCast_a_a1_apply, rowsum_apply, broadcast_apply, zero_add]
  rfl

/-- The column of the centred rows' sums of squares. -/
def qcol (x : Vec Ideal S2048x500 .f32) : FVec Ideal S2048x1 .f32 :=
  shapeCast S2048x1 (multiReduction (F := Ideal) .add [1] S2048 (mulf (cblk x) (cblk x)) 0x00000000#32 reduces_S2048x500_S2048 (.inl rfl) rfl)
    shapeCasts_S2048_S2048x1

theorem qcol_apply (x : Vec Ideal S2048x500 .f32) (j : Fin 2048) (u : Fin 1) :
    qcol x (ix2 j u) = Cert.Spec.ssq (Cert.Spec.ctr w500 (fun s => x (ix2 j s))) := by
  unfold qcol Cert.Spec.ssq
  rw [shapeCast_a_a1_apply, rowsum_apply, zero_add]
  refine Finset.sum_congr rfl fun s _ => ?_
  rw [mulf_apply, cblk_apply]

/-- The guarded reciprocal square root of a column, at a row. -/
theorem guard_apply (q : FVec Ideal S2048x1 .f32) (j : Fin 2048) (u : Fin 1) :
    select (cmpf .ogt q (broadcast S2048x1 (Scalar.ofBits (F := Ideal) .f32 0x00000000#32))) (rsqrt q)
        (broadcast S2048x1 (Scalar.ofBits (F := Ideal) .f32 0x00000000#32)) (ix2 j u)
      = if 0 < q (ix2 j u) then Ideal.rsqrt (q (ix2 j u)) else 0 := by
  rw [select_apply, cmpf_apply, broadcast_apply]
  show Scalar.select (Ideal.cmp .ogt (q (ix2 j u)) (Ideal.ofBits .f32 0x00000000#32)) (Ideal.rsqrt (q (ix2 j u))) (Ideal.ofBits .f32 0x00000000#32) = _
  rw [Ideal.ofBits_zero_f32]
  unfold Scalar.select Ideal.cmp
  by_cases h : 0 < q (ix2 j u)
  · simp [h]
  · simp [h]

/-- The column of guarded reciprocal norms. -/
def gcol (x : Vec Ideal S2048x500 .f32) : FVec Ideal S2048x1 .f32 :=
  select (cmpf .ogt (qcol x) (broadcast S2048x1 (Scalar.ofBits (F := Ideal) .f32 0x00000000#32))) (rsqrt (qcol x))
    (broadcast S2048x1 (Scalar.ofBits (F := Ideal) .f32 0x00000000#32))

theorem gcol_apply (x : Vec Ideal S2048x500 .f32) (j : Fin 2048) (u : Fin 1) :
    gcol x (ix2 j u) = if 0 < Cert.Spec.ssq (Cert.Spec.ctr w500 (fun s => x (ix2 j s)))
      then Ideal.rsqrt (Cert.Spec.ssq (Cert.Spec.ctr w500 (fun s => x (ix2 j s)))) else 0 := by
  unfold gcol
  rw [guard_apply, qcol_apply]

/-- The payload as the contraction of the resident rows with the scaled centred block. -/
theorem k1_pay1_eq (x : Vec Ideal S2048x500 .f32) (a : Vec Ideal S400x500 .bf16) :
    k1_pay1 (F := Ideal) x a
      = matmul dot_S400x500_S2048x500_S400x2048_1_1_0_0_n_n none (shapeCast S400x500 a shapeCasts_S400x500_S400x500 : FVec Ideal S400x500 .bf16)
          (truncf .bf16 (mulf (cblk x) (broadcastTo S2048x500 (gcol x) broadcasts_S2048x1_S2048x500)) bitsLt_bf16_f32)
          (constant (F := Ideal) S400x2048 .f32 0x00000000#32) := rfl

/-- Entry (i, j) of the second kernel's result block. -/
theorem k1_apply (x : Vec Ideal S2048x500 .f32) (a : Vec Ideal S400x500 .bf16) (i : Fin 400) (j : Fin 2048) :
    k1_pay1 (F := Ideal) x a (ix2 i j)
      = 0 + ∑ t : Fin 500, a (ix2 i t) * bscale w500 (fun s => x (ix2 j s)) t := by
  rw [k1_pay1_eq, mm1_apply, zero_add]
  refine Finset.sum_congr rfl fun t _ => ?_
  rw [shapeCast_self, truncf_apply, mulf_apply, broadcastTo_a1_ab_apply, cblk_apply, gcol_apply]
  rfl

/-- Row locality at the ideal instance. -/
theorem rowLocal : RowLocal (F := Ideal) := by
  intro t d d' g a
  funext y
  -- the cut index by its coordinates: a resident row p and a locus row q inside the array's part of the block
  obtain ⟨p, q, hpq, hq⟩ : ∃ (p : Fin 400) (q : Fin 2048),
      win1_2.xinj (grid1.coords t) y = ix2 p q ∧ q.val = (y 1).val :=
    ⟨win1_2.xinj (grid1.coords t) y 0, win1_2.xinj (grid1.coords t) y 1, eq_ix2 _, rfl⟩
  show k1_pay1 (F := Ideal) (win1_1.fill (grid1.coords t) d g) a (win1_2.xinj (grid1.coords t) y)
    = k1_pay1 (F := Ideal) (win1_1.fill (grid1.coords t) d' g) a (win1_2.xinj (grid1.coords t) y)
  rw [hpq, k1_apply, k1_apply]
  -- row q of the filled block is the fetched row whatever lay beyond the array's end
  have hrow : (fun s : Fin 500 => win1_1.fill (grid1.coords t) d g (ix2 q s))
      = fun s : Fin 500 => win1_1.fill (grid1.coords t) d' g (ix2 q s) := by
    funext s
    have hm : win1_1.moved (grid1.coords t) (ix2 q s) = true := by
      rw [Window.moved_iff]
      intro ax
      match ax with
      | ⟨0, _⟩ =>
        show q.val < win1_1.xsize (grid1.coords t) 0
        rw [hq]
        exact (y 1).isLt
      | ⟨1, _⟩ =>
        show s.val < win1_1.xsize (grid1.coords t) 1
        exact s.isLt
    unfold Window.fill
    rw [dif_pos hm, dif_pos hm]
  refine congrArg (0 + ·) (Finset.sum_congr rfl fun t' _ => congrArg (a (ix2 p t') * ·) ?_)
  exact congrArg (fun r => bscale w500 r t') hrow

end Cert.KernelIdeal.Hand

end
-- ==== Proof.LibSums.lean ====
/-
  Two general facts about finite sums over `Fin`: a sum over `Fin N` of a function that vanishes from `n` on is
  the sum of its restriction to `Fin n`; and a sum over `Fin (B * S)` is the sum over `B` consecutive blocks of
  `S` terms.
-/
import Mathlib.Algebra.BigOperators.Fin
import Mathlib.Data.Fintype.BigOperators
import Mathlib.Data.Fin.SuccPred
import Mathlib.Logic.Equiv.Fin.Basic

namespace Cert.LibSums

/-- A function on `Fin N` that is `f` below `n` and zero from `n` on sums to the sum of `f`. -/
theorem sum_dite_lt {M : Type*} [AddCommMonoid M] {n N : ℕ} (h : n ≤ N) (f : Fin n → M) :
    ∑ k : Fin N, (if hk : k.val < n then f ⟨k.val, hk⟩ else 0) = ∑ k : Fin n, f k := by
  -- The inclusion `Fin n → Fin N` is injective, the summand vanishes off its range, and on its range the
  -- summand is `f`.
  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

/-- A sum over `B * S` indices, block by block. -/
theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by
  -- The double sum is a sum over pairs `(b, s)`; the bijection `(b, s) ↦ s + S * b` onto `Fin (B * S)`
  -- carries each summand to the corresponding one.
  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.Value0.lean ====
/-
  What the first region leaves in its result array, at the ideal instance: entry (cc, i, t) of the stacked
  references is the contraction, over all 30720 padded contraction indices, of weight row i of compartment cc
  against column t of its padded locus rows — the thirty block products the accumulator gathers from its reset at
  block 0 to the store at block 29, the two compartments' blocks written back at points 29 and 59.
-/
import proofs.«159284_j4690104287245_2_alg».proof.Proof.Pay
import proofs.«159284_j4690104287245_2_alg».proof.Proof.R0
import proofs.«159284_j4690104287245_2_alg».proof.Proof.LibSums

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The stacked weights and the stacked locus rows as the region finds them, at their literal types. -/
abbrev wst (c : Dev nD) : Vec Ideal S2x200x30720 .f32 := V c main_v8
abbrev xst (c : Dev nD) : Vec Ideal S2x30720x500 .f32 := V c main_v11

/-- The first region's result array after the run. -/
abbrev res0 (c : Dev nD) : Vec Ideal S2x200x500 .f32 := (dat0 (F := Ideal) V c).arrAt 2 cfg0.N

/-! ## The printed index maps over the grid

The grid is (compartment, block) in row-major order: point `n` is compartment `n / 30`, block `n % 30`. The weight
window moves along the contraction axis (its last), the locus window along the contraction axis (its middle), the
result window with the compartment only. -/

theorem idx0_w : ∀ t : Fin cfg0.N, win0_0.index t (0 : Fin 3) = t.val / 30 ∧ win0_0.index t (1 : Fin 3) = 0
    ∧ win0_0.index t (2 : Fin 3) = t.val % 30 :=
  (by decide +kernel : ∀ t : Fin grid0.N, _)

theorem idx0_x : ∀ t : Fin cfg0.N, win0_1.index t (0 : Fin 3) = t.val / 30 ∧ win0_1.index t (1 : Fin 3) = t.val % 30
    ∧ win0_1.index t (2 : Fin 3) = 0 :=
  (by decide +kernel : ∀ t : Fin grid0.N, _)

theorem idx0_o : ∀ t : Fin cfg0.N, win0_2.index t (0 : Fin 3) = t.val / 30 ∧ win0_2.index t (1 : Fin 3) = 0
    ∧ win0_2.index t (2 : Fin 3) = 0 :=
  (by decide +kernel : ∀ t : Fin grid0.N, _)

/-! ## The input blocks as entries of the stacked arrays -/

/-- Entry `y` of the weight block at point `p` is the stacked weights at compartment `p / 30`, the same row, and
    contraction index `1024 (p % 30)` plus the block's own. -/
theorem wblk_apply (c : Dev nD) (p : Fin cfg0.N) (y : S1x200x1024.Idx) (idx : S2x200x30720.Idx)
    (h0 : (idx 0).val = p.val / 30) (h1 : (idx 1).val = (y 1).val) (h2 : (idx 2).val = p.val % 30 * 1024 + (y 2).val) :
    wblk V c p y = wst V c idx := by
  obtain ⟨e0, e1, e2⟩ := idx0_w p
  have hy0 : (y 0).val < 1 := (y 0).isLt
  show V c main_v8 (((cfg0.win 0).blk p).view.emb y) = V c main_v8 idx
  congr 1
  funext a
  apply Fin.ext
  match a with
  | ⟨0, _⟩ => show win0_0.index p (0 : Fin 3) * 1 + 1 * (y 0).val = (idx 0).val; rw [e0, h0]; omega
  | ⟨1, _⟩ => show win0_0.index p (1 : Fin 3) * 200 + 1 * (y 1).val = (idx 1).val; rw [e1, h1]; omega
  | ⟨2, _⟩ => show win0_0.index p (2 : Fin 3) * 1024 + 1 * (y 2).val = (idx 2).val; rw [e2, h2]; omega

/-- Entry `y` of the locus block at point `p` is the stacked locus rows at compartment `p / 30`, contraction index
    `1024 (p % 30)` plus the block's own, and the same column. -/
theorem xblk_apply (c : Dev nD) (p : Fin cfg0.N) (y : S1x1024x500.Idx) (idx : S2x30720x500.Idx)
    (h0 : (idx 0).val = p.val / 30) (h1 : (idx 1).val = p.val % 30 * 1024 + (y 1).val) (h2 : (idx 2).val = (y 2).val) :
    xblk V c p y = xst V c idx := by
  obtain ⟨e0, e1, e2⟩ := idx0_x p
  have hy0 : (y 0).val < 1 := (y 0).isLt
  show V c main_v11 (((cfg0.win 1).blk p).view.emb y) = V c main_v11 idx
  congr 1
  funext a
  apply Fin.ext
  match a with
  | ⟨0, _⟩ => show win0_1.index p (0 : Fin 3) * 1 + 1 * (y 0).val = (idx 0).val; rw [e0, h0]; omega
  | ⟨1, _⟩ => show win0_1.index p (1 : Fin 3) * 1024 + 1 * (y 1).val = (idx 1).val; rw [e1, h1]; omega
  | ⟨2, _⟩ => show win0_1.index p (2 : Fin 3) * 500 + 1 * (y 2).val = (idx 2).val; rw [e2, h2]; omega

/-! ## One block's product -/

/-- The product of weight row `i` and locus column `t` of compartment `cc` over contraction block `b` (its 1024
    indices `1024 b … 1024 b + 1023`); zero outside the two compartments and thirty blocks. -/
def blockProd0 (c : Dev nD) (cc : ℕ) (i : Fin 200) (t : Fin 500) (b : ℕ) : EReal :=
  if h : cc < 2 ∧ b < 30 then
    0 + ∑ k : Fin 1024, wst V c (ix3 (⟨cc, h.1⟩ : Fin 2) i (⟨b * 1024 + k.val, by have := k.isLt; omega⟩ : Fin 30720))
      * xst V c (ix3 (⟨cc, h.1⟩ : Fin 2) (⟨b * 1024 + k.val, by have := k.isLt; omega⟩ : Fin 30720) t)
  else 0

/-- The product of the two blocks the body finds at point `p` is the block product of compartment `p / 30`, block
    `p % 30`. -/
theorem block_sum0 (c : Dev nD) (p : Fin cfg0.N) (i : Fin 200) (t : Fin 500) :
    (0 : EReal) + ∑ k : Fin 1024, wblk V c p (ix3 (0 : Fin 1) i k) * xblk V c p (ix3 (0 : Fin 1) k t)
      = blockProd0 V c (p.val / 30) i t (p.val % 30) := by
  have hN : cfg0.N = 60 := N_0
  have hp : p.val < cfg0.N := p.isLt
  have hcb : p.val / 30 < 2 ∧ p.val % 30 < 30 := ⟨by omega, by omega⟩
  unfold blockProd0
  rw [dif_pos hcb]
  congr 1
  refine Finset.sum_congr rfl fun k _ => ?_
  rw [wblk_apply V c p (ix3 (0 : Fin 1) i k) (ix3 (⟨p.val / 30, hcb.1⟩ : Fin 2) i (⟨p.val % 30 * 1024 + k.val, by have := k.isLt; omega⟩ : Fin 30720)) rfl rfl rfl,
    xblk_apply V c p (ix3 (0 : Fin 1) k t) (ix3 (⟨p.val / 30, hcb.1⟩ : Fin 2) (⟨p.val % 30 * 1024 + k.val, by have := k.isLt; omega⟩ : Fin 30720) t) rfl rfl rfl]

/-! ## The accumulator in closed form -/

/-- One run of the body at point `p`, read at an entry: the block product of the point, added to what the
    accumulator held — or to zero at a compartment's first block, where the body resets it. -/
theorem accStep_apply (c : Dev nD) (p : Fin cfg0.N) (s : Vec Ideal S200x500 .f32) (i : Fin 200) (t : Fin 500) :
    accStep (grid0.coords p) (wblk V c p) (xblk V c p) s (ix2 i t)
      = (if p.val % 30 = 0 then (0 : EReal) else s (ix2 i t)) + blockProd0 V c (p.val / 30) i t (p.val % 30) := by
  unfold accStep
  rw [k0_pay2_apply, block_sum0]
  by_cases hc : p.val % 30 = 0
  · rw [if_pos ((hcond0_0 p).mpr hc), if_pos hc, k0_pay1_apply]
  · rw [if_neg (fun h => hc ((hcond0_0 p).mp h)), if_neg hc]

/-- The accumulator after point `n`, from what it held after the point before. -/
theorem acc0_point (c : Dev nD) (n : ℕ) (h : n < cfg0.N) (i : Fin 200) (t : Fin 500) :
    acc0 V c n (ix2 i t)
      = (if n % 30 = 0 then (0 : EReal) else acc0 V c (n - 1) (ix2 i t)) + blockProd0 V c (n / 30) i t (n % 30) := by
  have e := acc0_step V c ⟨n, h⟩ (acc0 V c (n - 1)) (fun _ => rfl)
  have a := accStep_apply V c ⟨n, h⟩ (acc0 V c (n - 1)) i t
  exact (congrFun e (ix2 i t)).symm.trans a

/-- THE ACCUMULATOR AFTER POINT `n`: the sum of the block products of compartment `n / 30` over the blocks
    `0 … n % 30` — by induction on the point. -/
theorem acc0_apply (c : Dev nD) : ∀ (n : ℕ) (hn : n < 60) (i : Fin 200) (t : Fin 500),
    acc0 V c n (ix2 i t) = ∑ b ∈ Finset.range (n % 30 + 1), blockProd0 V c (n / 30) i t b
  | 0, hn, i, t => by
    rw [acc0_point V c 0 (by rw [show cfg0.N = 60 from N_0]; omega) i t, if_pos (Nat.zero_mod 30), Nat.zero_mod, Nat.zero_div, Finset.sum_range_one,
      zero_add]
  | n + 1, hn, i, t => by
    rw [acc0_point V c (n + 1) (by rw [show cfg0.N = 60 from N_0]; omega) i t]
    by_cases hc : (n + 1) % 30 = 0
    · rw [if_pos hc, hc, Finset.sum_range_one, zero_add]
    · rw [if_neg hc, Nat.add_sub_cancel, acc0_apply c n (by omega) i t, show (n + 1) / 30 = n / 30 by omega,
        show (n + 1) % 30 = n % 30 + 1 by omega, Finset.sum_range_succ _ (n % 30 + 1)]

/-! ## From the accumulator to the result array -/

/-- The result block is the accumulator re-laid, at any index of the block. -/
theorem k0_pay3_at (v : Vec Ideal S200x500 .f32) (Y : S1x200x500.Idx) :
    k0_pay3 (F := Ideal) v Y = v (ix2 (Y 1) (Y 2)) := by
  have hY0 : (Y 0).val < 1 := (Y 0).isLt
  have hY : Y = ix3 (0 : Fin 1) (Y 1) (Y 2) := by
    funext a
    match a with
    | ⟨0, _⟩ => exact Fin.ext (by show (Y 0).val = 0; omega)
    | ⟨1, _⟩ => rfl
    | ⟨2, _⟩ => rfl
  exact (congrArg (k0_pay3 (F := Ideal) v) hY).trans (k0_pay3_apply v (Y 1) (Y 2))

/-- What the result array ends holding: entry (cc, i, t) is the accumulator's entry (i, t) after compartment
    `cc`'s last block, point `30 cc + 29`. -/
def G0 (c : Dev nD) : Vec Ideal S2x200x500 .f32 :=
  fun idx => acc0 V c (30 * (idx 0).val + 29) (ix2 (idx 1) (idx 2))

/-- WHAT A LAST BLOCK'S POINT WRITES BACK is its block of `G0`. -/
theorem flushed0_eq (c : Dev nD) (p : Fin cfg0.N) (hf : (cfg0.win 2).flush p = true) :
    (dat0 (F := Ideal) V c).flushed 2 p = ((cfg0.win 2).blk p).view.read (Elt Ideal) (G0 V c) := by
  have h29 : p.val % 30 = 29 := (flush0_2 p).mp hf
  obtain ⟨e0, e1, e2⟩ := idx0_o p
  show (cfg0.win 2).cut (grid0.coords p) ((dat0 (F := Ideal) V c).after 2 p) = _
  rw [after0_2]
  funext y
  have hy0 : (y 0).val < 1 := (y 0).isLt
  have k0 : ((((cfg0.win 2).blk p).view.emb y) 0).val = p.val / 30 := by
    show win0_2.index p (0 : Fin 3) * 1 + 1 * (y 0).val = _
    rw [e0]; omega
  have k1 : ((((cfg0.win 2).blk p).view.emb y) 1).val = (y 1).val := by
    show win0_2.index p (1 : Fin 3) * 200 + 1 * (y 1).val = _
    rw [e1]; omega
  have k2 : ((((cfg0.win 2).blk p).view.emb y) 2).val = (y 2).val := by
    show win0_2.index p (2 : Fin 3) * 500 + 1 * (y 2).val = _
    rw [e2]; omega
  show k0_pay3 (F := Ideal) (acc0 V c p.val) ((cfg0.win 2).xinj (grid0.coords p) y)
    = acc0 V c (30 * ((((cfg0.win 2).blk p).view.emb y) 0).val + 29)
        (ix2 ((((cfg0.win 2).blk p).view.emb y) 1) ((((cfg0.win 2).blk p).view.emb y) 2))
  rw [k0_pay3_at, k0, show 30 * (p.val / 30) + 29 = p.val by omega]
  congr 1
  exact Shape.idx_ext₂ k1.symm k2.symm

/-- Every index of the result array is in the block of its compartment's last point. -/
theorem cover0 (i : S2x200x500.Idx) :
    ∃ p : Fin cfg0.N, (cfg0.win 2).flush p = true ∧ i ∈ ((cfg0.win 2).blk p).view.set := by
  have hN : cfg0.N = 60 := N_0
  have hi0 : (i 0).val < 2 := (i 0).isLt
  have hi1 : (i 1).val < 200 := (i 1).isLt
  have hi2 : (i 2).val < 500 := (i 2).isLt
  obtain ⟨p, hp⟩ : ∃ p : Fin cfg0.N, p.val = 30 * (i 0).val + 29 := ⟨⟨30 * (i 0).val + 29, by omega⟩, rfl⟩
  obtain ⟨e0, e1, e2⟩ := idx0_o p
  refine ⟨p, (flush0_2 p).mpr (by omega), ?_⟩
  show i ∈ ((View.whole main_v12).slice (win0_2.rect p)).set
  rw [View.set_slice_whole, Rect.mem_set_unit]
  intro a
  match a with
  | ⟨0, _⟩ =>
    show win0_2.index p (0 : Fin 3) * 1 ≤ (i 0).val ∧ (i 0).val < win0_2.index p (0 : Fin 3) * 1 + 1
    rw [e0]; omega
  | ⟨1, _⟩ =>
    show win0_2.index p (1 : Fin 3) * 200 ≤ (i 1).val ∧ (i 1).val < win0_2.index p (1 : Fin 3) * 200 + 200
    rw [e1]; omega
  | ⟨2, _⟩ =>
    show win0_2.index p (2 : Fin 3) * 500 ≤ (i 2).val ∧ (i 2).val < win0_2.index p (2 : Fin 3) * 500 + 500
    rw [e2]; omega

/-- So the result array ends holding `G0`. -/
theorem res0_eq (c : Dev nD) : res0 V c = G0 V c :=
  (dat0 (F := Ideal) V c).arrAt_eq_of_cover 2 (G0 V c) (flushed0_eq V c) cover0

/-! ## The thirty blocks are the whole contraction -/

/-- A sum over the 30720 contraction indices, block by block. -/
theorem sum_blocks_30720 (f : Fin 30720 → EReal) :
    ∑ b : Fin 30, ∑ s : Fin 1024, f ⟨b.val * 1024 + s.val, by have := b.isLt; have := s.isLt; omega⟩ = ∑ k : Fin 30720, f k :=
  Cert.LibSums.sum_blocks 30 1024 f

theorem region0_value (c : Dev nD) (cc : Fin 2) (i : Fin 200) (t : Fin 500) :
    res0 V c (ix3 cc i t) = 0 + ∑ k : Fin 30720, wst V c (ix3 cc i k) * xst V c (ix3 cc k t) := by
  have hcc : cc.val < 2 := cc.isLt
  rw [res0_eq]
  show acc0 V c (30 * cc.val + 29) (ix2 i t) = _
  rw [acc0_apply V c (30 * cc.val + 29) (by omega) i t,
    show (30 * cc.val + 29) % 30 + 1 = 30 by omega, show (30 * cc.val + 29) / 30 = cc.val by omega,
    Finset.sum_range, zero_add, ← sum_blocks_30720]
  refine Finset.sum_congr rfl fun b _ => ?_
  unfold blockProd0
  rw [dif_pos ⟨hcc, b.isLt⟩, zero_add]

end Cert.KernelIdeal.Hand

end
-- ==== Proof.Value1.lean ====
/-
  What the second region leaves in its result array, at the ideal instance: entry (i, j) of the correlation is the
  contraction over the 500 time steps of the scaled reference row i (as the region finds it) with locus row j of X
  centred on its mean and scaled by its guarded reciprocal norm. Column j lies in block j / 2048, written back at
  that point — the last block cut to the 20 columns inside the array —, and depends on locus row j alone.
-/
import proofs.«159284_j4690104287245_2_alg».proof.Proof.Pay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The scaled reference rows and the locus rows as the region finds them, at their literal types. -/
abbrev acs (c : Dev nD) : Vec Ideal S400x500 .bf16 := V c main_v26
abbrev xs (c : Dev nD) : Vec Ideal S59412x500 .f32 := V c main_arg0

/-- The second region's result array after the run. -/
abbrev res1 (c : Dev nD) : Vec Ideal S400x59412 .f32 := (dat1 (F := Ideal) V c).arrAt 2 cfg1.N

/-- The windows' index maps and cut extents at each of the thirty points: the reference window sits at block (0, 0)
    whole; the locus window at block (t, 0), its rows cut to those inside the array; the result window at block (0, t), its
    columns cut likewise, the two cuts equal; the cut block ends where the array ends or the full block does. -/
theorem idx_facts1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_1.xsize (grid1.coords t) (1 : Fin 2) = 500
    ∧ win1_2.xsize (grid1.coords t) (0 : Fin 2) = 400
    ∧ win1_2.xsize (grid1.coords t) (1 : Fin 2) = win1_1.xsize (grid1.coords t) (0 : Fin 2)
    ∧ t.val * 2048 + win1_2.xsize (grid1.coords t) (1 : Fin 2) = min (t.val * 2048 + 2048) 59412 :=
  (by decide +kernel : ∀ t : Fin grid1.N, _)

/-- The reference window's one block is the whole array: read through it, the array is itself. -/
theorem acblk_apply (c : Dev nD) (t : Fin cfg1.N) (i : Fin 400) (s : Fin 500) :
    acblk V c t (ix2 i s) = acs V c (ix2 i s) := by
  obtain ⟨e0, e1, -⟩ := idx_facts1 t
  show V c main_v26 (((cfg1.win 0).blk t).view.emb (ix2 i s)) = V c main_v26 (ix2 i s)
  refine congrArg (V c main_v26) ?_
  funext a; apply Fin.ext
  match a with
  | ⟨0, _⟩ => show win1_0.index t (0 : Fin 2) * 400 + 1 * i.val = i.val; omega
  | ⟨1, _⟩ => show win1_0.index t (1 : Fin 2) * 500 + 1 * s.val = s.val; omega

/-- Row j of the filled-out locus block, for j among the rows inside the array, is row t·2048 + j of the locus array. -/
theorem xfill_apply (c : Dev nD) (t : Fin cfg1.N) (j : Fin 2048) (hj : j.val < win1_1.xsize (grid1.coords t) (0 : Fin 2))
    (j' : Fin 59412) (hj' : j'.val = t.val * 2048 + j.val) (s : Fin 500) :
    xfill V c t (ix2 j s) = xs V c (ix2 j' s) := by
  obtain ⟨-, -, e2, e3, -, -, e6, -⟩ := idx_facts1 t
  have hm : win1_1.moved (grid1.coords t) (ix2 j s) = true :=
    (win1_1.moved_iff _ _).mpr fun a => match a with
      | ⟨0, _⟩ => hj
      | ⟨1, _⟩ => by show s.val < win1_1.xsize (grid1.coords t) (1 : Fin 2); rw [e6]; exact s.isLt
  unfold xfill Window.fill
  rw [dif_pos hm]
  show V c main_arg0 (((cfg1.win 1).blk t).view.emb _) = V c main_arg0 (ix2 j' s)
  refine congrArg (V c main_arg0) ?_
  funext a; apply Fin.ext
  match a with
  | ⟨0, _⟩ => show win1_1.index t (0 : Fin 2) * 2048 + 1 * j.val = j'.val; omega
  | ⟨1, _⟩ => show win1_1.index t (1 : Fin 2) * 500 + 1 * s.val = s.val; omega

/-- What the result array is shown to hold: at (i, j) the contraction of reference row i with the scaled locus row j. -/
def G1 (c : Dev nD) : Vec Ideal S400x59412 .f32 := fun y =>
  0 + ∑ t : Fin 500, acs V c (ix2 (y 0 : Fin 400) t) * bscale w500 (fun s => xs V c (ix2 (y 1 : Fin 59412) s)) t

theorem G1_apply (c : Dev nD) (i : Fin 400) (j : Fin 59412) :
    G1 V c (ix2 i j) = 0 + ∑ t : Fin 500, acs V c (ix2 i t) * bscale w500 (fun s => xs V c (ix2 j s)) t := rfl

/-- What point t writes back — the leading columns of the payload's block, those inside the array — is the target
    read through the point's cut block. -/
theorem flushed1_eq (c : Dev nD) (t : Fin cfg1.N) :
    (dat1 (F := Ideal) V c).flushed 2 t = ((cfg1.win 2).blk t).view.read (Elt Ideal) (G1 V c) := by
  show (cfg1.win 2).cut (grid1.coords t) ((dat1 (F := Ideal) V c).after 2 t) = _
  rw [after1_2]
  obtain ⟨-, -, -, -, e4, e5, -, e7, e8, e9⟩ := idx_facts1 t
  funext y
  have h0x : (y 0).val < win1_2.xsize (grid1.coords t) (0 : Fin 2) := (y 0).isLt
  have h0 : (y 0).val < 400 := by omega
  have h1x : (y 1).val < win1_2.xsize (grid1.coords t) (1 : Fin 2) := (y 1).isLt
  have h1 : (y 1).val < 2048 := by omega
  have h1' : t.val * 2048 + (y 1).val < 59412 := by omega
  have hx : win1_2.xinj (grid1.coords t) y = ix2 (⟨(y 0).val, h0⟩ : Fin 400) (⟨(y 1).val, h1⟩ : Fin 2048) := by
    funext a; match a with | ⟨0, _⟩ => rfl | ⟨1, _⟩ => rfl
  have he : ((cfg1.win 2).blk t).view.emb y = ix2 (⟨(y 0).val, h0⟩ : Fin 400) (⟨t.val * 2048 + (y 1).val, h1'⟩ : Fin 59412) := by
    funext a; apply Fin.ext
    match a with
    | ⟨0, _⟩ => show win1_2.index t (0 : Fin 2) * 400 + 1 * (y 0).val = (y 0).val; omega
    | ⟨1, _⟩ => show win1_2.index t (1 : Fin 2) * 2048 + 1 * (y 1).val = t.val * 2048 + (y 1).val; omega
  show k1_pay1 (xfill V c t) (acblk V c t) (win1_2.xinj (grid1.coords t) y) = G1 V c (((cfg1.win 2).blk t).view.emb y)
  rw [hx, he, k1_apply, G1_apply]
  refine congrArg (fun z => 0 + z) (Finset.sum_congr rfl fun s _ => ?_)
  rw [acblk_apply]
  refine congrArg (fun f => acs V c (ix2 _ s) * bscale w500 f s) (funext fun s' => ?_)
  exact xfill_apply V c t _ (by rw [← e8]; exact h1x) _ rfl s'

/-- An index of the array is in point t's cut block iff each coordinate is in the block's range on its axis. -/
theorem mem_blk1 (t : Fin cfg1.N) (i : S400x59412.Idx) :
    i ∈ ((cfg1.win 2).blk t).view.set ↔ ∀ a : Fin 2, win1_2.index t a * S400x2048.size a ≤ (i a).val
      ∧ (i a).val < win1_2.index t a * S400x2048.size a + win1_2.xsize (grid1.coords t) a := by
  show i ∈ ((View.whole main_v27).slice (win1_2.rect t)).set ↔ _
  rw [View.set_slice_whole, Rect.mem_set_unit]
  exact Iff.rfl

/-- Column j lies in the block of point j / 2048, at an inner column below the block's cut extent: the thirty cut blocks
    cover the array. -/
theorem cover1 (i : S400x59412.Idx) :
    ∃ t : Fin cfg1.N, (cfg1.win 2).flush t = true ∧ i ∈ ((cfg1.win 2).blk t).view.set := by
  have hi0 : (i 0).val < 400 := (i 0).isLt
  have hi1 : (i 1).val < 59412 := (i 1).isLt
  obtain ⟨t, ht⟩ : ∃ t : Fin cfg1.N, t.val = (i 1).val / 2048 :=
    ⟨⟨(i 1).val / 2048, by show (i 1).val / 2048 < grid1.N; rw [N_1]; omega⟩, rfl⟩
  obtain ⟨-, -, -, -, e4, e5, -, e7, -, e9⟩ := idx_facts1 t
  refine ⟨t, flush1_2 t, ?_⟩
  rw [mem_blk1]
  intro a
  match a with
  | ⟨0, _⟩ =>
    show win1_2.index t (0 : Fin 2) * 400 ≤ (i 0).val
      ∧ (i 0).val < win1_2.index t (0 : Fin 2) * 400 + win1_2.xsize (grid1.coords t) (0 : Fin 2)
    omega
  | ⟨1, _⟩ =>
    show win1_2.index t (1 : Fin 2) * 2048 ≤ (i 1).val
      ∧ (i 1).val < win1_2.index t (1 : Fin 2) * 2048 + win1_2.xsize (grid1.coords t) (1 : Fin 2)
    omega

theorem region1_value (c : Dev nD) (i : Fin 400) (j : Fin 59412) :
    res1 V c (ix2 i j) = 0 + ∑ t : Fin 500, acs V c (ix2 i t) * bscale w500 (fun s => xs V c (ix2 j s)) t := by
  have h := (dat1 (F := Ideal) V c).arrAt_eq_of_cover 2 (G1 V c) (fun t _ => flushed1_eq V c t) cover1
  exact (congrFun h (ix2 i j)).trans (G1_apply V c i j)

end Cert.KernelIdeal.Hand

end
-- ==== Proof.Host.lean ====
/-
  The host operations of the entry function read at an index, at the ideal instance. Before the first region: the
  stacked weights are the two weight matrices zero-padded along the contraction axis to 30720 and stacked, the
  stacked locus rows the two slices of X (rows 0 ‥ 29695 and 29696 ‥ 59411) zero-padded to 30720 rows and stacked.
  Between the regions: the stacked references re-laid as 400 rows, each centred on its mean and divided by its
  norm. No host operation and no region writes X.
-/
import proofs.«159284_j4690104287245_2_alg».proof.Proof.Pay
import proofs.«159284_j4690104287245_2_alg».proof.Proof.Fold
import proofs.«159284_j4690104287245_2_alg».proof.Proof.Gen.KernelIdeal.Regions
import Idealize.ShloMosaic.Lib.StableHlo.Run
import Idealize.ShloMosaic.Lib.KernelVsHost
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ)

/-- The three argument arrays at their literal types. -/
abbrev argX (c : Dev nD) : Vec Ideal S59412x500 .f32 := m ((c : Thread nD τ).loc main_arg0)
abbrev argWL (c : Dev nD) : Vec Ideal S200x29696 .f32 := m ((c : Thread nD τ).loc main_arg1)
abbrev argWR (c : Dev nD) : Vec Ideal S200x29716 .f32 := m ((c : Thread nD τ).loc main_arg2)

/-! ## Layout operations of the host stretches read at an index (any extents, any element type) -/

section Reads
variable {α : Type}

/-- A matrix padded behind its columns: inside the operand it is the operand, behind it the padding value. -/
theorem pad_cols_apply {n0 n1 N p : Nat} (x : (⟨2, ![n0, n1]⟩ : Shape).Idx → α) {u : Shape} (z : u.Idx → α)
    (hp : (⟨2, ![n0, n1]⟩ : Shape).Pads ![0, 0] ![0, p] ![0, 0] ⟨2, ![n0, N]⟩) (hu : 0 < u.numel) (i : Fin n0) (k : Fin N) :
    pad ⟨2, ![n0, N]⟩ ![0, 0] ![0, p] ![0, 0] x z hp hu (ix2 i k)
      = if h : k.val < n1 then x (ix2 i ⟨k.val, h⟩) else z (Shape.Idx.first hu) := by
  by_cases h : k.val < n1
  · rw [dif_pos h]
    exact pad_apply_of_inside _ _ _ x z hp hu _ (ix2 i (⟨k.val, h⟩ : Fin n1)) (by
      intro a
      match a with
      | ⟨0, _⟩ => show i.val = 0 + i.val * (0 + 1); omega
      | ⟨1, _⟩ => show k.val = 0 + k.val * (0 + 1); omega)
  · rw [dif_neg h]
    exact pad_apply_of_not_inside _ _ _ x z hp hu _ (1 : Fin 2) (by
      intro hin
      have e : (k.val - 0) / (0 + 1) < n1 := hin.2.2
      rw [Nat.sub_zero, Nat.zero_add, Nat.div_one] at e
      exact h e)

/-- A matrix padded below its rows: inside the operand it is the operand, below it the padding value. -/
theorem pad_rows_apply {n0 n1 N p : Nat} (x : (⟨2, ![n0, n1]⟩ : Shape).Idx → α) {u : Shape} (z : u.Idx → α)
    (hp : (⟨2, ![n0, n1]⟩ : Shape).Pads ![0, 0] ![p, 0] ![0, 0] ⟨2, ![N, n1]⟩) (hu : 0 < u.numel) (k : Fin N) (t : Fin n1) :
    pad ⟨2, ![N, n1]⟩ ![0, 0] ![p, 0] ![0, 0] x z hp hu (ix2 k t)
      = if h : k.val < n0 then x (ix2 ⟨k.val, h⟩ t) else z (Shape.Idx.first hu) := by
  by_cases h : k.val < n0
  · rw [dif_pos h]
    exact pad_apply_of_inside _ _ _ x z hp hu _ (ix2 (⟨k.val, h⟩ : Fin n0) t) (by
      intro a
      match a with
      | ⟨0, _⟩ => show k.val = 0 + k.val * (0 + 1); omega
      | ⟨1, _⟩ => show t.val = 0 + t.val * (0 + 1); omega)
  · rw [dif_neg h]
    exact pad_apply_of_not_inside _ _ _ x z hp hu _ (0 : Fin 2) (by
      intro hin
      have e : (k.val - 0) / (0 + 1) < n0 := hin.2.2
      rw [Nat.sub_zero, Nat.zero_add, Nat.div_one] at e
      exact h e)

/-- A matrix given a leading unit axis, read at an index: the matrix at the two trailing coordinates. -/
theorem lead_unit_apply {n1 n2 : Nat} (a : (⟨2, ![n1, n2]⟩ : Shape).Idx → α)
    (hb : (⟨2, ![n1, n2]⟩ : Shape).BroadcastsInDim ⟨3, ![1, n1, n2]⟩ ![1, 2]) (z : Fin 1) (i : Fin n1) (k : Fin n2) :
    broadcastInDim ⟨3, ![1, n1, n2]⟩ ![1, 2] hb a (ix3 z i k) = a (ix2 i k) :=
  broadcastInDim_apply _ hb a _ (ix2 i k) (by
    intro d
    match d with
    | ⟨0, _⟩ =>
      show i.val = if n1 = 1 then 0 else i.val
      have := i.isLt
      split <;> omega
    | ⟨1, _⟩ =>
      show k.val = if n2 = 1 then 0 else k.val
      have := k.isLt
      split <;> omega)

/-- Two matrices, each given a leading unit axis, stacked along it: compartment 0 is the first, compartment 1 the second. -/
theorem stack_two_apply {n1 n2 : Nat} (a b : (⟨2, ![n1, n2]⟩ : Shape).Idx → α)
    (hb : (⟨2, ![n1, n2]⟩ : Shape).BroadcastsInDim ⟨3, ![1, n1, n2]⟩ ![1, 2])
    (hc : Shape.Concatenates [(⟨3, ![1, n1, n2]⟩ : Shape), ⟨3, ![1, n1, n2]⟩] ⟨3, ![2, n1, n2]⟩ 0)
    (cc : Fin 2) (i : Fin n1) (k : Fin n2) :
    concatenate ⟨3, ![2, n1, n2]⟩ 0
        [⟨⟨3, ![1, n1, n2]⟩, broadcastInDim ⟨3, ![1, n1, n2]⟩ ![1, 2] hb a⟩,
         ⟨⟨3, ![1, n1, n2]⟩, broadcastInDim ⟨3, ![1, n1, n2]⟩ ![1, 2] hb b⟩] hc (ix3 cc i k)
      = if cc.val = 0 then a (ix2 i k) else b (ix2 i k) := by
  by_cases h : cc.val = 0
  · rw [if_pos h]
    refine (concatenate_pair_apply_left (s₁ := ⟨3, ![1, n1, n2]⟩) (s₂ := ⟨3, ![1, n1, n2]⟩) (0 : Fin 3)
      (broadcastInDim ⟨3, ![1, n1, n2]⟩ ![1, 2] hb a) (broadcastInDim ⟨3, ![1, n1, n2]⟩ ![1, 2] hb b)
      hc (ix3 cc i k) rfl (ix3 (0 : Fin 1) i k) (by
      intro d
      match d with
      | ⟨0, _⟩ => show (0 : Nat) = cc.val; omega
      | ⟨1, _⟩ => rfl
      | ⟨2, _⟩ => rfl)).trans ?_
    exact lead_unit_apply a hb 0 i k
  · rw [if_neg h]
    have h1 : cc.val = 1 := by have := cc.isLt; omega
    refine (concatenate_pair_apply_right (s₁ := ⟨3, ![1, n1, n2]⟩) (s₂ := ⟨3, ![1, n1, n2]⟩) (0 : Fin 3)
      (broadcastInDim ⟨3, ![1, n1, n2]⟩ ![1, 2] hb a) (broadcastInDim ⟨3, ![1, n1, n2]⟩ ![1, 2] hb b)
      hc (ix3 cc i k) rfl rfl (ix3 (0 : Fin 1) i k) (by
      intro d hd
      match d, hd with
      | ⟨0, _⟩, hd => exact absurd rfl hd
      | ⟨1, _⟩, _ => rfl
      | ⟨2, _⟩, _ => rfl) (by show (0 : Nat) + 1 = cc.val; omega)).trans ?_
    exact lead_unit_apply b hb 0 i k

end Reads

/-! ## What each stretch before the first region leaves, as a term over the launch arguments -/

/-- The padding value: the integer constant 0 converted. -/
abbrev padWord : FVec Ideal S_ .f32 := sitofp .f32 (constantI S_ 32 0#32)

/-- The padding value is 0. -/
theorem padWord_apply (j : S_.Idx) : padWord j = 0 := sitofp_zero

/-- The first weight matrix, padded along the contraction axis. -/
theorem w2_v2 (c : Dev nD) :
    (W2 m c main_v2 : Vec Ideal S200x30720 .f32)
      = pad S200x30720 ![0, 0] ![0, 1024] ![0, 0] (argWL m c) padWord pads_S200x29696_S200x30720_000_010240 h_S_ := by
  show StableHlo.after hostOps0_1 (StableHlo.after hostOps0 (W0 m c)) (Proc.devRef .tc main_v2) = _
  after_results
  rfl

/-- The second weight matrix, padded along the contraction axis. -/
theorem w4_v3 (c : Dev nD) :
    (W4 m c main_v3 : Vec Ideal S200x30720 .f32)
      = pad S200x30720 ![0, 0] ![0, 1004] ![0, 0] (argWR m c) padWord pads_S200x29716_S200x30720_000_010040 h_S_ := by
  show StableHlo.after hostOps0_3 (StableHlo.after hostOps0_2 (StableHlo.after hostOps0_1 (StableHlo.after hostOps0 (W0 m c)))) (Proc.devRef .tc main_v3) = _
  after_results
  rfl

/-- The first slice of X (rows 0 ‥ 29695), padded below. -/
theorem w6_v4 (c : Dev nD) :
    (W6 m c main_v4 : Vec Ideal S30720x500 .f32)
      = pad S30720x500 ![0, 0] ![1024, 0] ![0, 0]
          (extractStridedSlice S29696x500 ![0, 0] (argX m c) slices_S59412x500_S29696x500_0_0) padWord
          pads_S29696x500_S30720x500_010240_000 h_S_ := by
  show StableHlo.after hostOps0_5 (StableHlo.after hostOps0_4 (StableHlo.after hostOps0_3 (StableHlo.after hostOps0_2 (StableHlo.after hostOps0_1 (StableHlo.after hostOps0 (W0 m c)))))) (Proc.devRef .tc main_v4) = _
  after_results
  rfl

/-- The second slice of X (rows 29696 ‥ 59411), padded below. -/
theorem w8_v5 (c : Dev nD) :
    (W8 m c main_v5 : Vec Ideal S30720x500 .f32)
      = pad S30720x500 ![0, 0] ![1004, 0] ![0, 0]
          (extractStridedSlice S29716x500 ![29696, 0] (argX m c) slices_S59412x500_S29716x500_29696_0) padWord
          pads_S29716x500_S30720x500_010040_000 h_S_ := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m c)))))))) (Proc.devRef .tc main_v5) = _
  after_results
  rfl

/-! Each reaches the last stretch unchanged: the stretches in between write other buffers. -/

theorem w8_v2 (c : Dev nD) : W8 m c main_v2 = W2 m c main_v2 := by
  show StableHlo.after hostOps0_7 (W7 m c) (Proc.devRef .tc main_v2) = _
  rw [StableHlo.after_of_writes_sub hostOps0_7 _ hostOps0_7_writes (by decide)]
  show StableHlo.after hostOps0_6 (W6 m c) (Proc.devRef .tc main_v2) = _
  rw [StableHlo.after_of_writes_sub hostOps0_6 _ hostOps0_6_writes (by decide)]
  show StableHlo.after hostOps0_5 (W5 m c) (Proc.devRef .tc main_v2) = _
  rw [StableHlo.after_of_writes_sub hostOps0_5 _ hostOps0_5_writes (by decide)]
  show StableHlo.after hostOps0_4 (W4 m c) (Proc.devRef .tc main_v2) = _
  rw [StableHlo.after_of_writes_sub hostOps0_4 _ hostOps0_4_writes (by decide)]
  show StableHlo.after hostOps0_3 (W3 m c) (Proc.devRef .tc main_v2) = _
  rw [StableHlo.after_of_writes_sub hostOps0_3 _ hostOps0_3_writes (by decide)]
  show StableHlo.after hostOps0_2 (W2 m c) (Proc.devRef .tc main_v2) = _
  rw [StableHlo.after_of_writes_sub hostOps0_2 _ hostOps0_2_writes (by decide)]

theorem w8_v3 (c : Dev nD) : W8 m c main_v3 = W4 m c main_v3 := by
  show StableHlo.after hostOps0_7 (W7 m c) (Proc.devRef .tc main_v3) = _
  rw [StableHlo.after_of_writes_sub hostOps0_7 _ hostOps0_7_writes (by decide)]
  show StableHlo.after hostOps0_6 (W6 m c) (Proc.devRef .tc main_v3) = _
  rw [StableHlo.after_of_writes_sub hostOps0_6 _ hostOps0_6_writes (by decide)]
  show StableHlo.after hostOps0_5 (W5 m c) (Proc.devRef .tc main_v3) = _
  rw [StableHlo.after_of_writes_sub hostOps0_5 _ hostOps0_5_writes (by decide)]
  show StableHlo.after hostOps0_4 (W4 m c) (Proc.devRef .tc main_v3) = _
  rw [StableHlo.after_of_writes_sub hostOps0_4 _ hostOps0_4_writes (by decide)]

theorem w8_v4 (c : Dev nD) : W8 m c main_v4 = W6 m c main_v4 := by
  show StableHlo.after hostOps0_7 (W7 m c) (Proc.devRef .tc main_v4) = _
  rw [StableHlo.after_of_writes_sub hostOps0_7 _ hostOps0_7_writes (by decide)]
  show StableHlo.after hostOps0_6 (W6 m c) (Proc.devRef .tc main_v4) = _
  rw [StableHlo.after_of_writes_sub hostOps0_6 _ hostOps0_6_writes (by decide)]

/-- The stacked weights: the two padded matrices, each given a leading unit axis, stacked along it. -/
theorem w9_v8 (c : Dev nD) :
    (V9 m c main_v8 : Vec Ideal S2x200x30720 .f32)
      = concatenate S2x200x30720 0
          [⟨S1x200x30720, broadcastInDim S1x200x30720 ![1, 2] bcast_S200x30720_S1x200x30720_1_2 (W8 m c main_v2 : Vec Ideal S200x30720 .f32)⟩,
           ⟨S1x200x30720, broadcastInDim S1x200x30720 ![1, 2] bcast_S200x30720_S1x200x30720_1_2 (W8 m c main_v3 : Vec Ideal S200x30720 .f32)⟩]
          concatenates_S1x200x30720_S1x200x30720_S2x200x30720_d0 := by
  show StableHlo.after hostOps0_8 (W8 m c) (Proc.devRef .tc main_v8) = _
  generalize W8 m c = w
  after_results

/-- The stacked locus rows: the two padded slices, each given a leading unit axis, stacked along it. -/
theorem w9_v11 (c : Dev nD) :
    (V9 m c main_v11 : Vec Ideal S2x30720x500 .f32)
      = concatenate S2x30720x500 0
          [⟨S1x30720x500, broadcastInDim S1x30720x500 ![1, 2] bcast_S30720x500_S1x30720x500_1_2 (W8 m c main_v4 : Vec Ideal S30720x500 .f32)⟩,
           ⟨S1x30720x500, broadcastInDim S1x30720x500 ![1, 2] bcast_S30720x500_S1x30720x500_1_2 (W8 m c main_v5 : Vec Ideal S30720x500 .f32)⟩]
          concatenates_S1x30720x500_S1x30720x500_S2x30720x500_d0 := by
  show StableHlo.after hostOps0_8 (W8 m c) (Proc.devRef .tc main_v11) = _
  generalize W8 m c = w
  after_results

/-- The stacked weights the first region is entered with. -/
theorem v8_apply (c : Dev nD) (cc : Fin 2) (i : Fin 200) (k : Fin 30720) :
    (V9 m c main_v8 : Vec Ideal S2x200x30720 .f32) (ix3 cc i k)
      = if cc.val = 0 then (if h : k.val < 29696 then argWL m c (ix2 i ⟨k.val, h⟩) else 0)
        else (if h : k.val < 29716 then argWR m c (ix2 i ⟨k.val, h⟩) else 0) := by
  rw [w9_v8, stack_two_apply, w8_v2, w8_v3, w2_v2, w4_v3, pad_cols_apply, pad_cols_apply, padWord_apply]

/-- The stacked locus rows the first region is entered with. -/
theorem v11_apply (c : Dev nD) (cc : Fin 2) (k : Fin 30720) (t : Fin 500) :
    (V9 m c main_v11 : Vec Ideal S2x30720x500 .f32) (ix3 cc k t)
      = if cc.val = 0 then (if h : k.val < 29696 then argX m c (ix2 ⟨k.val, by omega⟩ t) else 0)
        else (if h : k.val < 29716 then argX m c (ix2 ⟨29696 + k.val, by omega⟩ t) else 0) := by
  rw [w9_v11, stack_two_apply, w8_v4, w6_v4, w8_v5, pad_rows_apply, pad_rows_apply, padWord_apply]
  by_cases hc : cc.val = 0
  · rw [if_pos hc, if_pos hc]
    by_cases h : k.val < 29696
    · rw [dif_pos h, dif_pos h]
      exact slice2_axis0_apply 0 (argX m c) slices_S59412x500_S29696x500_0_0 ⟨k.val, h⟩ t _ (by show k.val = 0 + k.val; omega)
    · rw [dif_neg h, dif_neg h]
  · rw [if_neg hc, if_neg hc]
    by_cases h : k.val < 29716
    · rw [dif_pos h, dif_pos h]
      exact slice2_axis0_apply 29696 (argX m c) slices_S59412x500_S29716x500_29696_0 ⟨k.val, h⟩ t _ rfl
    · rw [dif_neg h, dif_neg h]

/-- Row `i` of the first region's result re-laid as 400 rows: row `i % 200` of compartment `i / 200`. -/
abbrev refRow (c : Dev nD) (i : Fin 400) : Fin 500 → EReal := fun s =>
  (V10 m c main_v12 : Vec Ideal S2x200x500 .f32) (ix3 (⟨i.val / 200, by omega⟩ : Fin 2) (⟨i.val % 200, Nat.mod_lt _ (by norm_num)⟩ : Fin 200) s)

/-! ## The stretch between the regions as functions of the re-laid matrix, each read at an index -/

section Centring

/-- The word a row sum starts from. -/
abbrev zeroWord : FVec Ideal S_ .f32 := constant S_ .f32 0x00000000#32
/-- The word the mean divides by. -/
abbrev meanWord : FVec Ideal S_ .f32 := constant S_ .f32 0x43FA0000#32

/-- The row sums of a 400 × 500 matrix. -/
def rowSum (y : FVec Ideal S400x500 .f32) : FVec Ideal S400 .f32 :=
  Host.reduceAdd y zeroWord reducesTo_S400x500_S400_d1 h_S_

/-- A row's sum is 0 plus the sum of its entries. -/
theorem rowSum_apply (y : FVec Ideal S400x500 .f32) (i : Fin 400) :
    rowSum y (ix1 i) = 0 + ∑ s : Fin 500, y (ix2 i s) := by
  unfold rowSum
  simp only [Host.reduceAdd, Ideal.hostReduceAdd_def]
  rw [Ideal.hostReduceAdd_single reducesTo_S400x500_S400_d1 (by decide)]
  refine congr (congrArg (· + ·) Ideal.ofBits_zero_f32) (Finset.sum_congr rfl fun k _ => ?_)
  exact congrArg y (funext fun a => Fin.ext (by match a with | ⟨0, _⟩ => rfl | ⟨1, _⟩ => rfl))

/-- The row means, as a column. -/
def rowMean (y : FVec Ideal S400x500 .f32) : FVec Ideal S400x1 .f32 :=
  Host.divf (broadcastInDim S400x1 ![0] bcast_S400_S400x1_0 (rowSum y)) (broadcastInDim S400x1 ![] bcast_S_S400x1 meanWord)

/-- A row's mean: its sum divided by the divisor word. -/
theorem rowMean_apply (y : FVec Ideal S400x500 .f32) (i : Fin 400) (z : Fin 1) :
    rowMean y (ix2 i z) = Ideal.div (0 + ∑ s : Fin 500, y (ix2 i s)) w500 := by
  show Ideal.div (broadcastInDim S400x1 ![0] bcast_S400_S400x1_0 (rowSum y) (ix2 i z))
      (broadcastInDim S400x1 ![] bcast_S_S400x1 meanWord (ix2 i z)) = _
  rw [broadcastInDim_apply _ bcast_S400_S400x1_0 (rowSum y) (ix2 i z) (ix1 i) (fun a => match a with
        | ⟨0, _⟩ => by show i.val = if (400 : Nat) = 1 then 0 else i.val; rw [if_neg (by decide)]),
      broadcastInDim_apply _ bcast_S_S400x1 meanWord (ix2 i z) ix0 (fun a => a.elim0), rowSum_apply]
  rfl

/-- Each row less its mean. -/
def centred (y : FVec Ideal S400x500 .f32) : FVec Ideal S400x500 .f32 :=
  subf y (broadcastInDim S400x500 ![0, 1] bcast_S400x1_S400x500_0_1 (rowMean y))

/-- A row of the centred matrix is that row centred on its mean. -/
theorem centred_apply (y : FVec Ideal S400x500 .f32) (i : Fin 400) (t : Fin 500) :
    centred y (ix2 i t) = Cert.Spec.ctr w500 (fun s => y (ix2 i s)) t := by
  show y (ix2 i t) - broadcastInDim S400x500 ![0, 1] bcast_S400x1_S400x500_0_1 (rowMean y) (ix2 i t) = _
  rw [broadcastInDim_apply _ bcast_S400x1_S400x500_0_1 (rowMean y) (ix2 i t) (ix2 i (0 : Fin 1)) (fun a => match a with
        | ⟨0, _⟩ => by show i.val = if (400 : Nat) = 1 then 0 else i.val; rw [if_neg (by decide)]
        | ⟨1, _⟩ => by show (0 : Nat) = if (1 : Nat) = 1 then 0 else t.val; rw [if_pos rfl]),
      rowMean_apply]
  rfl

/-- The rows' norms, as a column: the square root of each row's sum of squares. -/
def rowNorm (d : FVec Ideal S400x500 .f32) : FVec Ideal S400x1 .f32 :=
  Host.sqrt (broadcastInDim S400x1 ![0] bcast_S400_S400x1_0 (rowSum (mulf d d)))

/-- A row's norm. -/
theorem rowNorm_apply (d : FVec Ideal S400x500 .f32) (i : Fin 400) (z : Fin 1) :
    rowNorm d (ix2 i z) = Ideal.sqrt (Cert.Spec.ssq (fun s => d (ix2 i s))) := by
  show Ideal.sqrt (broadcastInDim S400x1 ![0] bcast_S400_S400x1_0 (rowSum (mulf d d)) (ix2 i z)) = _
  rw [broadcastInDim_apply _ bcast_S400_S400x1_0 (rowSum (mulf d d)) (ix2 i z) (ix1 i) (fun a => match a with
        | ⟨0, _⟩ => by show i.val = if (400 : Nat) = 1 then 0 else i.val; rw [if_neg (by decide)]),
      rowSum_apply]
  rfl

/-- Each centred row divided by its norm, narrowed (the narrowing is the identity on the extended reals). -/
def scaled (y : FVec Ideal S400x500 .f32) : FVec Ideal S400x500 .bf16 :=
  truncf .bf16 (Host.divf (centred y) (broadcastInDim S400x500 ![0, 1] bcast_S400x1_S400x500_0_1 (rowNorm (centred y)))) bitsLt_bf16_f32

/-- A row of the scaled matrix: that row centred on its mean and divided by the centred row's norm. -/
theorem scaled_apply (y : FVec Ideal S400x500 .f32) (i : Fin 400) (t : Fin 500) :
    scaled y (ix2 i t)
      = Ideal.div (Cert.Spec.ctr w500 (fun s => y (ix2 i s)) t)
          (Ideal.sqrt (Cert.Spec.ssq (Cert.Spec.ctr w500 (fun s => y (ix2 i s))))) := by
  show Ideal.div (centred y (ix2 i t))
      (broadcastInDim S400x500 ![0, 1] bcast_S400x1_S400x500_0_1 (rowNorm (centred y)) (ix2 i t)) = _
  rw [broadcastInDim_apply _ bcast_S400x1_S400x500_0_1 (rowNorm (centred y)) (ix2 i t) (ix2 i (0 : Fin 1)) (fun a => match a with
        | ⟨0, _⟩ => by show i.val = if (400 : Nat) = 1 then 0 else i.val; rw [if_neg (by decide)]
        | ⟨1, _⟩ => by show (0 : Nat) = if (1 : Nat) = 1 then 0 else t.val; rw [if_pos rfl]),
      rowNorm_apply, centred_apply,
      show (fun s => centred y (ix2 i s)) = Cert.Spec.ctr w500 (fun s => y (ix2 i s)) from funext fun s => centred_apply y i s]

/-- The stacked references re-laid as 400 rows: row i is row i % 200 of compartment i / 200. -/
theorem relaid_apply (v : FVec Ideal S2x200x500 .f32) (i : Fin 400) (s : Fin 500) :
    shapeCast S400x500 v shapeCasts_S2x200x500_S400x500 (ix2 i s)
      = v (ix3 (⟨i.val / 200, by omega⟩ : Fin 2) (⟨i.val % 200, Nat.mod_lt _ (by norm_num)⟩ : Fin 200) s) :=
  shapeCast_apply v _ (ix2 i s) _ (by
    rw [Shape.rowMajor_val_three, Shape.rowMajor_val_two]
    show (i.val / 200 * 200 + i.val % 200) * 500 + s.val = i.val * 500 + s.val
    have := Nat.div_add_mod i.val 200
    omega)

end Centring

/-- The scaled reference rows, as the stretch's term over the first region's result. -/
theorem w11_v26 (c : Dev nD) :
    (V11 m c main_v26 : Vec Ideal S400x500 .bf16)
      = scaled (shapeCast S400x500 (V10 m c main_v12 : Vec Ideal S2x200x500 .f32) shapeCasts_S2x200x500_S400x500) := by
  show StableHlo.after hostOps1 (W10 m c) (Proc.devRef .tc main_v26)
    = scaled (shapeCast S400x500 (W10 m c (Proc.devRef .tc main_v12) : Vec Ideal S2x200x500 .f32) shapeCasts_S2x200x500_S400x500)
  generalize W10 m c = w
  after_results
  rfl

/-- The scaled reference rows the second region is entered with: each row of the first region's result centred on
    its mean and divided by its norm. -/
theorem v26_apply (c : Dev nD) (i : Fin 400) (t : Fin 500) :
    (V11 m c main_v26 : Vec Ideal S400x500 .bf16) (ix2 i t)
      = Ideal.div (Cert.Spec.ctr w500 (refRow m c i) t) (Ideal.sqrt (Cert.Spec.ssq (Cert.Spec.ctr w500 (refRow m c i)))) := by
  rw [w11_v26, scaled_apply,
    show (fun s => shapeCast S400x500 (V10 m c main_v12 : Vec Ideal S2x200x500 .f32) shapeCasts_S2x200x500_S400x500 (ix2 i s))
        = refRow m c i from funext fun s => relaid_apply _ i s]

/-- X reaches the second region as launched. -/
theorem v11_arg0 (c : Dev nD) : V11 m c main_arg0 = m ((c : Thread nD τ).loc main_arg0) := by
  show StableHlo.after hostOps1 (W10 m c) (Proc.devRef .tc main_arg0) = _
  rw [StableHlo.after_of_writes_sub hostOps1 _ hostOps1_writes (by decide)]
  rw [W10_of_ne m c main_arg0 (by decide)]
  show StableHlo.after hostOps0_8 (W8 m c) (Proc.devRef .tc main_arg0) = _
  rw [StableHlo.after_of_writes_sub hostOps0_8 _ hostOps0_8_writes (by decide)]
  show StableHlo.after hostOps0_7 (W7 m c) (Proc.devRef .tc main_arg0) = _
  rw [StableHlo.after_of_writes_sub hostOps0_7 _ hostOps0_7_writes (by decide)]
  show StableHlo.after hostOps0_6 (W6 m c) (Proc.devRef .tc main_arg0) = _
  rw [StableHlo.after_of_writes_sub hostOps0_6 _ hostOps0_6_writes (by decide)]
  show StableHlo.after hostOps0_5 (W5 m c) (Proc.devRef .tc main_arg0) = _
  rw [StableHlo.after_of_writes_sub hostOps0_5 _ hostOps0_5_writes (by decide)]
  show StableHlo.after hostOps0_4 (W4 m c) (Proc.devRef .tc main_arg0) = _
  rw [StableHlo.after_of_writes_sub hostOps0_4 _ hostOps0_4_writes (by decide)]
  show StableHlo.after hostOps0_3 (W3 m c) (Proc.devRef .tc main_arg0) = _
  rw [StableHlo.after_of_writes_sub hostOps0_3 _ hostOps0_3_writes (by decide)]
  show StableHlo.after hostOps0_2 (W2 m c) (Proc.devRef .tc main_arg0) = _
  rw [StableHlo.after_of_writes_sub hostOps0_2 _ hostOps0_2_writes (by decide)]
  show StableHlo.after hostOps0_1 (W1 m c) (Proc.devRef .tc main_arg0) = _
  rw [StableHlo.after_of_writes_sub hostOps0_1 _ hostOps0_1_writes (by decide)]
  show StableHlo.after hostOps0 (W0 m c) (Proc.devRef .tc main_arg0) = _
  rw [StableHlo.after_of_writes_sub hostOps0 _ hostOps0_writes (by decide)]

end Cert.KernelIdeal.Hand

end
-- ==== Proof.SpecLaws.lean ====
/-
  The laws of the specification: the two literal words' values, a contraction of real tables is real, and the two
  arrangements of the correlation agree on real rows when the locus row is not constant.
-/
import proofs.«159284_j4690104287245_2_alg».proof.Proof.Spec
import Mathlib.Data.EReal.Operations
import Mathlib.Data.EReal.Inv
import Mathlib.Analysis.Real.Sqrt
import Mathlib.Algebra.Order.BigOperators.Group.Finset
import Mathlib.Tactic.FieldSimp
import Mathlib.Tactic.Ring

noncomputable section

namespace Cert.Spec

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals one of whose terms is ⊥ is ⊥ (in the extended reals ⊥ + y = ⊥ for every y, ⊤ included). -/
theorem sum_eq_bot {ι : Type*} (s : Finset ι) (f : ι → EReal) {i : ι} (hi : i ∈ s) (h : f i = ⊥) :
    ∑ j ∈ s, f j = ⊥ := by
  classical
  rw [← Finset.add_sum_erase s f hi, h, EReal.bot_add]

/-- A contraction of two real rows, started from zero, is the coercion of the real contraction. -/
theorem contraction_real {n : ℕ} (f g : Fin n → ℝ) :
    ∃ r : ℝ, (0 : EReal) + ∑ k, (f k : EReal) * (g k : EReal) = (r : EReal) :=
  ⟨∑ k, f k * g k, by rw [zero_add, coe_sum]; simp only [EReal.coe_mul]⟩

/-- The word both programs divide a row's sum by denotes the real 500. -/
theorem c500 : Ideal.ofBits .f32 0x43FA0000#32 = ((500 : ℝ) : EReal) := by
  -- sign 0, exponent field 135, fraction field 7995392: (2^23 + 7995392) · 2^(135 − 127 − 23) = 16384000 / 32768 = 500
  simp [Ideal.ofBits, Ideal.ieee, -EReal.coe_mul]; norm_num

/-- The zero word denotes zero. -/
theorem c0 : Ideal.ofBits .f32 0x00000000#32 = (0 : EReal) := by
  -- exponent field 0 and fraction field 0: the subnormal 0 · 2^(−149)
  simp [Ideal.ofBits, Ideal.ieee]

/-- A contraction of real tables is a real number. -/
theorem refsRow_real (X : Fin 59412 → Fin 500 → ℝ) (WL : Fin 200 → Fin 29696 → ℝ) (WR : Fin 200 → Fin 29716 → ℝ)
    (i : Fin 400) (t : Fin 500) :
    ∃ r : ℝ, refsRow (fun a b => (X a b : EReal)) (fun a b => (WL a b : EReal)) (fun a b => (WR a b : EReal)) i t = (r : EReal) := by
  simp only [refsRow]
  split_ifs with h
  · exact contraction_real _ _
  · exact contraction_real _ _

/-- The real row centred on its mean: the mean is the sum times 1/500. -/
def ctrR (x : Fin 500 → ℝ) (t : Fin 500) : ℝ := x t - (∑ s, x s) * (1 / 500)

/-- Centring a real row by the divisor 500 gives a real row. -/
theorem ctr_coe (x : Fin 500 → ℝ) :
    ctr ((500 : ℝ) : EReal) (fun t => (x t : EReal)) = fun t => ((ctrR x t : ℝ) : EReal) := by
  funext t
  simp only [ctr, ctrR]
  rw [zero_add, ← coe_sum, Ideal.div_coe (by norm_num : (500 : ℝ) ≠ 0), ← EReal.coe_mul, ← EReal.coe_sub]

/-- The sum of squares of a real row is a real number. -/
theorem ssq_coe (y : Fin 500 → ℝ) :
    ssq (fun t => (y t : EReal)) = ((∑ s, y s * y s : ℝ) : EReal) := by
  simp only [ssq, zero_add, coe_sum, EReal.coe_mul]

/-- A row centred on its mean sums to zero: Σ (x_t − S/500) = S − 500 · S/500. -/
theorem ctrR_sum (x : Fin 500 → ℝ) : ∑ t, ctrR x t = 0 := by
  simp only [ctrR]
  rw [Finset.sum_sub_distrib, Finset.sum_const, Finset.card_univ, Fintype.card_fin, nsmul_eq_mul]
  push_cast
  ring

/-- A real row that sums to zero and is not the zero row has a positive entry. -/
theorem exists_pos_of_sum_zero (b : Fin 500 → ℝ) (hs : ∑ t, b t = 0) (hq : 0 < ∑ t, b t * b t) :
    ∃ t, 0 < b t := by
  by_contra hcon
  have hle : ∀ t ∈ Finset.univ, b t ≤ 0 := fun t _ => not_lt.1 (fun h => hcon ⟨t, h⟩)
  have hz : ∀ t ∈ Finset.univ, b t = 0 := (Finset.sum_eq_zero_iff_of_nonpos hle).1 hs
  have h0 : ∑ t, b t * b t = 0 := Finset.sum_eq_zero (fun t ht => by rw [hz t ht, mul_zero])
  exact absurd h0 hq.ne'

/-- The two arrangements agree on real rows when the locus row is not constant. -/
theorem kernelOut_eq_refOut (r x : Fin 500 → ℝ)
    (hx : 0 < ssq (ctr ((500 : ℝ) : EReal) (fun t => (x t : EReal)))) :
    kernelOut ((500 : ℝ) : EReal) (fun t => (r t : EReal)) (fun t => (x t : EReal))
      = refOut ((500 : ℝ) : EReal) (fun t => (r t : EReal)) (fun t => (x t : EReal)) := by
  unfold kernelOut refOut
  rw [if_pos hx]
  -- the locus row's sum of squares is a positive real, the reference row's a real that is not negative
  have hB : 0 < ∑ s, ctrR x s * ctrR x s := by
    rw [ctr_coe, ssq_coe] at hx; exact EReal.coe_pos.1 hx
  have hA0 : 0 ≤ ∑ s, ctrR r s * ctrR r s := Finset.sum_nonneg (fun i _ => mul_self_nonneg (ctrR r i))
  have hnB : 0 < √(∑ s, ctrR x s * ctrR x s) := Real.sqrt_pos.2 hB
  have hsqA : Ideal.sqrt ((∑ s, ctrR r s * ctrR r s : ℝ) : EReal) = ((√(∑ s, ctrR r s * ctrR r s) : ℝ) : EReal) := by
    rw [Ideal.sqrt_coe, if_neg (not_lt.2 hA0)]
  have hsqB : Ideal.sqrt ((∑ s, ctrR x s * ctrR x s : ℝ) : EReal) = ((√(∑ s, ctrR x s * ctrR x s) : ℝ) : EReal) := by
    rw [Ideal.sqrt_coe, if_neg (not_lt.2 hB.le)]
  have hrsB : Ideal.rsqrt ((∑ s, ctrR x s * ctrR x s : ℝ) : EReal) = (((√(∑ s, ctrR x s * ctrR x s))⁻¹ : ℝ) : EReal) := by
    rw [Ideal.rsqrt_coe, if_neg (not_lt.2 hB.le), if_neg hB.ne']
  simp only [ctr_coe, ssq_coe, hsqA, hsqB, hrsB]
  by_cases hnA : √(∑ s, ctrR r s * ctrR r s) = 0
  · -- a constant reference row: its centred row is zero, and both sides are the junk value of 0/0
    have hsA : ∑ s, ctrR r s * ctrR r s = 0 := (Real.sqrt_eq_zero hA0).1 hnA
    have ha0 : ∀ t, ctrR r t = 0 := fun t =>
      mul_self_eq_zero.1
        ((Finset.sum_eq_zero_iff_of_nonneg (fun i _ => mul_self_nonneg (ctrR r i))).1 hsA t (Finset.mem_univ t))
    obtain ⟨t₁, ht₁⟩ := exists_pos_of_sum_zero (ctrR x) (ctrR_sum x) hB
    have hd : Ideal.div (0 : EReal) 0 = ⊥ := by simp [Ideal.div]
    simp only [ha0, hsA, Real.sqrt_zero, EReal.coe_zero, zero_mul, Finset.sum_const_zero, add_zero, hd, zero_add]
    refine sum_eq_bot Finset.univ _ (Finset.mem_univ t₁) ?_
    rw [← EReal.coe_mul]
    exact EReal.bot_mul_coe_of_pos (mul_pos ht₁ (inv_pos.2 hnB))
  · -- a reference row of positive norm: both sides are real, and the identity is one of the reals
    have hL : ∀ t, Ideal.div ((ctrR r t : ℝ) : EReal) ((√(∑ s, ctrR r s * ctrR r s) : ℝ) : EReal)
          * (((ctrR x t : ℝ) : EReal) * (((√(∑ s, ctrR x s * ctrR x s))⁻¹ : ℝ) : EReal))
        = ((ctrR r t * (1 / √(∑ s, ctrR r s * ctrR r s)) * (ctrR x t * (√(∑ s, ctrR x s * ctrR x s))⁻¹) : ℝ) : EReal) :=
      fun t => by rw [Ideal.div_coe hnA, ← EReal.coe_mul, ← EReal.coe_mul, ← EReal.coe_mul]
    simp only [hL]
    rw [← EReal.coe_mul (√(∑ s, ctrR r s * ctrR r s)), Ideal.div_coe (mul_ne_zero hnA hnB.ne')]
    simp only [← EReal.coe_mul, ← coe_sum, zero_add]
    congr 1
    rw [Finset.sum_mul]
    refine Finset.sum_congr rfl (fun t _ => ?_)
    field_simp

end Cert.Spec

end
-- ==== Proof.PreFacts.lean ====
/-
  What the precondition says of the three argument arrays at the ideal instance: every entry is a real number (its
  absolute value is below +infinity), and no locus row of X is constant (its centred sum of squares is positive) —
  the domain on which the reference's quotient by the two norms is defined.
-/
import proofs.«159284_j4690104287245_2_alg».proof.Pre_finite_inputs
import proofs.«159284_j4690104287245_2_alg».proof.Proof.Spec
import Idealize.ShloMosaic.Lib.ValueIdx
import Idealize.ShloMosaic.Lib.ReduceAll
import Idealize.ShloMosaic.Lib.StableHlo.Predicate
import Idealize.ShloMosaic.PureOps.Ideal.Laws

noncomputable section

namespace Cert.PreFacts

open Idealize.ShloMosaic Idealize.ShloMosaic.ValueIdx Cert.Pre_finite_inputs

/-- The shape of a scalar has one index. -/
instance : Subsingleton S_.Idx := ⟨fun a b => funext fun d => d.elim0⟩

open scoped BigOperators

/-- The word of +infinity denotes the top element. -/
theorem ofBits_inf : Ideal.ofBits .f32 0x7F800000#32 = (⊤ : EReal) := by simp [Ideal.ofBits, Ideal.ieee]

/-- An extended real whose absolute value is below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The ordered "less than" comparison answers 1 exactly when the order says so. -/
theorem cmp_olt_eq_one {x y : EReal} : Ideal.cmp .olt x y = 1#1 ↔ x < y := by
  unfold Ideal.cmp
  rw [StableHlo.Predicate.ofBool_eq_one_iff, decide_eq_true_iff]

/-- The ordered "greater than" comparison answers 1 exactly when the order says so. -/
theorem cmp_ogt_eq_one {x y : EReal} : Ideal.cmp .ogt x y = 1#1 ↔ y < x := by
  unfold Ideal.cmp
  rw [StableHlo.Predicate.ofBool_eq_one_iff, decide_eq_true_iff]

/-- One element of the test |A| < +infinity being 1 says that element of A is a real number. -/
theorem entry_real {s : Shape} (A : FVec Ideal s .f32) (hb : S_.BroadcastsInDim s ![]) (i : s.Idx)
    (h : cmpf .olt (Host.absf A) (broadcastInDim s ![] hb (constant S_ .f32 0x7F800000#32)) i = 1#1) :
    ∃ r : ℝ, A i = (r : EReal) := by
  have h' : Ideal.cmp .olt (max (A i) (-(A i)))
      (broadcastInDim s ![] hb (constant (F := Ideal) S_ .f32 0x7F800000#32) i) = 1#1 := h
  rw [StableHlo.Predicate.bcast_scalar hb (by decide), constant_apply, ofBits_inf, cmp_olt_eq_one] at h'
  exact real_of_abs_lt_top _ h'

/-- The sum along axis 1 from the zero word, at row j: zero plus the sum of the row's entries. -/
theorem rowSum_apply (Y : FVec Ideal S59412x500 .f32) (h : S59412x500.ReducesTo [1] S59412) (hu : 0 < S_.numel)
    (j : Fin 59412) :
    Host.reduceAdd Y (constant S_ .f32 0x00000000#32) h hu (ix1 j) = 0 + ∑ k : Fin 500, Y (ix2 j k) := by
  simp only [Host.reduceAdd, Ideal.hostReduceAdd_def]
  rw [Ideal.hostReduceAdd_single h (by decide), constant_apply, Ideal.ofBits_zero_f32]
  refine congrArg (_ + ·) (Finset.sum_congr rfl fun k _ => ?_)
  exact congrArg Y (funext fun a => Fin.ext (by match a with | ⟨0, _⟩ => rfl | ⟨1, _⟩ => rfl))

/-- A vector kept as a column, divided by a broadcast scalar and broadcast along the rows, read at (j, k): the vector's
    entry j divided by the scalar. -/
theorem mean_apply (v : FVec Ideal S59412 .f32) (c : FVec Ideal S_ .f32)
    (h1 : S59412.BroadcastsInDim S59412x1 ![0]) (h2 : S_.BroadcastsInDim S59412x1 ![])
    (h3 : S59412x1.BroadcastsInDim S59412x500 ![0, 1]) (j : Fin 59412) (k : Fin 500) :
    broadcastInDim S59412x500 ![0, 1] h3
        (Host.divf (broadcastInDim S59412x1 ![0] h1 v) (broadcastInDim S59412x1 ![] h2 c)) (ix2 j k)
      = Ideal.div (v (ix1 j)) (c ix0) := by
  have e2 : (ix2 j k : S59412x500.Idx) = StableHlo.Predicate.ij j k := by
    funext a; match a with | ⟨0, _⟩ => rfl | ⟨1, _⟩ => rfl
  have e1 : (Shape.Idx.ofFin j : S59412.Idx) = ix1 j := by
    funext a; match a with | ⟨0, _⟩ => rfl
  rw [e2, StableHlo.Predicate.bcast_of_col h3]
  show Ideal.div (broadcastInDim S59412x1 ![0] h1 v (StableHlo.Predicate.ixP j))
      (broadcastInDim S59412x1 ![] h2 c (StableHlo.Predicate.ixP j)) = _
  rw [StableHlo.Predicate.bcast_col1 h1, StableHlo.Predicate.bcast_scalar h2 (by decide), e1]
  exact congrArg (fun i => Ideal.div (v (ix1 j)) (c i)) (eq_ix0 _)

/-- One element of the row test being 1 says that row's centred sum of squares is positive. -/
theorem row_pos (X : FVec Ideal S59412x500 .f32) (hr : S59412x500.ReducesTo [1] S59412) (hu : 0 < S_.numel)
    (h1 : S59412.BroadcastsInDim S59412x1 ![0]) (h2 : S_.BroadcastsInDim S59412x1 ![])
    (h3 : S59412x1.BroadcastsInDim S59412x500 ![0, 1]) (hb : S_.BroadcastsInDim S59412 ![]) (j : Fin 59412)
    (h : cmpf .ogt
        (Host.reduceAdd
          (mulf
            (subf X (broadcastInDim S59412x500 ![0, 1] h3
              (Host.divf (broadcastInDim S59412x1 ![0] h1 (Host.reduceAdd X (constant S_ .f32 0x00000000#32) hr hu))
                (broadcastInDim S59412x1 ![] h2 (constant S_ .f32 0x43FA0000#32)))))
            (subf X (broadcastInDim S59412x500 ![0, 1] h3
              (Host.divf (broadcastInDim S59412x1 ![0] h1 (Host.reduceAdd X (constant S_ .f32 0x00000000#32) hr hu))
                (broadcastInDim S59412x1 ![] h2 (constant S_ .f32 0x43FA0000#32))))))
          (constant S_ .f32 0x00000000#32) hr hu)
        (broadcastInDim S59412 ![] hb (constant S_ .f32 0x00000000#32)) (ix1 j) = 1#1) :
    0 < Cert.Spec.ssq (Cert.Spec.ctr (Ideal.ofBits .f32 0x43FA0000#32) (fun t => X (ix2 j t))) := by
  rw [cmpf_apply] at h
  have h' := cmp_ogt_eq_one.1 h
  rw [StableHlo.Predicate.bcast_scalar hb (by decide), constant_apply, Ideal.ofBits_zero_f32, rowSum_apply] at h'
  unfold Cert.Spec.ssq Cert.Spec.ctr
  refine lt_of_lt_of_eq h' (congrArg (_ + ·) (Finset.sum_congr rfl fun k _ => ?_))
  rw [mulf_apply, subf_apply, mean_apply, rowSum_apply, constant_apply]

/-- The precondition, all ones, unfolded: the three arrays hold real numbers and every locus row's centred sum of
    squares is positive. -/
theorem of_pre [Cert.Pre_finite_inputs.Facts]
    (X : FVec Ideal S59412x500 .f32) (WL : FVec Ideal S200x29696 .f32) (WR : FVec Ideal S200x29716 .f32)
    (h : Cert.Pre_finite_inputs.fn (F := Ideal) X WL WR = fun _ => 1#1) :
    (∀ (a : Fin 59412) (b : Fin 500), ∃ r : ℝ, X (ix2 a b) = (r : EReal))
    ∧ (∀ (a : Fin 200) (b : Fin 29696), ∃ r : ℝ, WL (ix2 a b) = (r : EReal))
    ∧ (∀ (a : Fin 200) (b : Fin 29716), ∃ r : ℝ, WR (ix2 a b) = (r : EReal))
    ∧ (∀ j : Fin 59412, 0 < Cert.Spec.ssq (Cert.Spec.ctr (Ideal.ofBits .f32 0x43FA0000#32) (fun t => X (ix2 j t)))) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun a b => entry_real X _ _ (Host.reduce_andi_all _ _ _ _ _ h1 (ix2 a b)),
    fun a b => entry_real WL _ _ (Host.reduce_andi_all _ _ _ _ _ h2 (ix2 a b)),
    fun a b => entry_real WR _ _ (Host.reduce_andi_all _ _ _ _ _ h3 (ix2 a b)),
    fun j => row_pos X _ _ _ _ _ _ j (Host.reduce_andi_all _ _ _ _ _ h4 (ix1 j))⟩

end Cert.PreFacts

end
-- ==== Proof.Bridge.lean ====
/-
  The kernel's result, entry by entry, is the specification's kernel arrangement of the argument tables; and under
  the precondition (every entry a real number, no locus row of X constant) that arrangement is the reference's.
  The first region's result row i is the contraction of weight row i against its slice of X: the padded indices
  contribute products of two zeros. The second region contracts the scaled reference rows the stretch between the
  regions makes of them against the centred, scaled locus rows.
-/
import proofs.«159284_j4690104287245_2_alg».proof.Proof.Value0
import proofs.«159284_j4690104287245_2_alg».proof.Proof.Value1
import proofs.«159284_j4690104287245_2_alg».proof.Proof.Host
import proofs.«159284_j4690104287245_2_alg».proof.Proof.LibSums
import proofs.«159284_j4690104287245_2_alg».proof.Proof.SpecLaws
import proofs.«159284_j4690104287245_2_alg».proof.Proof.PreFacts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ)

/-- The three argument arrays as curried tables. -/
abbrev tX (c : Dev nD) : Fin 59412 → Fin 500 → EReal := fun a b => argX m c (ix2 a b)
abbrev tWL (c : Dev nD) : Fin 200 → Fin 29696 → EReal := fun a b => argWL m c (ix2 a b)
abbrev tWR (c : Dev nD) : Fin 200 → Fin 29716 → EReal := fun a b => argWR m c (ix2 a b)

/-- A padded contraction: the indices from `n` on contribute products of two zeros. -/
theorem padded_sum {n N : ℕ} (h : n ≤ N) (f g : Fin n → EReal) :
    (0 : EReal) + ∑ k : Fin N, (if hk : k.val < n then f ⟨k.val, hk⟩ else 0) * (if hk : k.val < n then g ⟨k.val, hk⟩ else 0)
      = 0 + ∑ k : Fin n, f k * g k := by
  rw [← Cert.LibSums.sum_dite_lt h (fun k => f k * g k)]
  congr 1
  refine Finset.sum_congr rfl fun k _ => ?_
  by_cases hk : k.val < n
  · rw [dif_pos hk, dif_pos hk, dif_pos hk]
  · rw [dif_neg hk, dif_neg hk, dif_neg hk, mul_zero]

/-- The first region's result, entry (cc, ii, s): the contraction of weight row ii of compartment cc against its
    slice of X — the padded contraction indices contribute products of two zeros. -/
theorem res0_entry (c : Dev nD) (cc : Fin 2) (ii : Fin 200) (s : Fin 500) :
    res0 (V9 m) c (ix3 cc ii s)
      = if cc.val = 0 then 0 + ∑ k : Fin 29696, argWL m c (ix2 ii k) * argX m c (ix2 ⟨k.val, by omega⟩ s)
        else 0 + ∑ k : Fin 29716, argWR m c (ix2 ii k) * argX m c (ix2 ⟨29696 + k.val, by omega⟩ s) := by
  rw [region0_value]
  have hw : ∀ k, wst (V9 m) c (ix3 cc ii k) = _ := fun k => v8_apply m c cc ii k
  have hxx : ∀ k, xst (V9 m) c (ix3 cc k s) = _ := fun k => v11_apply m c cc k s
  simp only [hw, hxx]
  by_cases h : cc.val = 0
  · simp only [h, if_true]
    exact padded_sum (by norm_num : 29696 ≤ 30720) (fun k => argWL m c (ix2 ii k)) (fun k => argX m c (ix2 ⟨k.val, by omega⟩ s))
  · simp only [h, if_false]
    exact padded_sum (by norm_num : 29716 ≤ 30720) (fun k => argWR m c (ix2 ii k)) (fun k => argX m c (ix2 ⟨29696 + k.val, by omega⟩ s))

/-- The first region's result row is the specification's reference row. -/
theorem refRow_eq (c : Dev nD) (i : Fin 400) (s : Fin 500) :
    refRow m c i s = Cert.Spec.refsRow (tX m c) (tWL m c) (tWR m c) i s := by
  have h1 : refRow m c i s = res0 (V9 m) c (ix3 (⟨i.val / 200, by omega⟩ : Fin 2) (⟨i.val % 200, Nat.mod_lt _ (by norm_num)⟩ : Fin 200) s) :=
    congrFun (W10_arr m c 2) _
  rw [h1, res0_entry]
  unfold Cert.Spec.refsRow
  by_cases hi : i.val < 200
  · have hcc : i.val / 200 = 0 := Nat.div_eq_of_lt hi
    have e2 : (⟨i.val % 200, Nat.mod_lt _ (by norm_num)⟩ : Fin 200) = ⟨i.val, hi⟩ := Fin.ext (Nat.mod_eq_of_lt hi)
    rw [dif_pos hi, if_pos (show ((⟨i.val / 200, by omega⟩ : Fin 2)).val = 0 from hcc), e2]
  · have hcc : ¬ i.val / 200 = 0 := by omega
    have e2 : (⟨i.val % 200, Nat.mod_lt _ (by norm_num)⟩ : Fin 200) = ⟨i.val - 200, by omega⟩ := Fin.ext (by show i.val % 200 = i.val - 200; omega)
    rw [dif_neg hi, if_neg (show ¬ ((⟨i.val / 200, by omega⟩ : Fin 2)).val = 0 from hcc), e2]

/-- THE KERNEL'S VALUE: entry (i, j) of what the second region leaves is the kernel arrangement. -/
theorem kernel_value (c : Dev nD) (i : Fin 400) (j : Fin 59412) :
    res1 (V11 m) c (ix2 i j)
      = Cert.Spec.kernelOut w500 (Cert.Spec.refsRow (tX m c) (tWL m c) (tWR m c) i) (tX m c j) := by
  rw [region1_value, kernelOut_eq]
  have hr : refRow m c i = Cert.Spec.refsRow (tX m c) (tWL m c) (tWR m c) i := funext (refRow_eq m c i)
  have hx : (fun s => xs (V11 m) c (ix2 j s)) = tX m c j := funext fun s => congrFun (v11_arg0 m c) (ix2 j s)
  have ha : ∀ t, acs (V11 m) c (ix2 i t)
      = Ideal.div (Cert.Spec.ctr w500 (refRow m c i) t) (Ideal.sqrt (Cert.Spec.ssq (Cert.Spec.ctr w500 (refRow m c i)))) :=
    fun t => v26_apply m c i t
  rw [hx]
  simp only [ha, hr]

/-- Under the precondition the kernel arrangement is the reference arrangement. -/
theorem kernel_eq_ref [Cert.Pre_finite_inputs.Facts] (c : Dev nD)
    (hpre : Cert.Pre_finite_inputs.fn (F := Ideal) (argX m c) (argWL m c) (argWR m c) = fun _ => 1#1)
    (i : Fin 400) (j : Fin 59412) :
    Cert.Spec.kernelOut w500 (Cert.Spec.refsRow (tX m c) (tWL m c) (tWR m c) i) (tX m c j)
      = Cert.Spec.refOut w500 (Cert.Spec.refsRow (tX m c) (tWL m c) (tWR m c) i) (tX m c j) := by
  obtain ⟨hX, hWL, hWR, hpos⟩ := Cert.PreFacts.of_pre (argX m c) (argWL m c) (argWR m c) hpre
  choose X' hX' using hX
  choose WL' hWL' using hWL
  choose WR' hWR' using hWR
  have eX : tX m c = fun a b => ((X' a b : ℝ) : EReal) := funext fun a => funext fun b => hX' a b
  have eWL : tWL m c = fun a b => ((WL' a b : ℝ) : EReal) := funext fun a => funext fun b => hWL' a b
  have eWR : tWR m c = fun a b => ((WR' a b : ℝ) : EReal) := funext fun a => funext fun b => hWR' a b
  have hrow := fun t => Cert.Spec.refsRow_real X' WL' WR' i t
  choose r hr using hrow
  have er : Cert.Spec.refsRow (tX m c) (tWL m c) (tWR m c) i = fun t => ((r t : ℝ) : EReal) := by
    rw [eX, eWL, eWR]; exact funext hr
  have ex : tX m c j = fun t => ((X' j t : ℝ) : EReal) := by rw [eX]
  have hp := hpos j
  rw [show (fun t => argX m c (ix2 j t)) = tX m c j from rfl, ex] at hp
  rw [er, ex, show w500 = ((500 : ℝ) : EReal) from Cert.Spec.c500]
  rw [show (Ideal.ofBits .f32 0x43FA0000#32 : EReal) = ((500 : ℝ) : EReal) from Cert.Spec.c500] at hp
  exact Cert.Spec.kernelOut_eq_refOut r (X' j) hp

/-- The common result: the reference arrangement, as one array over the result's index set. -/
def outTab (c : Dev nD) : Vec Ideal S400x59412 .f32 := fun idx =>
  Cert.Spec.refOut w500 (Cert.Spec.refsRow (tX m c) (tWL m c) (tWR m c) (idx 0)) (tX m c (idx 1))

theorem outTab_apply (c : Dev nD) (i : Fin 400) (j : Fin 59412) :
    outTab m c (ix2 i j) = Cert.Spec.refOut w500 (Cert.Spec.refsRow (tX m c) (tWL m c) (tWR m c) i) (tX m c j) := rfl

/-- Under the precondition, what the second region leaves in the result array is the common result. -/
theorem final_eq [Cert.Pre_finite_inputs.Facts] (c : Dev nD)
    (hpre : Cert.Pre_finite_inputs.fn (F := Ideal) (argX m c) (argWL m c) (argWR m c) = fun _ => 1#1) :
    res1 (V11 m) c = outTab m c := by
  funext idx
  obtain ⟨i, j, rfl⟩ : ∃ (i : Fin 400) (j : Fin 59412), idx = ix2 i j := ⟨idx 0, idx 1, eq_ix2 idx⟩
  rw [kernel_value, kernel_eq_ref m c hpre, outTab_apply]

end Cert.KernelIdeal.Hand

end
-- ==== Proof.RefValue.lean ====
/-
  The reference's result, read at an index. Row i of the 400 reference rows and locus row j of X give entry (i, j):
  the centred reference row contracted against the centred locus row, divided by the product of the two centred rows'
  norms. The reference row is the concatenation's: for i < 200 the left compartment's weight row i against locus rows
  0 ‥ 29695 of X (the slice that starts at row 0), otherwise the right compartment's weight row i - 200 against locus
  rows 29696 ‥ 59411 (the slice that starts at row 29696; both starts lie inside X, so the clamp leaves them). Each
  stage of the program is read at its index from the stage before it; the sums the program starts from the zero word
  are the specification's sums with their leading zero, and a contraction's sum gains the leading zero by 0 + a = a.
-/
import proofs.«159284_j4690104287245_2_alg».proof.Proof.RefRead
import proofs.«159284_j4690104287245_2_alg».proof.Proof.Spec
import Idealize.ShloMosaic.Lib.DynamicIndex

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.TcCoe Idealize.SL.Sem

/-- The first slice of X starts at row 0: entry (k, t) of it is X's. -/
theorem v0_apply (x0 : (⟨S59412x500, .f32⟩ : BufTy).Contents (Elt Ideal)) (k : Fin 29696) (t : Fin 500) :
    val_main_v0 (F := Ideal) x0 (ix2 k t) = x0 (ix2 (⟨k.val, by omega⟩ : Fin 59412) t) := by
  unfold val_main_v0
  rw [Host.dynamicSlice_eq_extractStridedSlice S29696x500 x0 _ (fun _ => 0) _ sliceFits_S59412x500_S29696x500
    (fun a => by match a with | ⟨0, _⟩ => rfl | ⟨1, _⟩ => rfl)]
  exact extractStridedSlice_apply _ x0 _ _ _ (fun a => by
    match a with
    | ⟨0, _⟩ => exact (Nat.zero_add _).symm
    | ⟨1, _⟩ => exact (Nat.zero_add _).symm)

/-- The second slice's start (29696, 0) leaves its 29716 rows inside X's 59412. -/
theorem slices_second : S59412x500.Slices (![29696, 0] : Fin 2 → Nat) S29716x500 := by decide

/-- The second slice of X starts at row 29696: entry (k, t) of it is X's at row 29696 + k. -/
theorem v2_apply (x0 : (⟨S59412x500, .f32⟩ : BufTy).Contents (Elt Ideal)) (k : Fin 29716) (t : Fin 500) :
    val_main_v2 (F := Ideal) x0 (ix2 k t) = x0 (ix2 (⟨29696 + k.val, by omega⟩ : Fin 59412) t) := by
  unfold val_main_v2
  rw [Host.dynamicSlice_eq_extractStridedSlice S29716x500 x0 _ (![29696, 0] : Fin 2 → Nat) _ slices_second
    (fun a => by match a with | ⟨0, _⟩ => rfl | ⟨1, _⟩ => rfl)]
  exact extractStridedSlice_apply _ x0 _ _ _ (fun a => by
    match a with
    | ⟨0, _⟩ => rfl
    | ⟨1, _⟩ => exact (Nat.zero_add _).symm)

/-- A row of the concatenation below 200 is the left compartment's row. -/
theorem v4_left (x0 : (⟨S59412x500, .f32⟩ : BufTy).Contents (Elt Ideal)) (x1 : (⟨S200x29696, .f32⟩ : BufTy).Contents (Elt Ideal)) (x2 : (⟨S200x29716, .f32⟩ : BufTy).Contents (Elt Ideal)) (i : Fin 400) (h : i.val < 200) (t : Fin 500) :
    val_main_v4 (F := Ideal) x0 x1 x2 (ix2 i t) = val_main_v1 (F := Ideal) x0 x1 (ix2 (⟨i.val, h⟩ : Fin 200) t) := by
  unfold val_main_v4
  exact concatenate_pair_apply_left (0 : Fin S400x500.rank) _ _ concatenates_S200x500_S200x500_S400x500_d0 (ix2 i t) rfl
    (ix2 (⟨i.val, h⟩ : Fin 200) t) (fun b => by match b with | ⟨0, _⟩ => rfl | ⟨1, _⟩ => rfl)

/-- A row of the concatenation from 200 on is the right compartment's row, 200 less. -/
theorem v4_right (x0 : (⟨S59412x500, .f32⟩ : BufTy).Contents (Elt Ideal)) (x1 : (⟨S200x29696, .f32⟩ : BufTy).Contents (Elt Ideal)) (x2 : (⟨S200x29716, .f32⟩ : BufTy).Contents (Elt Ideal)) (i : Fin 400) (h : ¬ i.val < 200) (t : Fin 500) :
    val_main_v4 (F := Ideal) x0 x1 x2 (ix2 i t) = val_main_v3 (F := Ideal) x0 x2 (ix2 (⟨i.val - 200, by omega⟩ : Fin 200) t) := by
  unfold val_main_v4
  exact concatenate_pair_apply_right (0 : Fin S400x500.rank) _ _ concatenates_S200x500_S200x500_S400x500_d0 (ix2 i t) rfl rfl
    (ix2 (⟨i.val - 200, by omega⟩ : Fin 200) t)
    (fun b hb => by match b, hb with | ⟨0, _⟩, hb => exact absurd rfl hb | ⟨1, _⟩, _ => rfl)
    (by show i.val - 200 + 200 = i.val; omega)

/-- The concatenated reference rows are the specification's. -/
theorem v4_apply (x0 : (⟨S59412x500, .f32⟩ : BufTy).Contents (Elt Ideal)) (x1 : (⟨S200x29696, .f32⟩ : BufTy).Contents (Elt Ideal)) (x2 : (⟨S200x29716, .f32⟩ : BufTy).Contents (Elt Ideal)) (i : Fin 400) (t : Fin 500) :
    val_main_v4 (F := Ideal) x0 x1 x2 (ix2 i t) = Cert.Spec.refsRow (fun a b => x0 (ix2 a b)) (fun a b => x1 (ix2 a b)) (fun a b => x2 (ix2 a b)) i t := by
  unfold Cert.Spec.refsRow
  by_cases h : i.val < 200
  · rw [dif_pos h, v4_left x0 x1 x2 i h t, val_main_v1_apply, zero_add]
    refine Finset.sum_congr rfl fun k _ => ?_
    rw [show lidx_main_v1 (ix2 (⟨i.val, h⟩ : Fin 200) t) k = ix2 (⟨i.val, h⟩ : Fin 200) k from funext fun a => Fin.ext (by match a with | ⟨0, _⟩ => rfl | ⟨1, _⟩ => rfl),
      show ridx_main_v1 (ix2 (⟨i.val, h⟩ : Fin 200) t) k = ix2 k t from funext fun a => Fin.ext (by match a with | ⟨0, _⟩ => rfl | ⟨1, _⟩ => rfl), v0_apply]
  · rw [dif_neg h, v4_right x0 x1 x2 i h t, val_main_v3_apply, zero_add]
    refine Finset.sum_congr rfl fun k _ => ?_
    rw [show lidx_main_v3 (ix2 (⟨i.val - 200, by omega⟩ : Fin 200) t) k = ix2 (⟨i.val - 200, by omega⟩ : Fin 200) k from funext fun a => Fin.ext (by match a with | ⟨0, _⟩ => rfl | ⟨1, _⟩ => rfl),
      show ridx_main_v3 (ix2 (⟨i.val - 200, by omega⟩ : Fin 200) t) k = ix2 k t from funext fun a => Fin.ext (by match a with | ⟨0, _⟩ => rfl | ⟨1, _⟩ => rfl), v2_apply]

/-- The centred reference row. -/
theorem v10_apply (x0 : (⟨S59412x500, .f32⟩ : BufTy).Contents (Elt Ideal)) (x1 : (⟨S200x29696, .f32⟩ : BufTy).Contents (Elt Ideal)) (x2 : (⟨S200x29716, .f32⟩ : BufTy).Contents (Elt Ideal)) (i : Fin 400) (t : Fin 500) :
    val_main_v10 (F := Ideal) x0 x1 x2 (ix2 i t) = Cert.Spec.ctr (Ideal.ofBits .f32 0x43FA0000#32) (Cert.Spec.refsRow (fun a b => x0 (ix2 a b)) (fun a b => x1 (ix2 a b)) (fun a b => x2 (ix2 a b)) i) t := by
  rw [val_main_v10_apply, val_main_v9_apply, val_main_v8_apply, val_main_v6_apply, val_main_v5_apply, val_main_v7_apply,
    val_main_cst_3_apply, val_main_cst_apply]
  have e (k : Fin 500) : idx_main_v5 (idx_main_v6 (idx_main_v9 (ix2 i t))) k = ix2 i k := funext fun a => Fin.ext (by match a with | ⟨0, _⟩ => rfl | ⟨1, _⟩ => rfl)
  simp only [e, v4_apply, Ideal.ofBits_def, Ideal.ofBits_zero_f32, Ideal.subf_def, Ideal.hostDivf_def, Cert.Spec.ctr]

/-- The centred locus row. -/
theorem v16_apply (x0 : (⟨S59412x500, .f32⟩ : BufTy).Contents (Elt Ideal)) (j : Fin 59412) (t : Fin 500) :
    val_main_v16 (F := Ideal) x0 (ix2 j t) = Cert.Spec.ctr (Ideal.ofBits .f32 0x43FA0000#32) (fun s => x0 (ix2 j s)) t := by
  rw [val_main_v16_apply, val_main_v15_apply, val_main_v14_apply, val_main_v12_apply, val_main_v11_apply, val_main_v13_apply,
    val_main_cst_5_apply, val_main_cst_4_apply]
  have e (k : Fin 500) : idx_main_v11 (idx_main_v12 (idx_main_v15 (ix2 j t))) k = ix2 j k := funext fun a => Fin.ext (by match a with | ⟨0, _⟩ => rfl | ⟨1, _⟩ => rfl)
  simp only [e, Ideal.ofBits_def, Ideal.ofBits_zero_f32, Ideal.subf_def, Ideal.hostDivf_def, Cert.Spec.ctr]

/-- The contraction of the centred rows. -/
theorem v18_apply (x0 : (⟨S59412x500, .f32⟩ : BufTy).Contents (Elt Ideal)) (x1 : (⟨S200x29696, .f32⟩ : BufTy).Contents (Elt Ideal)) (x2 : (⟨S200x29716, .f32⟩ : BufTy).Contents (Elt Ideal)) (i : Fin 400) (j : Fin 59412) :
    val_main_v18 (F := Ideal) x0 x1 x2 (ix2 i j)
      = ∑ t : Fin 500, Cert.Spec.ctr (Ideal.ofBits .f32 0x43FA0000#32) (Cert.Spec.refsRow (fun a b => x0 (ix2 a b)) (fun a b => x1 (ix2 a b)) (fun a b => x2 (ix2 a b)) i) t * Cert.Spec.ctr (Ideal.ofBits .f32 0x43FA0000#32) (fun s => x0 (ix2 j s)) t := by
  rw [val_main_v18_apply]
  refine Finset.sum_congr rfl fun k _ => ?_
  rw [show lidx_main_v18 (ix2 i j) k = ix2 i k from funext fun a => Fin.ext (by match a with | ⟨0, _⟩ => rfl | ⟨1, _⟩ => rfl), show ridx_main_v18 (ix2 i j) k = ix2 k j from funext fun a => Fin.ext (by match a with | ⟨0, _⟩ => rfl | ⟨1, _⟩ => rfl),
    val_main_v17_apply, show idx_main_v17 (ix2 k j) = ix2 j k from funext fun a => Fin.ext (by match a with | ⟨0, _⟩ => rfl | ⟨1, _⟩ => rfl), v10_apply, v16_apply]

/-- The reference row's norm. -/
theorem v23_apply (x0 : (⟨S59412x500, .f32⟩ : BufTy).Contents (Elt Ideal)) (x1 : (⟨S200x29696, .f32⟩ : BufTy).Contents (Elt Ideal)) (x2 : (⟨S200x29716, .f32⟩ : BufTy).Contents (Elt Ideal)) (i : Fin 400) (j : Fin 59412) :
    val_main_v23 (F := Ideal) x0 x1 x2 (ix2 i j) = Ideal.sqrt (Cert.Spec.ssq (Cert.Spec.ctr (Ideal.ofBits .f32 0x43FA0000#32) (Cert.Spec.refsRow (fun a b => x0 (ix2 a b)) (fun a b => x1 (ix2 a b)) (fun a b => x2 (ix2 a b)) i))) := by
  rw [val_main_v23_apply, val_main_v20_apply, val_main_v19_apply, val_main_call0_v1_apply, val_main_call0_cst_apply]
  have e (k : Fin 500) : idx_main_call0_v1 (idx_main_v20 (idx_main_v23 (ix2 i j))) k = ix2 i k := funext fun a => Fin.ext (by match a with | ⟨0, _⟩ => rfl | ⟨1, _⟩ => rfl)
  simp only [e, val_main_call0_v0_apply, v10_apply, Ideal.ofBits_def, Ideal.ofBits_zero_f32, Ideal.mulf_def,
    Ideal.hostUnary_sqrt_def, Cert.Spec.ssq]

/-- The locus row's norm. -/
theorem v24_apply (x0 : (⟨S59412x500, .f32⟩ : BufTy).Contents (Elt Ideal)) (i : Fin 400) (j : Fin 59412) :
    val_main_v24 (F := Ideal) x0 (ix2 i j) = Ideal.sqrt (Cert.Spec.ssq (Cert.Spec.ctr (Ideal.ofBits .f32 0x43FA0000#32) (fun s => x0 (ix2 j s)))) := by
  rw [val_main_v24_apply, val_main_v22_apply, val_main_v21_apply, val_main_call1_v1_apply, val_main_call1_cst_apply]
  have e (k : Fin 500) : idx_main_call1_v1 (idx_main_v22 (idx_main_v24 (ix2 i j))) k = ix2 j k := funext fun a => Fin.ext (by match a with | ⟨0, _⟩ => rfl | ⟨1, _⟩ => rfl)
  simp only [e, val_main_call1_v0_apply, v16_apply, Ideal.ofBits_def, Ideal.ofBits_zero_f32, Ideal.mulf_def,
    Ideal.hostUnary_sqrt_def, Cert.Spec.ssq]

/-- The last stage at (i, j) is the specification's correlation of reference row i with locus row j. -/
theorem v26_apply (x0 : (⟨S59412x500, .f32⟩ : BufTy).Contents (Elt Ideal)) (x1 : (⟨S200x29696, .f32⟩ : BufTy).Contents (Elt Ideal)) (x2 : (⟨S200x29716, .f32⟩ : BufTy).Contents (Elt Ideal)) (i : Fin 400) (j : Fin 59412) :
    val_main_v26 (F := Ideal) x0 x1 x2 (ix2 i j)
      = Cert.Spec.refOut (Ideal.ofBits .f32 0x43FA0000#32) (Cert.Spec.refsRow (fun a b => x0 (ix2 a b)) (fun a b => x1 (ix2 a b)) (fun a b => x2 (ix2 a b)) i) (fun t => x0 (ix2 j t)) := by
  rw [val_main_v26_apply, val_main_v25_apply, v18_apply, v23_apply, v24_apply]
  simp only [Ideal.hostDivf_def, Ideal.mulf_def, Cert.Spec.refOut, zero_add]

/-- The reference's result at (i, j), of the launch contents. -/
theorem res_apply (m : (ℓ : Loc nD τ sig) → Buf (Elt Ideal) ℓ) (c : Dev nD) (i : Fin 400) (j : Fin 59412) :
    Cert.ReferenceIdeal.ValueP.res_main_v26 (F := Ideal) m c (ValueIdx.ix2 i j)
      = Cert.Spec.refOut (Ideal.ofBits .f32 0x43FA0000#32)
          (Cert.Spec.refsRow (fun a b => m ((c.tc : Thread nD τ).loc main_arg0) (ValueIdx.ix2 a b))
            (fun a b => m ((c.tc : Thread nD τ).loc main_arg1) (ValueIdx.ix2 a b))
            (fun a b => m ((c.tc : Thread nD τ).loc main_arg2) (ValueIdx.ix2 a b)) i)
          (fun t => m ((c.tc : Thread nD τ).loc main_arg0) (ValueIdx.ix2 j t)) := by
  rw [val_main_v26_eq]
  exact v26_apply _ _ _ i j

end Cert.ReferenceIdeal.RefValue

end
-- ==== Proof.lean ====
/-
  The certificate's claims. Both kernel programs run as twelve items (nine stretches of host operations, the
  reference-building kernel region, the stretch that centres and scales the references, the correlation kernel
  region); their frames are that run read at the three argument arrays — at the word level with the correlation
  region's result contents left unnamed (its last block overhangs the array, and what the body makes of the unnamed
  rows past the array's end is not stated there), at the ideal instance exactly. The reference is forty-one host
  operations. At the ideal instance both results are, entry (i, j), the Pearson correlation of reference row i with
  locus row j of X: the kernel scales the two centred rows by their reciprocal norms before contracting them (the
  locus row's reciprocal guarded against a zero sum of squares), the reference contracts first and divides by the
  product of the norms; on real entries with no locus row constant — the precondition — the two agree, a constant
  reference row giving the junk value of 0/0 on both sides. The idealization rewrote nothing, so `preserves` is
  trivial.
-/
import proofs.«159284_j4690104287245_2_alg».proof.Defs
import proofs.«159284_j4690104287245_2_alg».proof.Proof.Gen.Kernel
import proofs.«159284_j4690104287245_2_alg».proof.Proof.Gen.KernelIdeal
import proofs.«159284_j4690104287245_2_alg».proof.Proof.Gen.ReferenceIdeal
import proofs.«159284_j4690104287245_2_alg».proof.Proof.Gen.Pre_finite_inputs
import proofs.«159284_j4690104287245_2_alg».proof.Proof.Run
import proofs.«159284_j4690104287245_2_alg».proof.Proof.KRun
import proofs.«159284_j4690104287245_2_alg».proof.Proof.Bridge
import proofs.«159284_j4690104287245_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel's frame: its run with the correlation region's result window unnamed. -/
theorem frame_p : Cert.frame_Kernel := fun m ρ _ =>
  (θ_run Cert.Kernel.defs _ _).mono (fun _ h c => (h c).2)
    (Cert.Kernel.Hand.run_cond (F := Bits) m ρ Cert.Kernel.Hand.fgtOut rfl rfl
      (fun c => Cert.Kernel.Hand.body_obligation1_fgt _ c))

/-- The idealized kernel's frame: its exact run, read at the arguments. -/
theorem frame_pi : Cert.frame_KernelIdeal := fun m ρ _ =>
  (θ_run Cert.KernelIdeal.defs _ _).mono (fun _ h c => (h c).2)
    (Cert.KernelIdeal.Hand.run_cond (F := Ideal) m ρ (fun _ => false) rfl rfl
      (fun c => Cert.KernelIdeal.Hand.body_obligation1 _ Cert.KernelIdeal.Hand.rowLocal c))

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the common result. -/
theorem algebraic : Cert.algebraic_KernelIdeal_ReferenceIdeal := by
  intro m ρ m' ρ' hpre hagree
  refine ⟨fun c => Cert.KernelIdeal.Hand.outTab m c, ?_, ?_⟩
  · refine (θ_run Cert.KernelIdeal.defs _ _).mono (fun _ h c => ⟨((h c).1 rfl).trans ?_, (h c).2⟩)
      (Cert.KernelIdeal.Hand.run_cond (F := Ideal) m ρ (fun _ => false) rfl rfl
        (fun c => Cert.KernelIdeal.Hand.body_obligation1 _ Cert.KernelIdeal.Hand.rowLocal c))
    exact Cert.KernelIdeal.Hand.final_eq m c (hpre c)
  · refine (θ_run Cert.ReferenceIdeal.defs _ _).mono (fun _ h c => ⟨(h c).1.trans ?_, (h c).2⟩)
      (Cert.ReferenceIdeal.ValueP.run (F := Ideal) m' ρ')
    show (Cert.ReferenceIdeal.ValueP.res_main_v26 (F := Ideal) m' c : (⟨2, ![400, 59412]⟩ : Shape).Idx → EReal)
      = Cert.KernelIdeal.Hand.outTab m c
    funext idx
    obtain ⟨i, j, rfl⟩ : ∃ (i : Fin 400) (j : Fin 59412), idx = ix2 i j := ⟨idx 0, idx 1, eq_ix2 idx⟩
    rw [Cert.ReferenceIdeal.RefValue.res_apply, Cert.KernelIdeal.Hand.outTab_apply]
    simp only [Cert.KernelIdeal.Hand.tX, Cert.KernelIdeal.Hand.tWL, Cert.KernelIdeal.Hand.tWR,
      Cert.KernelIdeal.Hand.argX, Cert.KernelIdeal.Hand.argWL, Cert.KernelIdeal.Hand.argWR,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
